-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v272) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024 : Shape := ⟨2, ![4, 1024]⟩
abbrev S32000x512 : Shape := ⟨2, ![32000, 512]⟩
abbrev S512 : Shape := ⟨1, ![512]⟩
abbrev S3x2x1024x1024 : Shape := ⟨4, ![3, 2, 1024, 1024]⟩
abbrev S3x2x1024 : Shape := ⟨3, ![3, 2, 1024]⟩
abbrev S3x512 : Shape := ⟨2, ![3, 512]⟩
abbrev S32000 : Shape := ⟨1, ![32000]⟩
abbrev S_ : Shape := ⟨0, ![]⟩

class Facts : Prop where
  bcast_S_S32000x512 : S_.BroadcastsInDim S32000x512 (![] : Fin 0 → Fin S32000x512.rank)
  reducesTo_S32000x512_S_d0_1 : S32000x512.ReducesTo [0, 1] S_
  h_S_ : 0 < S_.numel
  bcast_S_S512 : S_.BroadcastsInDim S512 (![] : Fin 0 → Fin S512.rank)
  reducesTo_S512_S_d0 : S512.ReducesTo [0] S_
  bcast_S_S3x2x1024x1024 : S_.BroadcastsInDim S3x2x1024x1024 (![] : Fin 0 → Fin S3x2x1024x1024.rank)
  reducesTo_S3x2x1024x1024_S_d0_1_2_3 : S3x2x1024x1024.ReducesTo [0, 1, 2, 3] S_
  bcast_S_S3x2x1024 : S_.BroadcastsInDim S3x2x1024 (![] : Fin 0 → Fin S3x2x1024.rank)
  reducesTo_S3x2x1024_S_d0_1_2 : S3x2x1024.ReducesTo [0, 1, 2] S_
  bcast_S_S3x512 : S_.BroadcastsInDim S3x512 (![] : Fin 0 → Fin S3x512.rank)
  reducesTo_S3x512_S_d0_1 : S3x512.ReducesTo [0, 1] S_
  bcast_S_S32000 : S_.BroadcastsInDim S32000 (![] : Fin 0 → Fin S32000.rank)
  reducesTo_S32000_S_d0 : S32000.ReducesTo [0] S_
  bcast_S_S4x1024 : S_.BroadcastsInDim S4x1024 (![] : Fin 0 → Fin S4x1024.rank)
  reducesTo_S4x1024_S_d0_1 : S4x1024.ReducesTo [0, 1] S_

variable [Facts]

def fn_part3 {F : FTy → Type} [FloatOps F] (main_arg0 : IVec S4x1024 32) (main_v48 : IVec S_ 1) (main_v49 : FVec F S32000 .f32) (main_v50 : FVec F S32000 .f32) : IVec S_ 1 :=
  let main_v51 : IVec S32000 1 := cmpf .olt main_v49 main_v50
  let main_c_19 : IVec S_ 1 := constantI S_ 1 1#1
  let main_v52 : IVec S_ 1 := (fun x v => Host.reduce IntOp.andi x v reducesTo_S32000_S_d0 h_S_) main_v51 main_c_19
  let main_v53 : IVec S_ 1 := andi main_v48 main_v52
  let main_c_20 : IVec S_ 32 := constantI S_ 32 0#32
  let main_v54 : IVec S4x1024 32 := broadcastInDim S4x1024 ![] bcast_S_S4x1024 main_c_20
  let main_v55 : IVec S4x1024 1 := cmpi .sge main_arg0 main_v54
  let main_c_21 : IVec S_ 1 := constantI S_ 1 1#1
  let main_v56 : IVec S_ 1 := (fun x v => Host.reduce IntOp.andi x v reducesTo_S4x1024_S_d0_1 h_S_) main_v55 main_c_21
  let main_v57 : IVec S_ 1 := andi main_v53 main_v56
  main_v57

def fn_part2 {F : FTy → Type} [FloatOps F] (main_arg0 : IVec S4x1024 32) (main_arg8 : FVec F S3x512 .f32) (main_arg9 : FVec F S3x512 .f32) (main_arg10 : FVec F S32000x512 .f32) (main_arg11 : FVec F S32000 .f32) (main_v33 : IVec S_ 1) : IVec S_ 1 :=
  let main_v34 : FVec F S3x512 .f32 := Host.absf main_arg8
  let main_cst_12 : FVec F S_ .f32 := constant S_ .f32 0x7F800000#32
  let main_v35 : FVec F S3x512 .f32 := broadcastInDim S3x512 ![] bcast_S_S3x512 main_cst_12
  let main_v36 : IVec S3x512 1 := cmpf .olt main_v34 main_v35
  let main_c_13 : IVec S_ 1 := constantI S_ 1 1#1
  let main_v37 : IVec S_ 1 := (fun x v => Host.reduce IntOp.andi x v reducesTo_S3x512_S_d0_1 h_S_) main_v36 main_c_13
  let main_v38 : IVec S_ 1 := andi main_v33 main_v37
  let main_v39 : FVec F S3x512 .f32 := Host.absf main_arg9
  let main_cst_14 : FVec F S_ .f32 := constant S_ .f32 0x7F800000#32
  let main_v40 : FVec F S3x512 .f32 := broadcastInDim S3x512 ![] bcast_S_S3x512 main_cst_14
  let main_v41 : IVec S3x512 1 := cmpf .olt main_v39 main_v40
  let main_c_15 : IVec S_ 1 := constantI S_ 1 1#1
  let main_v42 : IVec S_ 1 := (fun x v => Host.reduce IntOp.andi x v reducesTo_S3x512_S_d0_1 h_S_) main_v41 main_c_15
  let main_v43 : IVec S_ 1 := andi main_v38 main_v42
  let main_v44 : FVec F S32000x512 .f32 := Host.absf main_arg10
  let main_cst_16 : FVec F S_ .f32 := constant S_ .f32 0x7F800000#32
  let main_v45 : FVec F S32000x512 .f32 := broadcastInDim S32000x512 ![] bcast_S_S32000x512 main_cst_16
  let main_v46 : IVec S32000x512 1 := cmpf .olt main_v44 main_v45
  let main_c_17 : IVec S_ 1 := constantI S_ 1 1#1
  let main_v47 : IVec S_ 1 := (fun x v => Host.reduce IntOp.andi x v reducesTo_S32000x512_S_d0_1 h_S_) main_v46 main_c_17
  let main_v48 : IVec S_ 1 := andi main_v43 main_v47
  let main_v49 : FVec F S32000 .f32 := Host.absf main_arg11
  let main_cst_18 : FVec F S_ .f32 := constant S_ .f32 0x7F800000#32
  let main_v50 : FVec F S32000 .f32 := broadcastInDim S32000 ![] bcast_S_S32000 main_cst_18
  fn_part3 (F := F) main_arg0 main_v48 main_v49 main_v50

def fn_part1 {F : FTy → Type} [FloatOps F] (main_arg0 : IVec S4x1024 32) (main_arg5 : FVec F S3x2x1024 .f32) (main_arg6 : FVec F S3x512 .f32) (main_arg7 : FVec F S3x512 .f32) (main_arg8 : FVec F S3x512 .f32) (main_arg9 : FVec F S3x512 .f32) (main_arg10 : FVec F S32000x512 .f32) (main_arg11 : FVec F S32000 .f32) (main_v13 : IVec S_ 1) (main_v16 : IVec S3x2x1024x1024 1) : IVec S_ 1 :=
  let main_c_5 : IVec S_ 1 := constantI S_ 1 1#1
  let main_v17 : IVec S_ 1 := (fun x v => Host.reduce IntOp.andi x v reducesTo_S3x2x1024x1024_S_d0_1_2_3 h_S_) main_v16 main_c_5
  let main_v18 : IVec S_ 1 := andi main_v13 main_v17
  let main_v19 : FVec F S3x2x1024 .f32 := Host.absf main_arg5
  let main_cst_6 : FVec F S_ .f32 := constant S_ .f32 0x7F800000#32
  let main_v20 : FVec F S3x2x1024 .f32 := broadcastInDim S3x2x1024 ![] bcast_S_S3x2x1024 main_cst_6
  let main_v21 : IVec S3x2x1024 1 := cmpf .olt main_v19 main_v20
  let main_c_7 : IVec S_ 1 := constantI S_ 1 1#1
  let main_v22 : IVec S_ 1 := (fun x v => Host.reduce IntOp.andi x v reducesTo_S3x2x1024_S_d0_1_2 h_S_) main_v21 main_c_7
  let main_v23 : IVec S_ 1 := andi main_v18 main_v22
  let main_v24 : FVec F S3x512 .f32 := Host.absf main_arg6
  let main_cst_8 : FVec F S_ .f32 := constant S_ .f32 0x7F800000#32
  let main_v25 : FVec F S3x512 .f32 := broadcastInDim S3x512 ![] bcast_S_S3x512 main_cst_8
  let main_v26 : IVec S3x512 1 := cmpf .olt main_v24 main_v25
  let main_c_9 : IVec S_ 1 := constantI S_ 1 1#1
  let main_v27 : IVec S_ 1 := (fun x v => Host.reduce IntOp.andi x v reducesTo_S3x512_S_d0_1 h_S_) main_v26 main_c_9
  let main_v28 : IVec S_ 1 := andi main_v23 main_v27
  let main_v29 : FVec F S3x512 .f32 := Host.absf main_arg7
  let main_cst_10 : FVec F S_ .f32 := constant S_ .f32 0x7F800000#32
  let main_v30 : FVec F S3x512 .f32 := broadcastInDim S3x512 ![] bcast_S_S3x512 main_cst_10
  let main_v31 : IVec S3x512 1 := cmpf .olt main_v29 main_v30
  let main_c_11 : IVec S_ 1 := constantI S_ 1 1#1
  let main_v32 : IVec S_ 1 := (fun x v => Host.reduce IntOp.andi x v reducesTo_S3x512_S_d0_1 h_S_) main_v31 main_c_11
  let main_v33 : IVec S_ 1 := andi main_v28 main_v32
  fn_part2 (F := F) main_arg0 main_arg8 main_arg9 main_arg10 main_arg11 main_v33

def fn {F : FTy → Type} [FloatOps F] (main_arg0 : IVec S4x1024 32) (main_arg1 : FVec F S32000x512 .f32) (main_arg2 : FVec F S512 .f32) (main_arg3 : FVec F S512 .f32) (main_arg4 : FVec F S3x2x1024x1024 .f32) (main_arg5 : FVec F S3x2x1024 .f32) (main_arg6 : FVec F S3x512 .f32) (main_arg7 : FVec F S3x512 .f32) (main_arg8 : FVec F S3x512 .f32) (main_arg9 : FVec F S3x512 .f32) (main_arg10 : FVec F S32000x512 .f32) (main_arg11 : FVec F S32000 .f32) : IVec S_ 1 :=
  let main_v0 : FVec F S32000x512 .f32 := Host.absf main_arg1
  let main_cst : FVec F S_ .f32 := constant S_ .f32 0x7F800000#32
  let main_v1 : FVec F S32000x512 .f32 := broadcastInDim S32000x512 ![] bcast_S_S32000x512 main_cst
  let main_v2 : IVec S32000x512 1 := cmpf .olt main_v0 main_v1
  let main_c : IVec S_ 1 := constantI S_ 1 1#1
  let main_v3 : IVec S_ 1 := (fun x v => Host.reduce IntOp.andi x v reducesTo_S32000x512_S_d0_1 h_S_) main_v2 main_c
  let main_v4 : FVec F S512 .f32 := Host.absf main_arg2
  let main_cst_0 : FVec F S_ .f32 := constant S_ .f32 0x7F800000#32
  let main_v5 : FVec F S512 .f32 := broadcastInDim S512 ![] bcast_S_S512 main_cst_0
  let main_v6 : IVec S512 1 := cmpf .olt main_v4 main_v5
  let main_c_1 : IVec S_ 1 := constantI S_ 1 1#1
  let main_v7 : IVec S_ 1 := (fun x v => Host.reduce IntOp.andi x v reducesTo_S512_S_d0 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S3x2x1024x1024 .f32 := Host.absf main_arg4
  let main_cst_4 : FVec F S_ .f32 := constant S_ .f32 0x7F800000#32
  let main_v15 : FVec F S3x2x1024x1024 .f32 := broadcastInDim S3x2x1024x1024 ![] bcast_S_S3x2x1024x1024 main_cst_4
  let main_v16 : IVec S3x2x1024x1024 1 := cmpf .olt main_v14 main_v15
  fn_part1 (F := F) main_arg0 main_arg5 main_arg6 main_arg7 main_arg8 main_arg9 main_arg10 main_arg11 main_v13 main_v16
-- ==== Kernel.lean ====
abbrev S4x1024 : Shape := ⟨2, ![4, 1024]⟩
abbrev S32000x512 : Shape := ⟨2, ![32000, 512]⟩
abbrev S512 : Shape := ⟨1, ![512]⟩
abbrev S3x2x1024x1024 : Shape := ⟨4, ![3, 2, 1024, 1024]⟩
abbrev S3x2x1024 : Shape := ⟨3, ![3, 2, 1024]⟩
abbrev S3x512 : Shape := ⟨2, ![3, 512]⟩
abbrev S32000 : Shape := ⟨1, ![32000]⟩
abbrev S4096 : Shape := ⟨1, ![4096]⟩
abbrev S4096x1 : Shape := ⟨2, ![4096, 1]⟩
abbrev S4096x512 : Shape := ⟨2, ![4096, 512]⟩
abbrev S512x512 : Shape := ⟨2, ![512, 512]⟩
abbrev S512x1 : Shape := ⟨2, ![512, 1]⟩
abbrev S1x512 : Shape := ⟨2, ![1, 512]⟩
abbrev S512x1024 : Shape := ⟨2, ![512, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1024 : Shape := ⟨1, ![1024]⟩
abbrev S1x1024 : Shape := ⟨2, ![1, 1024]⟩
abbrev S1x32000 : Shape := ⟨2, ![1, 32000]⟩
abbrev S4096x32000 : Shape := ⟨2, ![4096, 32000]⟩
abbrev S1280x512 : Shape := ⟨2, ![1280, 512]⟩
abbrev S1x1280 : Shape := ⟨2, ![1, 1280]⟩
abbrev S512x1280 : Shape := ⟨2, ![512, 1280]⟩
abbrev S4x1024x32000 : Shape := ⟨3, ![4, 1024, 32000]⟩

abbrev nBuf : Space → Nat
  | .hbm => 20
  | .vmem => 19
  | .smem => 0
  | _ => 0

abbrev bufTy : (tb : Table) → Fin (tcTables nBuf tb) → BufTy
  | .hbm, ⟨0, _⟩ => ⟨S4x1024, .i32⟩
  | .hbm, ⟨1, _⟩ => ⟨S32000x512, .f32⟩
  | .hbm, ⟨2, _⟩ => ⟨S512, .f32⟩
  | .hbm, ⟨3, _⟩ => ⟨S512, .f32⟩
  | .hbm, ⟨4, _⟩ => ⟨S3x2x1024x1024, .f32⟩
  | .hbm, ⟨5, _⟩ => ⟨S3x2x1024, .f32⟩
  | .hbm, ⟨6, _⟩ => ⟨S3x512, .f32⟩
  | .hbm, ⟨7, _⟩ => ⟨S3x512, .f32⟩
  | .hbm, ⟨8, _⟩ => ⟨S3x512, .f32⟩
  | .hbm, ⟨9, _⟩ => ⟨S3x512, .f32⟩
  | .hbm, ⟨10, _⟩ => ⟨S32000x512, .f32⟩
  | .hbm, ⟨11, _⟩ => ⟨S32000, .f32⟩
  | .hbm, ⟨12, _⟩ => ⟨S4096, .i32⟩
  | .hbm, ⟨13, _⟩ => ⟨S4096x1, .i32⟩
  | .hbm, ⟨14, _⟩ => ⟨S4096x512, .f32⟩
  | .hbm, ⟨15, _⟩ => ⟨S3x2x1024x1024, .bf16⟩
  | .hbm, ⟨16, _⟩ => ⟨S4096x512, .bf16⟩
  | .hbm, ⟨17, _⟩ => ⟨S1x32000, .f32⟩
  | .hbm, ⟨18, _⟩ => ⟨S4096x32000, .f32⟩
  | .hbm, ⟨19, _⟩ => ⟨S4x1024x32000, .f32⟩
  | .local _ .vmem, ⟨0, _⟩ => ⟨S512x512, .f32⟩
  | .local _ .vmem, ⟨1, _⟩ => ⟨S512x512, .f32⟩
  | .local _ .vmem, ⟨2, _⟩ => ⟨S512, .f32⟩
  | .local _ .vmem, ⟨3, _⟩ => ⟨S512, .f32⟩
  | .local _ .vmem, ⟨4, _⟩ => ⟨S3x2x1024x1024, .bf16⟩
  | .local _ .vmem, ⟨5, _⟩ => ⟨S3x2x1024, .f32⟩
  | .local _ .vmem, ⟨6, _⟩ => ⟨S3x512, .f32⟩
  | .local _ .vmem, ⟨7, _⟩ => ⟨S3x512, .f32⟩
  | .local _ .vmem, ⟨8, _⟩ => ⟨S3x512, .f32⟩
  | .local _ .vmem, ⟨9, _⟩ => ⟨S3x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S1280x512, .f32⟩
  | .local _ .vmem, ⟨14, _⟩ => ⟨S1280x512, .f32⟩
  | .local _ .vmem, ⟨15, _⟩ => ⟨S1x1280, .f32⟩
  | .local _ .vmem, ⟨16, _⟩ => ⟨S1x1280, .f32⟩
  | .local _ .vmem, ⟨17, _⟩ => ⟨S512x1280, .f32⟩
  | .local _ .vmem, ⟨18, _⟩ => ⟨S512x1280, .f32⟩
  | _, _ => ⟨S4x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![25, 8], ![false, false]⟩

def k1_mult1 (i : grid1.Coords) : BitVec 32 :=
  let arg1 : BitVec 32 := BitVec.ofNat 32 (i 1).val
  let c512_i32 : BitVec 32 := 512#32
  let v0 : BitVec 32 := Scalar.muli arg1 c512_i32
  v0
def k1_off1 (i : grid1.Coords) : Fin 2 → Nat :=
  let arg1 : BitVec 32 := BitVec.ofNat 32 (i 1).val
  let c512_i32 : BitVec 32 := 512#32
  let v0 : BitVec 32 := Scalar.muli arg1 c512_i32
  let v1 : BitVec 32 := v0
  let v2 : Index := Scalar.indexCast v1
  let c0 : Index := 0#32
  ![v2.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S4096x512 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1280x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1280 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S512x1280 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  shapeCasts_S4x1024_S4096 : S4x1024.ShapeCasts S4096
  bcast_S4096_S4096x1_0 : S4096.BroadcastsInDim S4096x1 (![0] : Fin 1 → Fin S4096x1.rank)
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512_S512_0 : ∀ a, (![0] : Fin 1 → Nat) a + S512.size a ≤ S512.size a
  h_S512 : 0 < S512.numel
  reduces_S512x512_S512 : S512x512.Reduces [1] S512
  shapeCasts_S512_S512x1 : S512.ShapeCasts S512x1
  broadcasts_S512x1_S512x512 : S512x1.Broadcasts S512x512
  shapeCasts_S512_S1x512 : S512.ShapeCasts S1x512
  broadcasts_S1x512_S512x512 : S1x512.Broadcasts S512x512
  concatenates_S512x512_S512x512_S512x1024_d1 : Shape.Concatenates [S512x512, S512x512] S512x1024 1
  inb_S3x2x1024x1024_S1x1x1024x1024_0_0_0_0 : ∀ a, (![0, 0, 0, 0] : Fin 4 → Nat) a + S1x1x1024x1024.size a ≤ S3x2x1024x1024.size a
  h_S1x1x1024x1024 : 0 < S1x1x1024x1024.numel
  shapeCasts_S1x1x1024x1024_S1024x1024 : S1x1x1024x1024.ShapeCasts S1024x1024
  inb_S3x2x1024_S1x1x1024_0_0_0 : ∀ a, (![0, 0, 0] : Fin 3 → Nat) a + S1x1x1024.size a ≤ S3x2x1024.size a
  h_S1x1x1024 : 0 < S1x1x1024.numel
  shapeCasts_S1x1x1024_S1024 : S1x1x1024.ShapeCasts S1024
  shapeCasts_S1024_S1x1024 : S1024.ShapeCasts S1x1024
  broadcasts_S1x1024_S512x1024 : S1x1024.Broadcasts S512x1024
  inb_S3x2x1024x1024_S1x1x1024x1024_0_1_0_0 : ∀ a, (![0, 1, 0, 0] : Fin 4 → Nat) a + S1x1x1024x1024.size a ≤ S3x2x1024x1024.size a
  inb_S3x2x1024_S1x1x1024_0_1_0 : ∀ a, (![0, 1, 0] : Fin 3 → Nat) a + S1x1x1024.size a ≤ S3x2x1024.size a
  slices_S512x1024_o0_0_S512x512 : S512x1024.Slices ![0, 0] S512x512
  inb_S3x512_S1x512_0_0 : ∀ a, (![0, 0] : Fin 2 → Nat) a + S1x512.size a ≤ S3x512.size a
  h_S1x512 : 0 < S1x512.numel
  shapeCasts_S1x512_S512 : S1x512.ShapeCasts S512
  slices_S512x1024_o0_512_S512x512 : S512x1024.Slices ![0, 512] S512x512
  inb_S3x2x1024x1024_S1x1x1024x1024_1_0_0_0 : ∀ a, (![1, 0, 0, 0] : Fin 4 → Nat) a + S1x1x1024x1024.size a ≤ S3x2x1024x1024.size a
  inb_S3x2x1024_S1x1x1024_1_0_0 : ∀ a, (![1, 0, 0] : Fin 3 → Nat) a + S1x1x1024.size a ≤ S3x2x1024.size a
  inb_S3x2x1024x1024_S1x1x1024x1024_1_1_0_0 : ∀ a, (![1, 1, 0, 0] : Fin 4 → Nat) a + S1x1x1024x1024.size a ≤ S3x2x1024x1024.size a
  inb_S3x2x1024_S1x1x1024_1_1_0 : ∀ a, (![1, 1, 0] : Fin 3 → Nat) a + S1x1x1024.size a ≤ S3x2x1024.size a
  inb_S3x512_S1x512_1_0 : ∀ a, (![1, 0] : Fin 2 → Nat) a + S1x512.size a ≤ S3x512.size a
  inb_S3x2x1024x1024_S1x1x1024x1024_2_0_0_0 : ∀ a, (![2, 0, 0, 0] : Fin 4 → Nat) a + S1x1x1024x1024.size a ≤ S3x2x1024x1024.size a
  inb_S3x2x1024_S1x1x1024_2_0_0 : ∀ a, (![2, 0, 0] : Fin 3 → Nat) a + S1x1x1024.size a ≤ S3x2x1024.size a
  inb_S3x2x1024x1024_S1x1x1024x1024_2_1_0_0 : ∀ a, (![2, 1, 0, 0] : Fin 4 → Nat) a + S1x1x1024x1024.size a ≤ S3x2x1024x1024.size a
  inb_S3x2x1024_S1x1x1024_2_1_0 : ∀ a, (![2, 1, 0] : Fin 3 → Nat) a + S1x1x1024.size a ≤ S3x2x1024.size a
  inb_S3x512_S1x512_2_0 : ∀ a, (![2, 0] : Fin 2 → Nat) a + S1x512.size a ≤ S3x512.size a
  packedbf16_S512x512_S512x512_0_0 : (Rect.unit (s := S512x512) ![0, 0] S512x512.size inb_S512x512_S512x512_0_0).PackedRows (EltTy.packing .bf16)
  shapeCasts_S32000_S1x32000 : S32000.ShapeCasts S1x32000
  inb_S1280x512_S1280x512_0_0 : ∀ a, (![0, 0] : Fin 2 → Nat) a + S1280x512.size a ≤ S1280x512.size a
  h_S1280x512 : 0 < S1280x512.numel
  inb_S1x1280_S1x1280_0_0 : ∀ a, (![0, 0] : Fin 2 → Nat) a + S1x1280.size a ≤ S1x1280.size a
  h_S1x1280 : 0 < S1x1280.numel
  shapeCasts_S1x1280_S1x1280 : S1x1280.ShapeCasts S1x1280
  broadcasts_S1x1280_S512x1280 : S1x1280.Broadcasts S512x1280
  inb_S512x1280_S512x1280_0_0 : ∀ a, (![0, 0] : Fin 2 → Nat) a + S512x1280.size a ≤ S512x1280.size a
  h_S512x1280 : 0 < S512x1280.numel
  shapeCasts_S4096x32000_S4x1024x32000 : S4096x32000.ShapeCasts S4x1024x32000
  gather_S32000x512_S4096x1_S4096x512_1_0_n_n_0_1_1512_wf : GatherDims.WF S32000x512 S4096x1 S4096x512 [1] [0] [] [0] [] 1 ![1, 512]
  dot_S512x1024_S1024x1024_S512x1024_1_1_0_0_n_n_wf : DotDims.WF S512x1024 S1024x1024 S512x1024 [1] [1] [0] [0] [] []
  dot_S512x512_S1280x512_S512x1280_1_1_0_0_n_n_wf : DotDims.WF S512x512 S1280x512 S512x1280 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x512.size a
  hwx0_0 : ∀ i : grid0.Coords, EltTy.bits .f32 = 32 ∨ (Rect.block (s := S4096x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512.size a ≤ S512.size a
  hwx0_1 : ∀ i : grid0.Coords, EltTy.bits .f32 = 32 ∨ (Rect.block (s := S512) S512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x2x1024x1024.size a ≤ S3x2x1024x1024.size a
  hwx0_3 : ∀ i : grid0.Coords, EltTy.bits .bf16 = 32 ∨ (Rect.block (s := S3x2x1024x1024) S3x2x1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x2x1024.size a ≤ S3x2x1024.size a
  hwx0_4 : ∀ i : grid0.Coords, EltTy.bits .f32 = 32 ∨ (Rect.block (s := S3x2x1024) S3x2x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512.size a ≤ S3x512.size a
  hwx0_5 : ∀ i : grid0.Coords, EltTy.bits .f32 = 32 ∨ (Rect.block (s := S3x512) S3x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x512.size a ≤ S3x512.size a
  hwx0_6 : ∀ i : grid0.Coords, EltTy.bits .f32 = 32 ∨ (Rect.block (s := S3x512) S3x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x512.size a ≤ S3x512.size a
  hwx0_7 : ∀ i : grid0.Coords, EltTy.bits .f32 = 32 ∨ (Rect.block (s := S3x512) S3x512.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x512.size a ≤ S3x512.size a
  hwx0_8 : ∀ i : grid0.Coords, EltTy.bits .f32 = 32 ∨ (Rect.block (s := S3x512) S3x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x512.size a ≤ S4096x512.size a
  hwx0_9 : ∀ i : grid0.Coords, EltTy.bits .bf16 = 32 ∨ (Rect.block (s := S4096x512) S512x512.size (cc0_transform_9 i) (hinb0_9 i)).WholeWords (EltTy.packing .bf16)
  hrank1 : 0 < grid1.rank
  k1_mult1_dvd : ∀ i : grid1.Coords, 512 ∣ (k1_mult1 i).toNat
  k1_off1_inb : ∀ i : grid1.Coords, ∀ a, (k1_off1 i) a + S512x512.size a ≤ S4096x512.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x512.size a
  hwx1_0 : ∀ i : grid1.Coords, EltTy.bits .bf16 = 32 ∨ (Rect.block (s := S4096x512) S4096x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1280x512.size a ≤ S32000x512.size a
  hwx1_1 : ∀ i : grid1.Coords, EltTy.bits .f32 = 32 ∨ (Rect.block (s := S32000x512) S1280x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1280.size a ≤ S1x32000.size a
  hwx1_2 : ∀ i : grid1.Coords, EltTy.bits .f32 = 32 ∨ (Rect.block (s := S1x32000) S1x1280.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1280.size a ≤ S4096x32000.size a
  hwx1_3 : ∀ i : grid1.Coords, EltTy.bits .f32 = 32 ∨ (Rect.block (s := S4096x32000) S512x1280.size (cc1_transform_3 i) (hinb1_3 i)).WholeWords (EltTy.packing .f32)

variable [Facts₀]

def gather_S32000x512_S4096x1_S4096x512_1_0_n_n_0_1_1512 : GatherDims S32000x512 S4096x1 S4096x512 where
  offsetDims := [1]
  collapsedSliceDims := [0]
  operandBatchingDims := []
  startIndicesBatchingDims := []
  startIndexMap := [0]
  indexVectorDim := 1
  sliceSizes := ![1, 512]
  wf := gather_S32000x512_S4096x1_S4096x512_1_0_n_n_0_1_1512_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x512_S1280x512_S512x1280_1_1_0_0_n_n : DotDims S512x512 S1280x512 S512x1280 where
  lhsContracting := [1]
  rhsContracting := [1]
  lhsNonContracting := [0]
  rhsNonContracting := [0]
  lhsBatch := []
  rhsBatch := []
  wf := dot_S512x512_S1280x512_S512x1280_1_1_0_0_n_n_wf

abbrev win0_0 : Pipeline.Window sig grid0 :=
  Pipeline.Window.ofSpec (Memref.whole main_v1) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S3x2x1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S3x2x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S3x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S3x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S3x512.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x512.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v3) S4096x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg10) S1280x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1280.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S512x1280.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4x1024 : Shape := ⟨2, ![4, 1024]⟩
abbrev S32000x512 : Shape := ⟨2, ![32000, 512]⟩
abbrev S512 : Shape := ⟨1, ![512]⟩
abbrev S3x2x1024x1024 : Shape := ⟨4, ![3, 2, 1024, 1024]⟩
abbrev S3x2x1024 : Shape := ⟨3, ![3, 2, 1024]⟩
abbrev S3x512 : Shape := ⟨2, ![3, 512]⟩
abbrev S32000 : Shape := ⟨1, ![32000]⟩
abbrev S_ : Shape := ⟨0, ![]⟩
abbrev S4x1024x1 : Shape := ⟨3, ![4, 1024, 1]⟩
abbrev S4x1024x512 : Shape := ⟨3, ![4, 1024, 512]⟩
abbrev S1x1x512 : Shape := ⟨3, ![1, 1, 512]⟩
abbrev S4x1024x1024 : Shape := ⟨3, ![4, 1024, 1024]⟩
abbrev S1x1x1024x1024 : Shape := ⟨4, ![1, 1, 1024, 1024]⟩
abbrev S1024x1024 : Shape := ⟨2, ![1024, 1024]⟩
abbrev S1x1x1024 : Shape := ⟨3, ![1, 1, 1024]⟩
abbrev S1024 : Shape := ⟨1, ![1024]⟩
abbrev S1x512 : Shape := ⟨2, ![1, 512]⟩
abbrev S4x1024x32000 : Shape := ⟨3, ![4, 1024, 32000]⟩
abbrev S1x1x32000 : Shape := ⟨3, ![1, 1, 32000]⟩

abbrev nBuf : Space → Nat
  | .hbm => 335
  | .vmem => 0
  | .smem => 0
  | _ => 0

abbrev hbmTy0_0 (i : Nat) : BufTy := match i % 128 with
  | 0 => ⟨S4x1024, .i32⟩
  | 1 => ⟨S32000x512, .f32⟩
  | 2 => ⟨S512, .f32⟩
  | 3 => ⟨S512, .f32⟩
  | 4 => ⟨S3x2x1024x1024, .f32⟩
  | 5 => ⟨S3x2x1024, .f32⟩
  | 6 => ⟨S3x512, .f32⟩
  | 7 => ⟨S3x512, .f32⟩
  | 8 => ⟨S3x512, .f32⟩
  | 9 => ⟨S3x512, .f32⟩
  | 10 => ⟨S32000x512, .f32⟩
  | 11 => ⟨S32000, .f32⟩
  | 12 => ⟨S_, .i32⟩
  | 13 => ⟨S4x1024, .i32⟩
  | 14 => ⟨S4x1024, .i1⟩
  | 15 => ⟨S_, .i32⟩
  | 16 => ⟨S4x1024, .i32⟩
  | 17 => ⟨S4x1024, .i32⟩
  | 18 => ⟨S4x1024, .i32⟩
  | 19 => ⟨S4x1024x1, .i32⟩
  | 20 => ⟨S4x1024x512, .f32⟩
  | 21 => ⟨S_, .f32⟩
  | 22 => ⟨S4x1024, .f32⟩
  | 23 => ⟨S4x1024x1, .f32⟩
  | 24 => ⟨S_, .f32⟩
  | 25 => ⟨S4x1024x1, .f32⟩
  | 26 => ⟨S4x1024x1, .f32⟩
  | 27 => ⟨S4x1024x512, .f32⟩
  | 28 => ⟨S4x1024x512, .f32⟩
  | 29 => ⟨S4x1024x512, .f32⟩
  | 30 => ⟨S_, .f32⟩
  | 31 => ⟨S4x1024, .f32⟩
  | 32 => ⟨S4x1024x1, .f32⟩
  | 33 => ⟨S_, .f32⟩
  | 34 => ⟨S4x1024x1, .f32⟩
  | 35 => ⟨S4x1024x1, .f32⟩
  | 36 => ⟨S4x1024x512, .f32⟩
  | 37 => ⟨S4x1024x512, .f32⟩
  | 38 => ⟨S_, .f32⟩
  | 39 => ⟨S4x1024x1, .f32⟩
  | 40 => ⟨S4x1024x1, .f32⟩
  | 41 => ⟨S4x1024x1, .f32⟩
  | 42 => ⟨S4x1024x512, .f32⟩
  | 43 => ⟨S4x1024x512, .f32⟩
  | 44 => ⟨S1x1x512, .f32⟩
  | 45 => ⟨S4x1024x512, .f32⟩
  | 46 => ⟨S4x1024x512, .f32⟩
  | 47 => ⟨S1x1x512, .f32⟩
  | 48 => ⟨S4x1024x512, .f32⟩
  | 49 => ⟨S4x1024x512, .f32⟩
  | 50 => ⟨S_, .f32⟩
  | 51 => ⟨S4x1024x512, .f32⟩
  | 52 => ⟨S4x1024x1024, .f32⟩
  | 53 => ⟨S1x1x1024x1024, .f32⟩
  | 54 => ⟨S1024x1024, .f32⟩
  | 55 => ⟨S4x1024x1024, .f32⟩
  | 56 => ⟨S1x1x1024, .f32⟩
  | 57 => ⟨S1024, .f32⟩
  | 58 => ⟨S1x1x1024, .f32⟩
  | 59 => ⟨S4x1024x1024, .f32⟩
  | 60 => ⟨S4x1024x1024, .f32⟩
  | 61 => ⟨S_, .f32⟩
  | 62 => ⟨S4x1024x1024, .f32⟩
  | 63 => ⟨S4x1024x1024, .f32⟩
  | 64 => ⟨S1x1x1024x1024, .f32⟩
  | 65 => ⟨S1024x1024, .f32⟩
  | 66 => ⟨S4x1024x1024, .f32⟩
  | 67 => ⟨S1x1x1024, .f32⟩
  | 68 => ⟨S1024, .f32⟩
  | 69 => ⟨S1x1x1024, .f32⟩
  | 70 => ⟨S4x1024x1024, .f32⟩
  | 71 => ⟨S4x1024x1024, .f32⟩
  | 72 => ⟨S_, .f32⟩
  | 73 => ⟨S4x1024x1024, .f32⟩
  | 74 => ⟨S4x1024x1024, .f32⟩
  | 75 => ⟨S4x1024x512, .f32⟩
  | 76 => ⟨S4x1024x512, .f32⟩
  | 77 => ⟨S1x512, .f32⟩
  | 78 => ⟨S512, .f32⟩
  | 79 => ⟨S1x512, .f32⟩
  | 80 => ⟨S512, .f32⟩
  | 81 => ⟨S_, .f32⟩
  | 82 => ⟨S4x1024, .f32⟩
  | 83 => ⟨S4x1024x1, .f32⟩
  | 84 => ⟨S_, .f32⟩
  | 85 => ⟨S4x1024x1, .f32⟩
  | 86 => ⟨S4x1024x1, .f32⟩
  | 87 => ⟨S4x1024x512, .f32⟩
  | 88 => ⟨S4x1024x512, .f32⟩
  | 89 => ⟨S4x1024x512, .f32⟩
  | 90 => ⟨S_, .f32⟩
  | 91 => ⟨S4x1024, .f32⟩
  | 92 => ⟨S4x1024x1, .f32⟩
  | 93 => ⟨S_, .f32⟩
  | 94 => ⟨S4x1024x1, .f32⟩
  | 95 => ⟨S4x1024x1, .f32⟩
  | 96 => ⟨S4x1024x512, .f32⟩
  | 97 => ⟨S4x1024x512, .f32⟩
  | 98 => ⟨S_, .f32⟩
  | 99 => ⟨S4x1024x1, .f32⟩
  | 100 => ⟨S4x1024x1, .f32⟩
  | 101 => ⟨S4x1024x1, .f32⟩
  | 102 => ⟨S4x1024x512, .f32⟩
  | 103 => ⟨S4x1024x512, .f32⟩
  | 104 => ⟨S1x1x512, .f32⟩
  | 105 => ⟨S4x1024x512, .f32⟩
  | 106 => ⟨S4x1024x512, .f32⟩
  | 107 => ⟨S1x1x512, .f32⟩
  | 108 => ⟨S4x1024x512, .f32⟩
  | 109 => ⟨S4x1024x512, .f32⟩
  | 110 => ⟨S4x1024x512, .f32⟩
  | 111 => ⟨S4x1024x512, .f32⟩
  | 112 => ⟨S1x512, .f32⟩
  | 113 => ⟨S512, .f32⟩
  | 114 => ⟨S1x512, .f32⟩
  | 115 => ⟨S512, .f32⟩
  | 116 => ⟨S_, .f32⟩
  | 117 => ⟨S4x1024, .f32⟩
  | 118 => ⟨S4x1024x1, .f32⟩
  | 119 => ⟨S_, .f32⟩
  | 120 => ⟨S4x1024x1, .f32⟩
  | 121 => ⟨S4x1024x1, .f32⟩
  | 122 => ⟨S4x1024x512, .f32⟩
  | 123 => ⟨S4x1024x512, .f32⟩
  | 124 => ⟨S4x1024x512, .f32⟩
  | 125 => ⟨S_, .f32⟩
  | 126 => ⟨S4x1024, .f32⟩
  | 127 => ⟨S4x1024x1, .f32⟩
  | _ => ⟨S4x1024, .i32⟩

abbrev hbmTy0_1 (i : Nat) : BufTy := match i % 128 with
  | 0 => ⟨S_, .f32⟩
  | 1 => ⟨S4x1024x1, .f32⟩
  | 2 => ⟨S4x1024x1, .f32⟩
  | 3 => ⟨S4x1024x512, .f32⟩
  | 4 => ⟨S4x1024x512, .f32⟩
  | 5 => ⟨S_, .f32⟩
  | 6 => ⟨S4x1024x1, .f32⟩
  | 7 => ⟨S4x1024x1, .f32⟩
  | 8 => ⟨S4x1024x1, .f32⟩
  | 9 => ⟨S4x1024x512, .f32⟩
  | 10 => ⟨S4x1024x512, .f32⟩
  | 11 => ⟨S1x1x512, .f32⟩
  | 12 => ⟨S4x1024x512, .f32⟩
  | 13 => ⟨S4x1024x512, .f32⟩
  | 14 => ⟨S1x1x512, .f32⟩
  | 15 => ⟨S4x1024x512, .f32⟩
  | 16 => ⟨S4x1024x512, .f32⟩
  | 17 => ⟨S4x1024x1024, .f32⟩
  | 18 => ⟨S1x1x1024x1024, .f32⟩
  | 19 => ⟨S1024x1024, .f32⟩
  | 20 => ⟨S4x1024x1024, .f32⟩
  | 21 => ⟨S1x1x1024, .f32⟩
  | 22 => ⟨S1024, .f32⟩
  | 23 => ⟨S1x1x1024, .f32⟩
  | 24 => ⟨S4x1024x1024, .f32⟩
  | 25 => ⟨S4x1024x1024, .f32⟩
  | 26 => ⟨S_, .f32⟩
  | 27 => ⟨S4x1024x1024, .f32⟩
  | 28 => ⟨S4x1024x1024, .f32⟩
  | 29 => ⟨S1x1x1024x1024, .f32⟩
  | 30 => ⟨S1024x1024, .f32⟩
  | 31 => ⟨S4x1024x1024, .f32⟩
  | 32 => ⟨S1x1x1024, .f32⟩
  | 33 => ⟨S1024, .f32⟩
  | 34 => ⟨S1x1x1024, .f32⟩
  | 35 => ⟨S4x1024x1024, .f32⟩
  | 36 => ⟨S4x1024x1024, .f32⟩
  | 37 => ⟨S_, .f32⟩
  | 38 => ⟨S4x1024x1024, .f32⟩
  | 39 => ⟨S4x1024x1024, .f32⟩
  | 40 => ⟨S4x1024x512, .f32⟩
  | 41 => ⟨S4x1024x512, .f32⟩
  | 42 => ⟨S1x512, .f32⟩
  | 43 => ⟨S512, .f32⟩
  | 44 => ⟨S1x512, .f32⟩
  | 45 => ⟨S512, .f32⟩
  | 46 => ⟨S_, .f32⟩
  | 47 => ⟨S4x1024, .f32⟩
  | 48 => ⟨S4x1024x1, .f32⟩
  | 49 => ⟨S_, .f32⟩
  | 50 => ⟨S4x1024x1, .f32⟩
  | 51 => ⟨S4x1024x1, .f32⟩
  | 52 => ⟨S4x1024x512, .f32⟩
  | 53 => ⟨S4x1024x512, .f32⟩
  | 54 => ⟨S4x1024x512, .f32⟩
  | 55 => ⟨S_, .f32⟩
  | 56 => ⟨S4x1024, .f32⟩
  | 57 => ⟨S4x1024x1, .f32⟩
  | 58 => ⟨S_, .f32⟩
  | 59 => ⟨S4x1024x1, .f32⟩
  | 60 => ⟨S4x1024x1, .f32⟩
  | 61 => ⟨S4x1024x512, .f32⟩
  | 62 => ⟨S4x1024x512, .f32⟩
  | 63 => ⟨S_, .f32⟩
  | 64 => ⟨S4x1024x1, .f32⟩
  | 65 => ⟨S4x1024x1, .f32⟩
  | 66 => ⟨S4x1024x1, .f32⟩
  | 67 => ⟨S4x1024x512, .f32⟩
  | 68 => ⟨S4x1024x512, .f32⟩
  | 69 => ⟨S1x1x512, .f32⟩
  | 70 => ⟨S4x1024x512, .f32⟩
  | 71 => ⟨S4x1024x512, .f32⟩
  | 72 => ⟨S1x1x512, .f32⟩
  | 73 => ⟨S4x1024x512, .f32⟩
  | 74 => ⟨S4x1024x512, .f32⟩
  | 75 => ⟨S4x1024x512, .f32⟩
  | 76 => ⟨S4x1024x512, .f32⟩
  | 77 => ⟨S1x512, .f32⟩
  | 78 => ⟨S512, .f32⟩
  | 79 => ⟨S1x512, .f32⟩
  | 80 => ⟨S512, .f32⟩
  | 81 => ⟨S_, .f32⟩
  | 82 => ⟨S4x1024, .f32⟩
  | 83 => ⟨S4x1024x1, .f32⟩
  | 84 => ⟨S_, .f32⟩
  | 85 => ⟨S4x1024x1, .f32⟩
  | 86 => ⟨S4x1024x1, .f32⟩
  | 87 => ⟨S4x1024x512, .f32⟩
  | 88 => ⟨S4x1024x512, .f32⟩
  | 89 => ⟨S4x1024x512, .f32⟩
  | 90 => ⟨S_, .f32⟩
  | 91 => ⟨S4x1024, .f32⟩
  | 92 => ⟨S4x1024x1, .f32⟩
  | 93 => ⟨S_, .f32⟩
  | 94 => ⟨S4x1024x1, .f32⟩
  | 95 => ⟨S4x1024x1, .f32⟩
  | 96 => ⟨S4x1024x512, .f32⟩
  | 97 => ⟨S4x1024x512, .f32⟩
  | 98 => ⟨S_, .f32⟩
  | 99 => ⟨S4x1024x1, .f32⟩
  | 100 => ⟨S4x1024x1, .f32⟩
  | 101 => ⟨S4x1024x1, .f32⟩
  | 102 => ⟨S4x1024x512, .f32⟩
  | 103 => ⟨S4x1024x512, .f32⟩
  | 104 => ⟨S1x1x512, .f32⟩
  | 105 => ⟨S4x1024x512, .f32⟩
  | 106 => ⟨S4x1024x512, .f32⟩
  | 107 => ⟨S1x1x512, .f32⟩
  | 108 => ⟨S4x1024x512, .f32⟩
  | 109 => ⟨S4x1024x512, .f32⟩
  | 110 => ⟨S4x1024x1024, .f32⟩
  | 111 => ⟨S1x1x1024x1024, .f32⟩
  | 112 => ⟨S1024x1024, .f32⟩
  | 113 => ⟨S4x1024x1024, .f32⟩
  | 114 => ⟨S1x1x1024, .f32⟩
  | 115 => ⟨S1024, .f32⟩
  | 116 => ⟨S1x1x1024, .f32⟩
  | 117 => ⟨S4x1024x1024, .f32⟩
  | 118 => ⟨S4x1024x1024, .f32⟩
  | 119 => ⟨S_, .f32⟩
  | 120 => ⟨S4x1024x1024, .f32⟩
  | 121 => ⟨S4x1024x1024, .f32⟩
  | 122 => ⟨S1x1x1024x1024, .f32⟩
  | 123 => ⟨S1024x1024, .f32⟩
  | 124 => ⟨S4x1024x1024, .f32⟩
  | 125 => ⟨S1x1x1024, .f32⟩
  | 126 => ⟨S1024, .f32⟩
  | 127 => ⟨S1x1x1024, .f32⟩
  | _ => ⟨S4x1024, .i32⟩

abbrev hbmTy0_2 (i : Nat) : BufTy := match i % 128 with
  | 0 => ⟨S4x1024x1024, .f32⟩
  | 1 => ⟨S4x1024x1024, .f32⟩
  | 2 => ⟨S_, .f32⟩
  | 3 => ⟨S4x1024x1024, .f32⟩
  | 4 => ⟨S4x1024x1024, .f32⟩
  | 5 => ⟨S4x1024x512, .f32⟩
  | 6 => ⟨S4x1024x512, .f32⟩
  | 7 => ⟨S1x512, .f32⟩
  | 8 => ⟨S512, .f32⟩
  | 9 => ⟨S1x512, .f32⟩
  | 10 => ⟨S512, .f32⟩
  | 11 => ⟨S_, .f32⟩
  | 12 => ⟨S4x1024, .f32⟩
  | 13 => ⟨S4x1024x1, .f32⟩
  | 14 => ⟨S_, .f32⟩
  | 15 => ⟨S4x1024x1, .f32⟩
  | 16 => ⟨S4x1024x1, .f32⟩
  | 17 => ⟨S4x1024x512, .f32⟩
  | 18 => ⟨S4x1024x512, .f32⟩
  | 19 => ⟨S4x1024x512, .f32⟩
  | 20 => ⟨S_, .f32⟩
  | 21 => ⟨S4x1024, .f32⟩
  | 22 => ⟨S4x1024x1, .f32⟩
  | 23 => ⟨S_, .f32⟩
  | 24 => ⟨S4x1024x1, .f32⟩
  | 25 => ⟨S4x1024x1, .f32⟩
  | 26 => ⟨S4x1024x512, .f32⟩
  | 27 => ⟨S4x1024x512, .f32⟩
  | 28 => ⟨S_, .f32⟩
  | 29 => ⟨S4x1024x1, .f32⟩
  | 30 => ⟨S4x1024x1, .f32⟩
  | 31 => ⟨S4x1024x1, .f32⟩
  | 32 => ⟨S4x1024x512, .f32⟩
  | 33 => ⟨S4x1024x512, .f32⟩
  | 34 => ⟨S1x1x512, .f32⟩
  | 35 => ⟨S4x1024x512, .f32⟩
  | 36 => ⟨S4x1024x512, .f32⟩
  | 37 => ⟨S1x1x512, .f32⟩
  | 38 => ⟨S4x1024x512, .f32⟩
  | 39 => ⟨S4x1024x512, .f32⟩
  | 40 => ⟨S4x1024x512, .f32⟩
  | 41 => ⟨S4x1024x512, .f32⟩
  | 42 => ⟨S1x512, .f32⟩
  | 43 => ⟨S512, .f32⟩
  | 44 => ⟨S1x512, .f32⟩
  | 45 => ⟨S512, .f32⟩
  | 46 => ⟨S_, .f32⟩
  | 47 => ⟨S4x1024, .f32⟩
  | 48 => ⟨S4x1024x1, .f32⟩
  | 49 => ⟨S_, .f32⟩
  | 50 => ⟨S4x1024x1, .f32⟩
  | 51 => ⟨S4x1024x1, .f32⟩
  | 52 => ⟨S4x1024x512, .f32⟩
  | 53 => ⟨S4x1024x512, .f32⟩
  | 54 => ⟨S4x1024x512, .f32⟩
  | 55 => ⟨S_, .f32⟩
  | 56 => ⟨S4x1024, .f32⟩
  | 57 => ⟨S4x1024x1, .f32⟩
  | 58 => ⟨S_, .f32⟩
  | 59 => ⟨S4x1024x1, .f32⟩
  | 60 => ⟨S4x1024x1, .f32⟩
  | 61 => ⟨S4x1024x512, .f32⟩
  | 62 => ⟨S4x1024x512, .f32⟩
  | 63 => ⟨S_, .f32⟩
  | 64 => ⟨S4x1024x1, .f32⟩
  | 65 => ⟨S4x1024x1, .f32⟩
  | 66 => ⟨S4x1024x1, .f32⟩
  | 67 => ⟨S4x1024x512, .f32⟩
  | 68 => ⟨S4x1024x512, .f32⟩
  | 69 => ⟨S1x1x512, .f32⟩
  | 70 => ⟨S4x1024x512, .f32⟩
  | 71 => ⟨S4x1024x512, .f32⟩
  | 72 => ⟨S1x1x512, .f32⟩
  | 73 => ⟨S4x1024x512, .f32⟩
  | 74 => ⟨S4x1024x512, .f32⟩
  | 75 => ⟨S4x1024x32000, .f32⟩
  | 76 => ⟨S1x1x32000, .f32⟩
  | 77 => ⟨S4x1024x32000, .f32⟩
  | 78 => ⟨S4x1024x32000, .f32⟩
  | _ => ⟨S4x1024, .i32⟩

abbrev hbmTy (i : Nat) : BufTy := match i / 128 with
  | 0 => hbmTy0_0 i
  | 1 => hbmTy0_1 i
  | 2 => hbmTy0_2 i
  | _ => ⟨S4x1024, .i32⟩

abbrev bufTy : (tb : Table) → Fin (tcTables nBuf tb) → BufTy
  | .hbm, ⟨i, _⟩ => hbmTy i
  | _, _ => ⟨S4x1024, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call0_cst : Ref sig .tc := ⟨.hbm, 61, rfl⟩
abbrev main_call0_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_call1_cst : Ref sig .tc := ⟨.hbm, 72, rfl⟩
abbrev main_call1_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_6 : Ref sig .tc := ⟨.hbm, 81, rfl⟩
abbrev main_v57 : Ref sig .tc := ⟨.hbm, 82, rfl⟩
abbrev main_v58 : Ref sig .tc := ⟨.hbm, 83, rfl⟩
abbrev main_cst_7 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_8 : Ref sig .tc := ⟨.hbm, 90, rfl⟩
abbrev main_v64 : Ref sig .tc := ⟨.hbm, 91, rfl⟩
abbrev main_v65 : Ref sig .tc := ⟨.hbm, 92, rfl⟩
abbrev main_cst_9 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_10 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_11 : Ref sig .tc := ⟨.hbm, 116, rfl⟩
abbrev main_v87 : Ref sig .tc := ⟨.hbm, 117, rfl⟩
abbrev main_v88 : Ref sig .tc := ⟨.hbm, 118, rfl⟩
abbrev main_cst_12 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_cst_13 : Ref sig .tc := ⟨.hbm, 125, rfl⟩
abbrev main_v94 : Ref sig .tc := ⟨.hbm, 126, rfl⟩
abbrev main_v95 : Ref sig .tc := ⟨.hbm, 127, rfl⟩
abbrev main_cst_14 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_15 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_call2_cst : Ref sig .tc := ⟨.hbm, 154, rfl⟩
abbrev main_call2_v0 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_call3_cst : Ref sig .tc := ⟨.hbm, 165, rfl⟩
abbrev main_call3_v0 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_cst_16 : Ref sig .tc := ⟨.hbm, 174, rfl⟩
abbrev main_v136 : Ref sig .tc := ⟨.hbm, 175, rfl⟩
abbrev main_v137 : Ref sig .tc := ⟨.hbm, 176, rfl⟩
abbrev main_cst_17 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_cst_18 : Ref sig .tc := ⟨.hbm, 183, rfl⟩
abbrev main_v143 : Ref sig .tc := ⟨.hbm, 184, rfl⟩
abbrev main_v144 : Ref sig .tc := ⟨.hbm, 185, rfl⟩
abbrev main_cst_19 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_cst_20 : Ref sig .tc := ⟨.hbm, 191, rfl⟩
abbrev main_v149 : Ref sig .tc := ⟨.hbm, 192, rfl⟩
abbrev main_v150 : Ref sig .tc := ⟨.hbm, 193, rfl⟩
abbrev main_v151 : Ref sig .tc := ⟨.hbm, 194, rfl⟩
abbrev main_v152 : Ref sig .tc := ⟨.hbm, 195, rfl⟩
abbrev main_v153 : Ref sig .tc := ⟨.hbm, 196, rfl⟩
abbrev main_v154 : Ref sig .tc := ⟨.hbm, 197, rfl⟩
abbrev main_v155 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_v162 : Ref sig .tc := ⟨.hbm, 205, rfl⟩
abbrev main_v163 : Ref sig .tc := ⟨.hbm, 206, rfl⟩
abbrev main_v164 : Ref sig .tc := ⟨.hbm, 207, rfl⟩
abbrev main_v165 : Ref sig .tc := ⟨.hbm, 208, rfl⟩
abbrev main_cst_21 : Ref sig .tc := ⟨.hbm, 209, rfl⟩
abbrev main_v166 : Ref sig .tc := ⟨.hbm, 210, rfl⟩
abbrev main_v167 : Ref sig .tc := ⟨.hbm, 211, rfl⟩
abbrev main_cst_22 : Ref sig .tc := ⟨.hbm, 212, rfl⟩
abbrev main_v168 : Ref sig .tc := ⟨.hbm, 213, rfl⟩
abbrev main_v169 : Ref sig .tc := ⟨.hbm, 214, rfl⟩
abbrev main_v170 : Ref sig .tc := ⟨.hbm, 215, rfl⟩
abbrev main_v171 : Ref sig .tc := ⟨.hbm, 216, rfl⟩
abbrev main_v172 : Ref sig .tc := ⟨.hbm, 217, rfl⟩
abbrev main_cst_23 : Ref sig .tc := ⟨.hbm, 218, rfl⟩
abbrev main_v173 : Ref sig .tc := ⟨.hbm, 219, rfl⟩
abbrev main_v174 : Ref sig .tc := ⟨.hbm, 220, rfl⟩
abbrev main_cst_24 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_cst_25 : Ref sig .tc := ⟨.hbm, 226, rfl⟩
abbrev main_v179 : Ref sig .tc := ⟨.hbm, 227, rfl⟩
abbrev main_v180 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_call4_cst : Ref sig .tc := ⟨.hbm, 247, rfl⟩
abbrev main_call4_v0 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_call5_cst : Ref sig .tc := ⟨.hbm, 258, rfl⟩
abbrev main_call5_v0 : Ref sig .tc := ⟨.hbm, 259, rfl⟩
abbrev main_v208 : Ref sig .tc := ⟨.hbm, 260, rfl⟩
abbrev main_v209 : Ref sig .tc := ⟨.hbm, 261, rfl⟩
abbrev main_v210 : Ref sig .tc := ⟨.hbm, 262, rfl⟩
abbrev main_v211 : Ref sig .tc := ⟨.hbm, 263, rfl⟩
abbrev main_v212 : Ref sig .tc := ⟨.hbm, 264, rfl⟩
abbrev main_v213 : Ref sig .tc := ⟨.hbm, 265, rfl⟩
abbrev main_v214 : Ref sig .tc := ⟨.hbm, 266, rfl⟩
abbrev main_cst_26 : Ref sig .tc := ⟨.hbm, 267, rfl⟩
abbrev main_v215 : Ref sig .tc := ⟨.hbm, 268, rfl⟩
abbrev main_v216 : Ref sig .tc := ⟨.hbm, 269, rfl⟩
abbrev main_cst_27 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_cst_28 : Ref sig .tc := ⟨.hbm, 276, rfl⟩
abbrev main_v222 : Ref sig .tc := ⟨.hbm, 277, rfl⟩
abbrev main_v223 : Ref sig .tc := ⟨.hbm, 278, rfl⟩
abbrev main_cst_29 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_cst_30 : Ref sig .tc := ⟨.hbm, 284, rfl⟩
abbrev main_v228 : Ref sig .tc := ⟨.hbm, 285, rfl⟩
abbrev main_v229 : Ref sig .tc := ⟨.hbm, 286, rfl⟩
abbrev main_v230 : Ref sig .tc := ⟨.hbm, 287, rfl⟩
abbrev main_v231 : Ref sig .tc := ⟨.hbm, 288, rfl⟩
abbrev main_v232 : Ref sig .tc := ⟨.hbm, 289, rfl⟩
abbrev main_v233 : Ref sig .tc := ⟨.hbm, 290, rfl⟩
abbrev main_v234 : Ref sig .tc := ⟨.hbm, 291, rfl⟩
abbrev main_v235 : Ref sig .tc := ⟨.hbm, 292, rfl⟩
abbrev main_v236 : Ref sig .tc := ⟨.hbm, 293, rfl⟩
abbrev main_v237 : Ref sig .tc := ⟨.hbm, 294, rfl⟩
abbrev main_v238 : Ref sig .tc := ⟨.hbm, 295, rfl⟩
abbrev main_v239 : Ref sig .tc := ⟨.hbm, 296, rfl⟩
abbrev main_v240 : Ref sig .tc := ⟨.hbm, 297, rfl⟩
abbrev main_v241 : Ref sig .tc := ⟨.hbm, 298, rfl⟩
abbrev main_v242 : Ref sig .tc := ⟨.hbm, 299, rfl⟩
abbrev main_v243 : Ref sig .tc := ⟨.hbm, 300, rfl⟩
abbrev main_v244 : Ref sig .tc := ⟨.hbm, 301, rfl⟩
abbrev main_cst_31 : Ref sig .tc := ⟨.hbm, 302, rfl⟩
abbrev main_v245 : Ref sig .tc := ⟨.hbm, 303, rfl⟩
abbrev main_v246 : Ref sig .tc := ⟨.hbm, 304, rfl⟩
abbrev main_cst_32 : Ref sig .tc := ⟨.hbm, 305, rfl⟩
abbrev main_v247 : Ref sig .tc := ⟨.hbm, 306, rfl⟩
abbrev main_v248 : Ref sig .tc := ⟨.hbm, 307, rfl⟩
abbrev main_v249 : Ref sig .tc := ⟨.hbm, 308, rfl⟩
abbrev main_v250 : Ref sig .tc := ⟨.hbm, 309, rfl⟩
abbrev main_v251 : Ref sig .tc := ⟨.hbm, 310, rfl⟩
abbrev main_cst_33 : Ref sig .tc := ⟨.hbm, 311, rfl⟩
abbrev main_v252 : Ref sig .tc := ⟨.hbm, 312, rfl⟩
abbrev main_v253 : Ref sig .tc := ⟨.hbm, 313, rfl⟩
abbrev main_cst_34 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_cst_35 : Ref sig .tc := ⟨.hbm, 319, rfl⟩
abbrev main_v258 : Ref sig .tc := ⟨.hbm, 320, rfl⟩
abbrev main_v259 : Ref sig .tc := ⟨.hbm, 321, rfl⟩
abbrev main_v260 : Ref sig .tc := ⟨.hbm, 322, rfl⟩
abbrev main_v261 : Ref sig .tc := ⟨.hbm, 323, rfl⟩
abbrev main_v262 : Ref sig .tc := ⟨.hbm, 324, rfl⟩
abbrev main_v263 : Ref sig .tc := ⟨.hbm, 325, rfl⟩
abbrev main_v264 : Ref sig .tc := ⟨.hbm, 326, rfl⟩
abbrev main_v265 : Ref sig .tc := ⟨.hbm, 327, rfl⟩
abbrev main_v266 : Ref sig .tc := ⟨.hbm, 328, rfl⟩
abbrev main_v267 : Ref sig .tc := ⟨.hbm, 329, rfl⟩
abbrev main_v268 : Ref sig .tc := ⟨.hbm, 330, rfl⟩
abbrev main_v269 : Ref sig .tc := ⟨.hbm, 331, rfl⟩
abbrev main_v270 : Ref sig .tc := ⟨.hbm, 332, rfl⟩
abbrev main_v271 : Ref sig .tc := ⟨.hbm, 333, rfl⟩
abbrev main_v272 : Ref sig .tc := ⟨.hbm, 334, rfl⟩

abbrev nD : Nat := 1
abbrev τ : Topo := Topo.v7x

variable {F : FTy → Type} [FloatOps F]

class Facts₀ : Prop where
  bcast_S_S4x1024 : S_.BroadcastsInDim S4x1024 (![] : Fin 0 → Fin S4x1024.rank)
  bcast_S4x1024_S4x1024x1_0_1 : S4x1024.BroadcastsInDim S4x1024x1 (![0, 1] : Fin 2 → Fin S4x1024x1.rank)
  reducesTo_S4x1024x512_S4x1024_d2 : S4x1024x512.ReducesTo [2] S4x1024
  h_S_ : 0 < S_.numel
  bcast_S_S4x1024x1 : S_.BroadcastsInDim S4x1024x1 (![] : Fin 0 → Fin S4x1024x1.rank)
  bcast_S4x1024x1_S4x1024x512_0_1_2 : S4x1024x1.BroadcastsInDim S4x1024x512 (![0, 1, 2] : Fin 3 → Fin S4x1024x512.rank)
  bcast_S512_S1x1x512_2 : S512.BroadcastsInDim S1x1x512 (![2] : Fin 1 → Fin S1x1x512.rank)
  bcast_S1x1x512_S4x1024x512_0_1_2 : S1x1x512.BroadcastsInDim S4x1024x512 (![0, 1, 2] : Fin 3 → Fin S4x1024x512.rank)
  bcast_S_S4x1024x512 : S_.BroadcastsInDim S4x1024x512 (![] : Fin 0 → Fin S4x1024x512.rank)
  concatenates_S4x1024x512_S4x1024x512_S4x1024x1024_d2 : Shape.Concatenates [S4x1024x512, S4x1024x512] S4x1024x1024 2
  slices_S3x2x1024x1024_S1x1x1024x1024_0_0_0_0 : S3x2x1024x1024.Slices ![0, 0, 0, 0] S1x1x1024x1024
  shapeCasts_S1x1x1024x1024_S1024x1024 : S1x1x1024x1024.ShapeCasts S1024x1024
  slices_S3x2x1024_S1x1x1024_0_0_0 : S3x2x1024.Slices ![0, 0, 0] S1x1x1024
  shapeCasts_S1x1x1024_S1024 : S1x1x1024.ShapeCasts S1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  bcast_S_S4x1024x1024 : S_.BroadcastsInDim S4x1024x1024 (![] : Fin 0 → Fin S4x1024x1024.rank)
  slices_S3x2x1024x1024_S1x1x1024x1024_0_1_0_0 : S3x2x1024x1024.Slices ![0, 1, 0, 0] S1x1x1024x1024
  slices_S3x2x1024_S1x1x1024_0_1_0 : S3x2x1024.Slices ![0, 1, 0] S1x1x1024
  slices_S4x1024x1024_S4x1024x512_0_0_0 : S4x1024x1024.Slices ![0, 0, 0] S4x1024x512
  slices_S3x512_S1x512_0_0 : S3x512.Slices ![0, 0] S1x512
  shapeCasts_S1x512_S512 : S1x512.ShapeCasts S512
  slices_S4x1024x1024_S4x1024x512_0_0_512 : S4x1024x1024.Slices ![0, 0, 512] S4x1024x512
  slices_S3x2x1024x1024_S1x1x1024x1024_1_0_0_0 : S3x2x1024x1024.Slices ![1, 0, 0, 0] S1x1x1024x1024
  slices_S3x2x1024_S1x1x1024_1_0_0 : S3x2x1024.Slices ![1, 0, 0] S1x1x1024
  slices_S3x2x1024x1024_S1x1x1024x1024_1_1_0_0 : S3x2x1024x1024.Slices ![1, 1, 0, 0] S1x1x1024x1024
  slices_S3x2x1024_S1x1x1024_1_1_0 : S3x2x1024.Slices ![1, 1, 0] S1x1x1024
  slices_S3x512_S1x512_1_0 : S3x512.Slices ![1, 0] S1x512
  slices_S3x2x1024x1024_S1x1x1024x1024_2_0_0_0 : S3x2x1024x1024.Slices ![2, 0, 0, 0] S1x1x1024x1024
  slices_S3x2x1024_S1x1x1024_2_0_0 : S3x2x1024.Slices ![2, 0, 0] S1x1x1024
  slices_S3x2x1024x1024_S1x1x1024x1024_2_1_0_0 : S3x2x1024x1024.Slices ![2, 1, 0, 0] S1x1x1024x1024
  slices_S3x2x1024_S1x1x1024_2_1_0 : S3x2x1024.Slices ![2, 1, 0] S1x1x1024
  slices_S3x512_S1x512_2_0 : S3x512.Slices ![2, 0] S1x512
  bcast_S32000_S1x1x32000_2 : S32000.BroadcastsInDim S1x1x32000 (![2] : Fin 1 → Fin S1x1x32000.rank)
  bcast_S1x1x32000_S4x1024x32000_0_1_2 : S1x1x32000.BroadcastsInDim S4x1024x32000 (![0, 1, 2] : Fin 3 → Fin S4x1024x32000.rank)
  gather_S32000x512_S4x1024x1_S4x1024x512_2_0_n_n_0_2_1512_wf : GatherDims.WF S32000x512 S4x1024x1 S4x1024x512 [2] [0] [] [0] [] 2 ![1, 512]
  dot_S4x1024x1024_S1024x1024_S4x1024x1024_2_1_01_0_n_n_wf : DotDims.WF S4x1024x1024 S1024x1024 S4x1024x1024 [2] [1] [0, 1] [0] [] []
  dot_S4x1024x512_S32000x512_S4x1024x32000_2_1_01_0_n_n_wf : DotDims.WF S4x1024x512 S32000x512 S4x1024x32000 [2] [1] [0, 1] [0] [] []

variable [Facts₀]

def gather_S32000x512_S4x1024x1_S4x1024x512_2_0_n_n_0_2_1512 : GatherDims S32000x512 S4x1024x1 S4x1024x512 where
  offsetDims := [2]
  collapsedSliceDims := [0]
  operandBatchingDims := []
  startIndicesBatchingDims := []
  startIndexMap := [0]
  indexVectorDim := 2
  sliceSizes := ![1, 512]
  wf := gather_S32000x512_S4x1024x1_S4x1024x512_2_0_n_n_0_2_1512_wf
def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf
def dot_S4x1024x512_S32000x512_S4x1024x32000_2_1_01_0_n_n : DotDims S4x1024x512 S32000x512 S4x1024x32000 where
  lhsContracting := [2]
  rhsContracting := [1]
  lhsNonContracting := [0, 1]
  rhsNonContracting := [0]
  lhsBatch := []
  rhsBatch := []
  wf := dot_S4x1024x512_S32000x512_S4x1024x32000_2_1_01_0_n_n_wf

class Facts : Prop extends Facts₀ where

variable [Facts]
-- ==== Proof.Spec.lean ====
/-
  The network both programs compute, read one token row at a time over the extended reals.

  A token row is the embedding table's row for its id (the id clamped into the table, as the host's gather reads it),
  layer-normalised over its 512 entries; three residual blocks follow. A block joins the context row (zero at first)
  and the token row into one row of 1024 entries, sends it through two affine maps each followed by `max · 0`, adds
  the lower half of the result to the context row and the upper half to the token row, and layer-normalises both.
  The last token row is projected on each vocabulary row and the vocabulary's bias added.

  Every operation acts on one row at a time, so a grid of row blocks and a batch-by-sequence array are the same
  function of the rows. A layer norm subtracts the row's mean (its sum divided by the float word 512.0), multiplies
  by the reciprocal square root of the mean squared deviation plus the float word nearest 1e-5, scales by the gain
  and adds the shift, in that order of operations.
-/
import Idealize.ShloMosaic.PureOps.Ideal
import Idealize.ShloMosaic.Lib.ValueIdx

noncomputable section

namespace Cert.Spec

open Idealize.ShloMosaic Idealize.ShloMosaic.ValueIdx

/-- The float word `512.0`: the number of entries of a row, by which a row sum is divided. -/
def wN : EReal := Ideal.ofBits .f32 0x44000000#32

/-- The float word nearest `1e-5`, added to the mean squared deviation under the reciprocal square root. -/
def wEps : EReal := Ideal.ofBits .f32 0x3727C5AC#32

/-- A row's mean: its sum divided by `512.0`. -/
def mean (x : Fin 512 → EReal) : EReal := Ideal.div (∑ k, x k) wN

/-- Layer norm of a row with gain `g` and shift `b`. -/
def ln (x g b : Fin 512 → EReal) : Fin 512 → EReal := fun c =>
  (x c - mean x) * Ideal.rsqrt (mean (fun k => (x k - mean x) * (x k - mean x)) + wEps) * g c + b c

/-- An affine map of a row of 1024 entries (entry `o` contracts the row with row `o` of the weight), then `max · 0`. -/
def lin (h : Fin 1024 → EReal) (W : Fin 1024 → Fin 1024 → EReal) (bias : Fin 1024 → EReal) : Fin 1024 → EReal :=
  fun o => max ((∑ k, h k * W o k) + bias o) 0

/-- Two rows of 512 entries joined into one of 1024. -/
def cat (a b : Fin 512 → EReal) : Fin 1024 → EReal :=
  fun j => if h : j.val < 512 then a ⟨j.val, h⟩ else b ⟨j.val - 512, by omega⟩

/-- The lower half of a row of 1024 entries. -/
def lo (h : Fin 1024 → EReal) : Fin 512 → EReal := fun c => h ⟨c.val, by omega⟩

/-- The upper half of a row of 1024 entries. -/
def hi (h : Fin 1024 → EReal) : Fin 512 → EReal := fun c => h ⟨c.val + 512, by omega⟩

/-- The network's weights, indexed by plain coordinates. -/
structure Params where
  eng : Fin 512 → EReal
  enb : Fin 512 → EReal
  Wb : Fin 3 → Fin 2 → Fin 1024 → Fin 1024 → EReal
  bb : Fin 3 → Fin 2 → Fin 1024 → EReal
  cng : Fin 3 → Fin 512 → EReal
  cnb : Fin 3 → Fin 512 → EReal
  tng : Fin 3 → Fin 512 → EReal
  tnb : Fin 3 → Fin 512 → EReal

/-- The hidden row of block `bi`: the joined row through the block's two affine maps. -/
def hid (P : Params) (bi : Fin 3) (ctx tok : Fin 512 → EReal) : Fin 1024 → EReal :=
  lin (lin (cat ctx tok) (P.Wb bi 0) (P.bb bi 0)) (P.Wb bi 1) (P.bb bi 1)

/-- The context row after block `bi`. -/
def ctxNext (P : Params) (bi : Fin 3) (ctx tok : Fin 512 → EReal) : Fin 512 → EReal :=
  ln (fun c => ctx c + lo (hid P bi ctx tok) c) (P.cng bi) (P.cnb bi)

/-- The token row after block `bi`. -/
def tokNext (P : Params) (bi : Fin 3) (ctx tok : Fin 512 → EReal) : Fin 512 → EReal :=
  ln (fun c => tok c + hi (hid P bi ctx tok) c) (P.tng bi) (P.tnb bi)

/-- The context row before the first block. -/
def ctx0 : Fin 512 → EReal := fun _ => 0

/-- The token row before the first block: the embedded row, layer-normalised. -/
def tok0 (P : Params) (x : Fin 512 → EReal) : Fin 512 → EReal := ln x P.eng P.enb

def ctx1 (P : Params) (x : Fin 512 → EReal) : Fin 512 → EReal := ctxNext P 0 ctx0 (tok0 P x)
def tok1 (P : Params) (x : Fin 512 → EReal) : Fin 512 → EReal := tokNext P 0 ctx0 (tok0 P x)
def ctx2 (P : Params) (x : Fin 512 → EReal) : Fin 512 → EReal := ctxNext P 1 (ctx1 P x) (tok1 P x)
def tok2 (P : Params) (x : Fin 512 → EReal) : Fin 512 → EReal := tokNext P 1 (ctx1 P x) (tok1 P x)

/-- The token row after the third block (the third block's context row is never read). -/
def tok3 (P : Params) (x : Fin 512 → EReal) : Fin 512 → EReal := tokNext P 2 (ctx2 P x) (tok2 P x)

/-- One logit: the last token row against a vocabulary row, plus that row's bias. -/
def logit (t w : Fin 512 → EReal) (b : EReal) : EReal := (∑ k, t k * w k) + b

/-- The table row a token id reads: the id as a signed integer, clamped into the table's 32000 rows. -/
def rowOf (id : BitVec 32) : Fin 32000 := ⟨min id.toInt.toNat (32000 - 1), by omega⟩

end Cert.Spec

end
-- ==== Proof.SpecParams.lean ====
/-
  The specification over the arrays the programs hold: the weights read off their arrays over literal shapes, the
  table row a token id reads, and the whole result at an index — the logit of token `(b, s)` against vocabulary row
  `v`: the id's table row through the layer norm and the three blocks, projected on row `v`, plus the bias of `v`.
-/
import proofs.«407089_j83803401879983_3_alg».proof.Proof.Spec

noncomputable section

namespace Cert.Spec

open Idealize.ShloMosaic Idealize.ShloMosaic.ValueIdx

/-- The weights as the programs hold them, arrays over literal shapes, read by plain coordinates. -/
def params (eng enb : (⟨1, ![512]⟩ : Shape).Idx → EReal) (Wb : (⟨4, ![3, 2, 1024, 1024]⟩ : Shape).Idx → EReal)
    (bb : (⟨3, ![3, 2, 1024]⟩ : Shape).Idx → EReal) (cng cnb tng tnb : (⟨2, ![3, 512]⟩ : Shape).Idx → EReal) : Params where
  eng := fun k => eng (ix1 k)
  enb := fun k => enb (ix1 k)
  Wb := fun a l o k => Wb (ix4 a l o k)
  bb := fun a l o => bb (ix3 a l o)
  cng := fun a k => cng (ix2 a k)
  cnb := fun a k => cnb (ix2 a k)
  tng := fun a k => tng (ix2 a k)
  tnb := fun a k => tnb (ix2 a k)

/-- The table row a token id reads. -/
def embRow (tbl : (⟨2, ![32000, 512]⟩ : Shape).Idx → EReal) (id : BitVec 32) : Fin 512 → EReal :=
  fun k => tbl (ix2 (rowOf id) k)

/-- The result at `(b, s, v)`. -/
def out (ids : (⟨2, ![4, 1024]⟩ : Shape).Idx → BitVec 32) (tbl : (⟨2, ![32000, 512]⟩ : Shape).Idx → EReal)
    (eng enb : (⟨1, ![512]⟩ : Shape).Idx → EReal) (Wb : (⟨4, ![3, 2, 1024, 1024]⟩ : Shape).Idx → EReal)
    (bb : (⟨3, ![3, 2, 1024]⟩ : Shape).Idx → EReal) (cng cnb tng tnb : (⟨2, ![3, 512]⟩ : Shape).Idx → EReal)
    (outW : (⟨2, ![32000, 512]⟩ : Shape).Idx → EReal) (outb : (⟨1, ![32000]⟩ : Shape).Idx → EReal)
    (b : Fin 4) (s : Fin 1024) (v : Fin 32000) : EReal :=
  logit (tok3 (params eng enb Wb bb cng cnb tng tnb) (embRow tbl (ids (ix2 b s)))) (fun k => outW (ix2 v k)) (outb (ix1 v))

end Cert.Spec

end
-- ==== Proof.LibBroadcastColumn.lean ====
/-
  One column broadcast over many: a `[a, 1]` array broadcast to `[a, b]` reads, at `(p, c)`, the operand's one
  column at row `p`.  (The companion of the library's row form `broadcastTo_1b_ab_apply`: a per-row bias added to
  every column of a matrix.)
-/
import Idealize.ShloMosaic.Lib.Pipeline.Value
import Idealize.ShloMosaic.Lib.ValueIdx

namespace Idealize.ShloMosaic.ValueIdx

variable {α : Type}

/-- A `[a, 1]` array broadcast to `[a, b]` reads, at `(p, c)`, the operand's one column at `p`: the row axis is kept
    (or has extent one, and then `p = 0`), the unit column axis reads its only index. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibColumnCast.lean ====
/-
  A vector stood up as a column: an `[a]` array cast to `[a, 1]` reads, at `(i, u)`, the operand at `i`, whatever
  the unit coordinate `u`.  (The trailing-axis companion of the library's leading-axis form `shapeCast_a_1a_apply`:
  what `keepdims=True` does to a row reduction's result.)
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`: both indices have row-major position
    `i`, since the unit coordinate is `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ValueIdx
-- ==== Proof.LibIdealAtIndex.lean ====
/-
  Two more vector operations read at an index over the extended reals, beside the library's `mulf_apply`,
  `maximumf_apply` …: a reciprocal square root is the extended reals' of the element, and the maximum with the splat
  of the zero word is the maximum with `0` (what `max · 0` after an affine map prints as).
-/
import Idealize.ShloMosaic.Lib.ValueIdx
import Idealize.ShloMosaic.PureOps.Ideal.Laws

namespace Idealize.ShloMosaic.ValueIdx

/-- A reciprocal square root at an index is the extended reals' of the element. -/
theorem rsqrt_apply {s : Shape} {φ : FTy} (a : FVec Ideal s φ) (i : s.Idx) : rsqrt a i = Ideal.rsqrt (a i) := rfl

/-- The maximum with the splat of the f32 zero word, at an index, is the maximum of the element with `0`. -/
theorem maximumf_zero_splat_apply {s : Shape} (X : FVec Ideal s .f32) (i : s.Idx) :
    maximumf X (broadcast s (Scalar.ofBits .f32 0x00000000#32)) i = max (X i) 0 := by
  rw [maximumf_apply, broadcast_apply]
  exact congrArg (max (X i)) Ideal.ofBits_zero_f32

end Idealize.ShloMosaic.ValueIdx
-- ==== Proof.KBody0LN.lean ====
/-
  The layer norm of a block of 512 rows, as the first kernel's body computes it, read one row at a time: each row's
  sum over its 512 lanes divided by the word 512.0 is the row's mean; the row minus its mean, times the reciprocal
  square root of the mean of the squared deviations plus the word nearest 1e-5, times the gain, plus the shift, is the
  row's layer norm. The body does this six times, always with the same operations in the same order, so the chain is
  named once (`lnBlock`) and read once at an entry `(r, c)` as the specification's `Spec.ln` of row `r`.
-/
import proofs.«407089_j83803401879983_3_alg».proof.Proof.Gen.KernelIdeal.Skeleton
import proofs.«407089_j83803401879983_3_alg».proof.Proof.Spec
import proofs.«407089_j83803401879983_3_alg».proof.Proof.LibBroadcastColumn
import proofs.«407089_j83803401879983_3_alg».proof.Proof.LibColumnCast
import proofs.«407089_j83803401879983_3_alg».proof.Proof.LibIdealAtIndex
import Idealize.ShloMosaic.Lib.ValueLayout
import Idealize.ShloMosaic.PureOps.Ideal.Laws

noncomputable section

namespace Cert.KernelIdeal.KBody0

open Idealize.ShloMosaic Idealize.ShloMosaic.ValueIdx Cert.KernelIdeal Cert.KernelIdeal.Gen

/-- The lane sum of a block's rows, stood up as a column and divided by the word 512.0: each row's mean. -/
def rowMean (X : FVec Ideal S512x512 .f32) : FVec Ideal S512x1 .f32 :=
  divf (shapeCast S512x1 (multiReduction .add [1] S512 X 0x00000000#32 reduces_S512x512_S512 (.inl rfl) rfl) shapeCasts_S512_S512x1)
    (broadcast S512x1 (Scalar.ofBits .f32 0x44000000#32))

theorem rowSum_apply (X : FVec Ideal S512x512 .f32) (hφ) (hacc : (0x00000000#32 : BitVec 32) = 0x00000000#32) (r : Fin 512) :
    multiReduction (F := Ideal) .add [1] S512 X 0x00000000#32 reduces_S512x512_S512 hφ hacc (ix1 r) = ∑ k : Fin 512, X (ix2 r k) := by
  refine (Ideal.multiReduction_add_single X 0x00000000#32 reduces_S512x512_S512 hφ hacc (ix1 r)).trans ?_
  refine Finset.sum_congr rfl fun k _ => congrArg X ?_
  funext a
  match a with
  | ⟨0, _⟩ => rfl
  | ⟨1, _⟩ => rfl

theorem rowMean_apply (X : FVec Ideal S512x512 .f32) (r : Fin 512) (u : Fin 1) :
    rowMean X (ix2 r u) = Cert.Spec.mean (fun k => X (ix2 r k)) := by
  unfold rowMean Cert.Spec.mean Cert.Spec.wN
  rw [divf_apply, broadcast_apply, shapeCast_a_a1_apply, rowSum_apply]
  rfl

/-- The layer norm of every row of a block `X` with gain `g` and shift `b`: subtract the row's mean, multiply by the
    reciprocal square root of the row's mean squared deviation plus the word nearest 1e-5, scale by the gain, add the
    shift. -/
def lnBlock (X : FVec Ideal S512x512 .f32) (g b : FVec Ideal S512 .f32) : FVec Ideal S512x512 .f32 :=
  addf
    (mulf
      (mulf (subf X (broadcastTo S512x512 (rowMean X) broadcasts_S512x1_S512x512))
        (broadcastTo S512x512
          (rsqrt (addf
            (rowMean (mulf (subf X (broadcastTo S512x512 (rowMean X) broadcasts_S512x1_S512x512))
              (subf X (broadcastTo S512x512 (rowMean X) broadcasts_S512x1_S512x512))))
            (broadcast S512x1 (Scalar.ofBits .f32 0x3727C5AC#32))))
          broadcasts_S512x1_S512x512))
      (broadcastTo S512x512 (shapeCast S1x512 g shapeCasts_S512_S1x512) broadcasts_S1x512_S512x512))
    (broadcastTo S512x512 (shapeCast S1x512 b shapeCasts_S512_S1x512) broadcasts_S1x512_S512x512)

/-- Entry `(r, c)` of a block's layer norm is the layer norm of row `r` at `c`. -/
theorem lnBlock_apply (X : FVec Ideal S512x512 .f32) (g b : FVec Ideal S512 .f32) (r c : Fin 512) :
    lnBlock X g b (ix2 r c) = Cert.Spec.ln (fun k => X (ix2 r k)) (fun k => g (ix1 k)) (fun k => b (ix1 k)) c := by
  unfold lnBlock Cert.Spec.ln Cert.Spec.wEps
  simp only [addf_apply, mulf_apply, subf_apply, broadcastTo_a1_ab_apply, broadcastTo_1b_ab_apply, shapeCast_a_1a_apply,
    rowMean_apply, rsqrt_apply, broadcast_apply]
  rfl

/-- The first payload is the layer norm of the loaded block. -/
theorem k0_pay1_eq (v0 : Vec Ideal S512x512 .f32) (v2 v3 : Vec Ideal S512 .f32) :
    k0_pay1 (F := Ideal) v0 v2 v3 = lnBlock (shapeCast S512x512 v0 shapeCasts_S512x512_S512x512) v2 v3 := rfl

end Cert.KernelIdeal.KBody0

end
-- ==== Proof.LibTwoUnitAxes.lean ====
/-
  Two leading unit axes dropped by a shape cast: a `[1, 1, a, b]` array cast to `[a, b]` reads, at `(i, j)`, the
  operand at `(0, 0, i, j)`, and a `[1, 1, a]` array cast to `[a]` reads, at `i`, the operand at `(0, 0, i)`.  (The
  companions of the library's one-unit-axis forms `shapeCast_1ab_ab_apply` and `shapeCast_1a_a_apply`: what a kernel
  does to one slab loaded out of a doubly stacked parameter array.)
-/
import Idealize.ShloMosaic.Lib.Pipeline.Value
import Idealize.ShloMosaic.Lib.ValueIdx

namespace Idealize.ShloMosaic.ValueIdx

variable {α : Type}

/-- A `[1, 1, a, b]` array cast to `[a, b]` reads, at `(i, j)`, the operand at `(0, 0, i, j)`: both indices have
    row-major position `i * b + j`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A `[1, 1, a]` array cast to `[a]` reads, at `i`, the operand at `(0, 0, i)`: both indices have row-major
    position `i`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

end Idealize.ShloMosaic.ValueIdx
-- ==== Proof.KBody0MM.lean ====
/-
  The affine maps of the first kernel's body, read one row at a time: a block of 512 rows of 1024 entries against a
  `[1024, 1024]` weight, contracting the block's columns with the weight's columns, so that entry `(r, o)` is row `r`
  against row `o` of the weight; the bias is added on every row. Over the extended reals the change of float format
  on the way into the product is the identity and the product into a zero accumulator is the plain sum.
-/
import proofs.«407089_j83803401879983_3_alg».proof.Proof.Gen.KernelIdeal.Skeleton
import proofs.«407089_j83803401879983_3_alg».proof.Proof.LibTwoUnitAxes
import Idealize.ShloMosaic.Lib.ValueLayout
import Idealize.ShloMosaic.PureOps.Ideal.Laws

noncomputable section

namespace Cert.KernelIdeal.KBody0

open Idealize.ShloMosaic Idealize.ShloMosaic.ValueIdx Cert.KernelIdeal Cert.KernelIdeal.Gen

/-- The dimension numbers of the body's matrix products: axis 1 of the row block against axis 1 of the weight. -/
abbrev DD : DotDims S512x1024 S1024x1024 S512x1024 := dot_S512x1024_S1024x1024_S512x1024_1_1_0_0_n_n

theorem DD_lhs_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem DD_lhs_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
theorem DD_rhs_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem DD_rhs_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The product into a zero accumulator at `(r, o)`: row `r` of the left block against row `o` of the right one. -/
theorem matmul_apply_ro (L : FVec Ideal S512x1024 .bf16) (R : FVec Ideal S1024x1024 .bf16) (r : Fin 512) (o : Fin 1024) :
    matmul dot_S512x1024_S1024x1024_S512x1024_1_1_0_0_n_n none L R (constant (F := Ideal) S512x1024 .f32 0x00000000#32) (ix2 r o)
      = ∑ k : Fin 1024, L (ix2 r k) * R (ix2 o k) := by
  refine (Ideal.matmul_constant_zero_apply dot_S512x1024_S1024x1024_S512x1024_1_1_0_0_n_n none L R (ix2 r o)).trans ?_
  rw [← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r o) ((contrEquiv1 dot_S512x1024_S1024x1024_S512x1024_1_1_0_0_n_n 1024 rfl rfl).symm k) = ix2 r k := funext fun a => Fin.ext (by
    match a with
    | ⟨0, _⟩ => exact DD_lhs_0 _ _
    | ⟨1, _⟩ => exact (DD_lhs_1 _ _).trans hk)
  have er : dot_S512x1024_S1024x1024_S512x1024_1_1_0_0_n_n.rhsIdx (ix2 r o) ((contrEquiv1 dot_S512x1024_S1024x1024_S512x1024_1_1_0_0_n_n 1024 rfl rfl).symm k) = ix2 o k := funext fun a => Fin.ext (by
    match a with
    | ⟨0, _⟩ => exact DD_rhs_0 _ _
    | ⟨1, _⟩ => exact (DD_rhs_1 _ _).trans hk)
  rw [el, er]

/-- An affine map of every row of a block: the rows against the rows of the weight, plus the bias on every row. -/
def affine (H : FVec Ideal S512x1024 .f32) (W : Vec Ideal S1x1x1024x1024 .bf16) (bias : Vec Ideal S1x1x1024 .f32) :
    FVec Ideal S512x1024 .f32 :=
  addf
    (matmul dot_S512x1024_S1024x1024_S512x1024_1_1_0_0_n_n none (truncf .bf16 H bitsLt_bf16_f32)
      (shapeCast S1024x1024 W shapeCasts_S1x1x1024x1024_S1024x1024 : FVec Ideal S1024x1024 .bf16)
      (constant S512x1024 .f32 0x00000000#32))
    (broadcastTo S512x1024
      (shapeCast S1x1024 (shapeCast S1024 bias shapeCasts_S1x1x1024_S1024 : FVec Ideal S1024 .f32) shapeCasts_S1024_S1x1024)
      broadcasts_S1x1024_S512x1024)

/-- Entry `(r, o)` of the affine map: row `r` against row `o` of the weight, plus the bias at `o`. -/
theorem affine_apply (H : FVec Ideal S512x1024 .f32) (W : Vec Ideal S1x1x1024x1024 .bf16) (bias : Vec Ideal S1x1x1024 .f32)
    (r : Fin 512) (o : Fin 1024) :
    affine H W bias (ix2 r o)
      = (∑ k : Fin 1024, H (ix2 r k) * W (ix4 (0 : Fin 1) (0 : Fin 1) o k)) + bias (ix3 (0 : Fin 1) (0 : Fin 1) o) := by
  unfold affine
  rw [addf_apply, matmul_apply_ro, broadcastTo_1b_ab_apply, shapeCast_a_1a_apply, shapeCast_11a_a_apply]
  simp only [truncf_apply, shapeCast_11ab_ab_apply]

end Cert.KernelIdeal.KBody0

end
-- ==== Proof.KBody0LY.lean ====
/-
  The layout steps of the first kernel's body, read at an entry: two blocks joined along their columns (row `r` of
  the result is row `r` of the first followed by row `r` of the second), the two halves of a block's columns, and the
  loads of one weight slab, one bias row and one gain or shift row out of the stacked parameter arrays (the element
  at `(0, 0, o, k)` of the slab loaded at `[bi, li, 0, 0]` is the array's element at `(bi, li, o, k)`).
-/
import proofs.«407089_j83803401879983_3_alg».proof.Proof.Gen.KernelIdeal.Frame
import proofs.«407089_j83803401879983_3_alg».proof.Proof.Spec
import Idealize.ShloMosaic.Lib.ValueLayout

noncomputable section

namespace Cert.KernelIdeal.KBody0

open Idealize.ShloMosaic Idealize.ShloMosaic.ValueIdx Cert.KernelIdeal Cert.KernelIdeal.Gen

/-- Two blocks joined along their columns: row `r` of the result is row `r` of the first followed by row `r` of the
    second. -/
theorem cat_apply (A B : FVec Ideal S512x512 .f32) (r : Fin 512) (j : Fin 1024) :
    concatenate S512x1024 1 [⟨S512x512, A⟩, ⟨S512x512, B⟩] concatenates_S512x512_S512x512_S512x1024_d1 (ix2 r j)
      = Cert.Spec.cat (fun k => A (ix2 r k)) (fun k => B (ix2 r k)) j := by
  unfold Cert.Spec.cat
  by_cases h : j.val < 512
  · rw [dif_pos h]
    exact concatenate_pair_apply_left (1 : Fin S512x1024.rank) A B concatenates_S512x512_S512x512_S512x1024_d1 (ix2 r j) rfl
      (ix2 r ⟨j.val, h⟩) (fun b => match b with | ⟨0, _⟩ => rfl | ⟨1, _⟩ => rfl)
  · rw [dif_neg h]
    exact concatenate_pair_apply_right (1 : Fin S512x1024.rank) A B concatenates_S512x512_S512x512_S512x1024_d1 (ix2 r j) rfl rfl
      (ix2 r ⟨j.val - 512, by have := j.isLt; omega⟩)
      (fun b hb => match b, hb with | ⟨0, _⟩, _ => rfl | ⟨1, _⟩, hb => absurd rfl hb)
      (by show j.val - 512 + 512 = j.val; omega)

/-- The left half of a block's columns: row `r` of the result is the lower half of row `r`. -/
theorem lo_apply (X : FVec Ideal S512x1024 .f32) (r c : Fin 512) :
    extractStridedSlice S512x512 ![0, 0] X slices_S512x1024_o0_0_S512x512 (ix2 r c) = Cert.Spec.lo (fun k => X (ix2 r k)) c :=
  slice2_axis1_apply 0 X slices_S512x1024_o0_0_S512x512 r c ⟨c.val, by have := c.isLt; omega⟩ (Nat.zero_add _).symm

/-- The right half of a block's columns: row `r` of the result is the upper half of row `r`. -/
theorem hi_apply (X : FVec Ideal S512x1024 .f32) (r c : Fin 512) :
    extractStridedSlice S512x512 ![0, 512] X slices_S512x1024_o0_512_S512x512 (ix2 r c) = Cert.Spec.hi (fun k => X (ix2 r k)) c :=
  slice2_axis1_apply 512 X slices_S512x1024_o0_512_S512x512 r c ⟨c.val + 512, by have := c.isLt; omega⟩ (Nat.add_comm _ _)

/-- A load of one `[1, 1, 1024, 1024]` slab of the weights at `[bi, li, 0, 0]` reads the weights at `(bi, li, o, k)`. -/
theorem ld_w_apply (x3 : Vec Ideal S3x2x1024x1024 .bf16) (bi li : Nat) (hb : bi < 3) (hl : li < 2)
    (inb : ∀ a, (![bi, li, 0, 0] : Fin 4 → Nat) a + S1x1x1024x1024.size a ≤ S3x2x1024x1024.size a) (u v : Fin 1) (o k : Fin 1024) :
    View.ld x3 (Rect.unit (s := S3x2x1024x1024) ![bi, li, 0, 0] S1x1x1024x1024.size inb) (ix4 u v o k)
      = x3 (ix4 (⟨bi, hb⟩ : Fin 3) (⟨li, hl⟩ : Fin 2) o k) := by
  refine congrArg x3 (funext fun a => Fin.ext ?_)
  match a with
  | ⟨0, _⟩ => show bi + 1 * u.val = bi; omega
  | ⟨1, _⟩ => show li + 1 * v.val = li; omega
  | ⟨2, _⟩ => show 0 + 1 * o.val = o.val; omega
  | ⟨3, _⟩ => show 0 + 1 * k.val = k.val; omega

/-- A load of one `[1, 1, 1024]` row of the biases at `[bi, li, 0]` reads the biases at `(bi, li, o)`. -/
theorem ld_b_apply (x4 : Vec Ideal S3x2x1024 .f32) (bi li : Nat) (hb : bi < 3) (hl : li < 2)
    (inb : ∀ a, (![bi, li, 0] : Fin 3 → Nat) a + S1x1x1024.size a ≤ S3x2x1024.size a) (u v : Fin 1) (o : Fin 1024) :
    View.ld x4 (Rect.unit (s := S3x2x1024) ![bi, li, 0] S1x1x1024.size inb) (ix3 u v o)
      = x4 (ix3 (⟨bi, hb⟩ : Fin 3) (⟨li, hl⟩ : Fin 2) o) := by
  refine congrArg x4 (funext fun a => Fin.ext ?_)
  match a with
  | ⟨0, _⟩ => show bi + 1 * u.val = bi; omega
  | ⟨1, _⟩ => show li + 1 * v.val = li; omega
  | ⟨2, _⟩ => show 0 + 1 * o.val = o.val; omega

/-- A load of row `bi` of a `[3, 512]` array reads the array at `(bi, c)`. -/
theorem ld_g_apply (x : Vec Ideal S3x512 .f32) (bi : Nat) (hb : bi < 3)
    (inb : ∀ a, (![bi, 0] : Fin 2 → Nat) a + S1x512.size a ≤ S3x512.size a) (u : Fin 1) (c : Fin 512) :
    View.ld x (Rect.unit (s := S3x512) ![bi, 0] S1x512.size inb) (ix2 u c) = x (ix2 (⟨bi, hb⟩ : Fin 3) c) := by
  refine congrArg x (funext fun a => Fin.ext ?_)
  match a with
  | ⟨0, _⟩ => show bi + 1 * u.val = bi; omega
  | ⟨1, _⟩ => show 0 + 1 * c.val = c.val; omega

end Cert.KernelIdeal.KBody0

end
-- ==== Proof.KBody0Rows.lean ====
/-
  The first kernel's body, payload by payload, read one row at a time. Each payload is a composition of three named
  steps — a block's layer norm, an affine map of a block's rows, and the joining and halving of blocks along their
  columns — so entry `(r, ·)` of a payload depends only on row `r` of its block operands, and reads as the
  specification's row function of those rows: the embedded row's layer norm (the token row before the first block),
  the zero context row, a block's two affine maps each followed by `max · 0` (the hidden row), the context row plus
  the hidden row's lower half and the token row plus its upper half, each layer-normalised.
-/
import proofs.«407089_j83803401879983_3_alg».proof.Proof.Gen.KernelIdeal.Frame
import proofs.«407089_j83803401879983_3_alg».proof.Proof.SpecParams
import proofs.«407089_j83803401879983_3_alg».proof.Proof.KBody0LN
import proofs.«407089_j83803401879983_3_alg».proof.Proof.KBody0MM
import proofs.«407089_j83803401879983_3_alg».proof.Proof.KBody0LY
import proofs.«407089_j83803401879983_3_alg».proof.Proof.LibIdealAtIndex

noncomputable section

namespace Cert.KernelIdeal.KBody0

open Idealize.ShloMosaic Idealize.ShloMosaic.ValueIdx Cert.KernelIdeal Cert.KernelIdeal.Gen

/-! ## Each payload as a composition of the named steps -/

theorem k0_pay2_eq : k0_pay2 (F := Ideal) = broadcast S512x512 (Scalar.ofBits .f32 0x00000000#32) := rfl
theorem k0_pay4_eq : k0_pay4 (F := Ideal) = broadcast S512x1024 (Scalar.ofBits .f32 0x00000000#32) := rfl

theorem k0_pay3_eq (v0 : Vec Ideal S512x512 .f32) (v2 v3 : Vec Ideal S512 .f32) (v30 : Vec Ideal S1x1x1024x1024 .bf16)
    (v32 : Vec Ideal S1x1x1024 .f32) :
    k0_pay3 (F := Ideal) v0 v2 v3 v30 v32
      = affine (concatenate S512x1024 1 [⟨S512x512, k0_pay2 (F := Ideal)⟩, ⟨S512x512, k0_pay1 (F := Ideal) v0 v2 v3⟩]
          concatenates_S512x512_S512x512_S512x1024_d1) v30 v32 := rfl

theorem k0_pay5_eq (v38 v39 : FVec Ideal S512x1024 .f32) (v41 : Vec Ideal S1x1x1024x1024 .bf16) (v43 : Vec Ideal S1x1x1024 .f32) :
    k0_pay5 (F := Ideal) v38 v39 v41 v43
      = maximumf (affine (maximumf v38 v39) v41 v43) (broadcast S512x1024 (Scalar.ofBits .f32 0x00000000#32)) := rfl

theorem k0_pay6_eq (v28 : FVec Ideal S512x512 .f32) (v38 v39 : FVec Ideal S512x1024 .f32) (v41 : Vec Ideal S1x1x1024x1024 .bf16)
    (v43 : Vec Ideal S1x1x1024 .f32) (v54 v56 : Vec Ideal S1x512 .f32) :
    k0_pay6 (F := Ideal) v28 v38 v39 v41 v43 v54 v56
      = lnBlock (addf v28 (extractStridedSlice S512x512 ![0, 0] (k0_pay5 (F := Ideal) v38 v39 v41 v43) slices_S512x1024_o0_0_S512x512))
          (shapeCast S512 v54 shapeCasts_S1x512_S512) (shapeCast S512 v56 shapeCasts_S1x512_S512) := rfl

theorem k0_pay7_eq (v27 : FVec Ideal S512x512 .f32) (v51 : FVec Ideal S512x1024 .f32) (v84 v86 : Vec Ideal S1x512 .f32) :
    k0_pay7 (F := Ideal) v27 v51 v84 v86
      = lnBlock (addf v27 (extractStridedSlice S512x512 ![0, 512] v51 slices_S512x1024_o0_512_S512x512))
          (shapeCast S512 v84 shapeCasts_S1x512_S512) (shapeCast S512 v86 shapeCasts_S1x512_S512) := rfl

theorem k0_pay8_eq (v27 : FVec Ideal S512x512 .f32) (v51 : FVec Ideal S512x1024 .f32) (v81 : FVec Ideal S512x512 .f32)
    (v84 v86 : Vec Ideal S1x512 .f32) (v113 : Vec Ideal S1x1x1024x1024 .bf16) (v115 : Vec Ideal S1x1x1024 .f32) :
    k0_pay8 (F := Ideal) v27 v51 v81 v84 v86 v113 v115
      = maximumf (affine (concatenate S512x1024 1 [⟨S512x512, v81⟩, ⟨S512x512, k0_pay7 (F := Ideal) v27 v51 v84 v86⟩]
          concatenates_S512x512_S512x512_S512x1024_d1) v113 v115) (broadcast S512x1024 (Scalar.ofBits .f32 0x00000000#32)) := rfl

theorem k0_pay9_eq (v123 : FVec Ideal S512x1024 .f32) (v124 : Vec Ideal S1x1x1024x1024 .bf16) (v126 : Vec Ideal S1x1x1024 .f32) :
    k0_pay9 (F := Ideal) v123 v124 v126
      = maximumf (affine v123 v124 v126) (broadcast S512x1024 (Scalar.ofBits .f32 0x00000000#32)) := rfl

theorem k0_pay10_eq (v81 : FVec Ideal S512x512 .f32) (v123 : FVec Ideal S512x1024 .f32) (v124 : Vec Ideal S1x1x1024x1024 .bf16)
    (v126 : Vec Ideal S1x1x1024 .f32) (v137 v139 : Vec Ideal S1x512 .f32) :
    k0_pay10 (F := Ideal) v81 v123 v124 v126 v137 v139
      = lnBlock (addf v81 (extractStridedSlice S512x512 ![0, 0] (k0_pay9 (F := Ideal) v123 v124 v126) slices_S512x1024_o0_0_S512x512))
          (shapeCast S512 v137 shapeCasts_S1x512_S512) (shapeCast S512 v139 shapeCasts_S1x512_S512) := rfl

theorem k0_pay11_eq (v123 : FVec Ideal S512x1024 .f32) (v124 : Vec Ideal S1x1x1024x1024 .bf16) (v126 : Vec Ideal S1x1x1024 .f32) :
    k0_pay11 (F := Ideal) v123 v124 v126
      = extractStridedSlice S512x512 ![0, 512] (k0_pay9 (F := Ideal) v123 v124 v126) slices_S512x1024_o0_512_S512x512 := rfl

theorem k0_pay12_eq (v111 v165 : FVec Ideal S512x512 .f32) (v167 v169 : Vec Ideal S1x512 .f32) :
    k0_pay12 (F := Ideal) v111 v165 v167 v169
      = lnBlock (addf v111 v165) (shapeCast S512 v167 shapeCasts_S1x512_S512) (shapeCast S512 v169 shapeCasts_S1x512_S512) := rfl

theorem k0_pay13_eq (v111 v164 v165 : FVec Ideal S512x512 .f32) (v167 v169 : Vec Ideal S1x512 .f32)
    (v196 : Vec Ideal S1x1x1024x1024 .bf16) (v198 : Vec Ideal S1x1x1024 .f32) :
    k0_pay13 (F := Ideal) v111 v164 v165 v167 v169 v196 v198
      = maximumf (affine (concatenate S512x1024 1 [⟨S512x512, v164⟩, ⟨S512x512, k0_pay12 (F := Ideal) v111 v165 v167 v169⟩]
          concatenates_S512x512_S512x512_S512x1024_d1) v196 v198) (broadcast S512x1024 (Scalar.ofBits .f32 0x00000000#32)) := rfl

theorem k0_pay14_eq (v194 : FVec Ideal S512x512 .f32) (v206 : FVec Ideal S512x1024 .f32) (v207 : Vec Ideal S1x1x1024x1024 .bf16)
    (v209 : Vec Ideal S1x1x1024 .f32) (v220 v222 : Vec Ideal S1x512 .f32) :
    k0_pay14 (F := Ideal) v194 v206 v207 v209 v220 v222
      = truncf .bf16 (lnBlock (addf v194 (extractStridedSlice S512x512 ![0, 512]
            (maximumf (affine v206 v207 v209) (broadcast S512x1024 (Scalar.ofBits .f32 0x00000000#32))) slices_S512x1024_o0_512_S512x512))
          (shapeCast S512 v220 shapeCasts_S1x512_S512) (shapeCast S512 v222 shapeCasts_S1x512_S512)) bitsLt_bf16_f32 := rfl

/-! ## Each payload read one row at a time

Entry `(r, ·)` of every payload depends only on row `r` of its block operands: each lemma below reads a payload at
`(r, c)` as the specification's row function of those rows. -/

section Rows
variable (r : Fin 512)

/-- A block's layer norm with gain and shift given as `[1, 512]` rows. -/
theorem ln_row (X : FVec Ideal S512x512 .f32) (vg vb : Vec Ideal S1x512 .f32) (c : Fin 512) :
    lnBlock X (shapeCast S512 vg shapeCasts_S1x512_S512) (shapeCast S512 vb shapeCasts_S1x512_S512) (ix2 r c)
      = Cert.Spec.ln (fun k => X (ix2 r k)) (fun k => vg (ix2 (0 : Fin 1) k)) (fun k => vb (ix2 (0 : Fin 1) k)) c := by
  rw [lnBlock_apply]
  simp only [shapeCast_1a_a_apply]

/-- An affine map followed by `max · 0`. -/
theorem lin_row (H : FVec Ideal S512x1024 .f32) (W : Vec Ideal S1x1x1024x1024 .bf16) (bias : Vec Ideal S1x1x1024 .f32) (o : Fin 1024) :
    maximumf (affine H W bias) (broadcast S512x1024 (Scalar.ofBits .f32 0x00000000#32)) (ix2 r o)
      = Cert.Spec.lin (fun k => H (ix2 r k)) (fun o k => W (ix4 (0 : Fin 1) (0 : Fin 1) o k))
          (fun o => bias (ix3 (0 : Fin 1) (0 : Fin 1) o)) o := by
  rw [maximumf_zero_splat_apply, affine_apply]
  rfl

/-- The first layer norm: the token row before the first block. -/
theorem pay1_row (v0 : Vec Ideal S512x512 .f32) (v2 v3 : Vec Ideal S512 .f32) (c : Fin 512) :
    k0_pay1 (F := Ideal) v0 v2 v3 (ix2 r c)
      = Cert.Spec.ln (fun k => v0 (ix2 r k)) (fun k => v2 (ix1 k)) (fun k => v3 (ix1 k)) c := by
  rw [k0_pay1_eq, lnBlock_apply, shapeCast_self]

/-- The zero block: the context row before the first block. -/
theorem pay2_row (c : Fin 512) : k0_pay2 (F := Ideal) (ix2 r c) = Cert.Spec.ctx0 c :=
  Ideal.ofBits_zero_f32

/-- The first block's first affine map, before its `max · 0`. -/
theorem pay3_row (v0 : Vec Ideal S512x512 .f32) (v2 v3 : Vec Ideal S512 .f32) (v30 : Vec Ideal S1x1x1024x1024 .bf16)
    (v32 : Vec Ideal S1x1x1024 .f32) (o : Fin 1024) :
    k0_pay3 (F := Ideal) v0 v2 v3 v30 v32 (ix2 r o)
      = (∑ k : Fin 1024, Cert.Spec.cat Cert.Spec.ctx0
            (Cert.Spec.ln (fun k => v0 (ix2 r k)) (fun k => v2 (ix1 k)) (fun k => v3 (ix1 k))) k
          * v30 (ix4 (0 : Fin 1) (0 : Fin 1) o k)) + v32 (ix3 (0 : Fin 1) (0 : Fin 1) o) := by
  rw [k0_pay3_eq, affine_apply]
  simp only [cat_apply, pay1_row, pay2_row]

/-- The hidden row of a block whose first affine map (before `max · 0`) is given. -/
theorem pay5_row (v38 : FVec Ideal S512x1024 .f32) (v41 : Vec Ideal S1x1x1024x1024 .bf16) (v43 : Vec Ideal S1x1x1024 .f32)
    (o : Fin 1024) :
    k0_pay5 (F := Ideal) v38 (k0_pay4 (F := Ideal)) v41 v43 (ix2 r o)
      = Cert.Spec.lin (fun k => max (v38 (ix2 r k)) 0) (fun o k => v41 (ix4 (0 : Fin 1) (0 : Fin 1) o k))
          (fun o => v43 (ix3 (0 : Fin 1) (0 : Fin 1) o)) o := by
  rw [k0_pay5_eq, lin_row, k0_pay4_eq]
  simp only [maximumf_zero_splat_apply]

/-- The context row after a block: the context row plus the lower half of the hidden row, layer-normalised. -/
theorem pay6_row (v28 : FVec Ideal S512x512 .f32) (v38 : FVec Ideal S512x1024 .f32) (v41 : Vec Ideal S1x1x1024x1024 .bf16)
    (v43 : Vec Ideal S1x1x1024 .f32) (v54 v56 : Vec Ideal S1x512 .f32) (c : Fin 512) :
    k0_pay6 (F := Ideal) v28 v38 (k0_pay4 (F := Ideal)) v41 v43 v54 v56 (ix2 r c)
      = Cert.Spec.ln (fun c => v28 (ix2 r c) + Cert.Spec.lo (Cert.Spec.lin (fun k => max (v38 (ix2 r k)) 0)
            (fun o k => v41 (ix4 (0 : Fin 1) (0 : Fin 1) o k)) (fun o => v43 (ix3 (0 : Fin 1) (0 : Fin 1) o))) c)
          (fun k => v54 (ix2 (0 : Fin 1) k)) (fun k => v56 (ix2 (0 : Fin 1) k)) c := by
  rw [k0_pay6_eq, ln_row]
  simp only [addf_apply, lo_apply, pay5_row]

/-- The token row after a block: the token row plus the upper half of the hidden row, layer-normalised. -/
theorem pay7_row (v27 : FVec Ideal S512x512 .f32) (v51 : FVec Ideal S512x1024 .f32) (v84 v86 : Vec Ideal S1x512 .f32) (c : Fin 512) :
    k0_pay7 (F := Ideal) v27 v51 v84 v86 (ix2 r c)
      = Cert.Spec.ln (fun c => v27 (ix2 r c) + Cert.Spec.hi (fun k => v51 (ix2 r k)) c)
          (fun k => v84 (ix2 (0 : Fin 1) k)) (fun k => v86 (ix2 (0 : Fin 1) k)) c := by
  rw [k0_pay7_eq, ln_row]
  simp only [addf_apply, hi_apply]

/-- The next block's first affine map with its `max · 0`, of the joined context and token rows. -/
theorem pay8_row (v27 : FVec Ideal S512x512 .f32) (v51 : FVec Ideal S512x1024 .f32) (v81 : FVec Ideal S512x512 .f32)
    (v84 v86 : Vec Ideal S1x512 .f32) (v113 : Vec Ideal S1x1x1024x1024 .bf16) (v115 : Vec Ideal S1x1x1024 .f32) (o : Fin 1024) :
    k0_pay8 (F := Ideal) v27 v51 v81 v84 v86 v113 v115 (ix2 r o)
      = Cert.Spec.lin (Cert.Spec.cat (fun k => v81 (ix2 r k))
            (Cert.Spec.ln (fun c => v27 (ix2 r c) + Cert.Spec.hi (fun k => v51 (ix2 r k)) c)
              (fun k => v84 (ix2 (0 : Fin 1) k)) (fun k => v86 (ix2 (0 : Fin 1) k))))
          (fun o k => v113 (ix4 (0 : Fin 1) (0 : Fin 1) o k)) (fun o => v115 (ix3 (0 : Fin 1) (0 : Fin 1) o)) o := by
  rw [k0_pay8_eq, lin_row]
  simp only [cat_apply, pay7_row]

/-- A block's second affine map with its `max · 0`: the hidden row. -/
theorem pay9_row (v123 : FVec Ideal S512x1024 .f32) (v124 : Vec Ideal S1x1x1024x1024 .bf16) (v126 : Vec Ideal S1x1x1024 .f32)
    (o : Fin 1024) :
    k0_pay9 (F := Ideal) v123 v124 v126 (ix2 r o)
      = Cert.Spec.lin (fun k => v123 (ix2 r k)) (fun o k => v124 (ix4 (0 : Fin 1) (0 : Fin 1) o k))
          (fun o => v126 (ix3 (0 : Fin 1) (0 : Fin 1) o)) o := by
  rw [k0_pay9_eq, lin_row]

theorem pay10_row (v81 : FVec Ideal S512x512 .f32) (v123 : FVec Ideal S512x1024 .f32) (v124 : Vec Ideal S1x1x1024x1024 .bf16)
    (v126 : Vec Ideal S1x1x1024 .f32) (v137 v139 : Vec Ideal S1x512 .f32) (c : Fin 512) :
    k0_pay10 (F := Ideal) v81 v123 v124 v126 v137 v139 (ix2 r c)
      = Cert.Spec.ln (fun c => v81 (ix2 r c) + Cert.Spec.lo (Cert.Spec.lin (fun k => v123 (ix2 r k))
            (fun o k => v124 (ix4 (0 : Fin 1) (0 : Fin 1) o k)) (fun o => v126 (ix3 (0 : Fin 1) (0 : Fin 1) o))) c)
          (fun k => v137 (ix2 (0 : Fin 1) k)) (fun k => v139 (ix2 (0 : Fin 1) k)) c := by
  rw [k0_pay10_eq, ln_row]
  simp only [addf_apply, lo_apply, pay9_row]

theorem pay11_row (v123 : FVec Ideal S512x1024 .f32) (v124 : Vec Ideal S1x1x1024x1024 .bf16) (v126 : Vec Ideal S1x1x1024 .f32)
    (c : Fin 512) :
    k0_pay11 (F := Ideal) v123 v124 v126 (ix2 r c)
      = Cert.Spec.hi (Cert.Spec.lin (fun k => v123 (ix2 r k)) (fun o k => v124 (ix4 (0 : Fin 1) (0 : Fin 1) o k))
          (fun o => v126 (ix3 (0 : Fin 1) (0 : Fin 1) o))) c := by
  rw [k0_pay11_eq, hi_apply]
  simp only [pay9_row]

theorem pay12_row (v111 v165 : FVec Ideal S512x512 .f32) (v167 v169 : Vec Ideal S1x512 .f32) (c : Fin 512) :
    k0_pay12 (F := Ideal) v111 v165 v167 v169 (ix2 r c)
      = Cert.Spec.ln (fun c => v111 (ix2 r c) + v165 (ix2 r c))
          (fun k => v167 (ix2 (0 : Fin 1) k)) (fun k => v169 (ix2 (0 : Fin 1) k)) c := by
  rw [k0_pay12_eq, ln_row]
  simp only [addf_apply]

theorem pay13_row (v111 v164 v165 : FVec Ideal S512x512 .f32) (v167 v169 : Vec Ideal S1x512 .f32)
    (v196 : Vec Ideal S1x1x1024x1024 .bf16) (v198 : Vec Ideal S1x1x1024 .f32) (o : Fin 1024) :
    k0_pay13 (F := Ideal) v111 v164 v165 v167 v169 v196 v198 (ix2 r o)
      = Cert.Spec.lin (Cert.Spec.cat (fun k => v164 (ix2 r k))
            (Cert.Spec.ln (fun c => v111 (ix2 r c) + v165 (ix2 r c))
              (fun k => v167 (ix2 (0 : Fin 1) k)) (fun k => v169 (ix2 (0 : Fin 1) k))))
          (fun o k => v196 (ix4 (0 : Fin 1) (0 : Fin 1) o k)) (fun o => v198 (ix3 (0 : Fin 1) (0 : Fin 1) o)) o := by
  rw [k0_pay13_eq, lin_row]
  simp only [cat_apply, pay12_row]

theorem pay14_row (v194 : FVec Ideal S512x512 .f32) (v206 : FVec Ideal S512x1024 .f32) (v207 : Vec Ideal S1x1x1024x1024 .bf16)
    (v209 : Vec Ideal S1x1x1024 .f32) (v220 v222 : Vec Ideal S1x512 .f32) (c : Fin 512) :
    k0_pay14 (F := Ideal) v194 v206 v207 v209 v220 v222 (ix2 r c)
      = Cert.Spec.ln (fun c => v194 (ix2 r c) + Cert.Spec.hi (Cert.Spec.lin (fun k => v206 (ix2 r k))
            (fun o k => v207 (ix4 (0 : Fin 1) (0 : Fin 1) o k)) (fun o => v209 (ix3 (0 : Fin 1) (0 : Fin 1) o))) c)
          (fun k => v220 (ix2 (0 : Fin 1) k)) (fun k => v222 (ix2 (0 : Fin 1) k)) c := by
  rw [k0_pay14_eq, truncf_apply, ln_row]
  simp only [addf_apply, hi_apply, lin_row]

end Rows

end Cert.KernelIdeal.KBody0

end
-- ==== Proof.KBody0.lean ====
/-
  What the first kernel's body leaves in its output block, entry by entry. The body loads the input block whole, the
  first layer norm's gain and shift whole, and out of the stacked parameter arrays one weight slab and one bias row per
  affine map and one gain row and one shift row per layer norm; it stores one value, the third block's token rows.
  Every payload acts on one row at a time, so entry `(r, c)` of the stored block is the specification's last token
  row of row `r` of the input block, at `c`, with the weights read off the parameter arrays by plain coordinates
  (the element at `(0, 0, o, k)` of the slab loaded at `[bi, li, 0, 0]` is the array's element at `(bi, li, o, k)`).
-/
import proofs.«407089_j83803401879983_3_alg».proof.Proof.Gen.KernelIdeal.Frame
import proofs.«407089_j83803401879983_3_alg».proof.Proof.SpecParams
import proofs.«407089_j83803401879983_3_alg».proof.Proof.KBody0Rows

noncomputable section

namespace Cert.KernelIdeal.KBody0

open Idealize.ShloMosaic Idealize.ShloMosaic.ValueIdx Cert.KernelIdeal Cert.KernelIdeal.Gen

/-! ## The loads of the stacked parameters, rectangle by rectangle -/

/-- The `[1, 1, 1024, 1024]` slab `(bi, li)` of the weights. -/
def slabW (x3 : Vec Ideal S3x2x1024x1024 .bf16) (bi : Fin 3) (li : Fin 2) : Vec Ideal S1x1x1024x1024 .bf16 :=
  fun i => x3 (ix4 bi li (i 2) (i 3))
/-- The `[1, 1, 1024]` row `(bi, li)` of the biases. -/
def slabB (x4 : Vec Ideal S3x2x1024 .f32) (bi : Fin 3) (li : Fin 2) : Vec Ideal S1x1x1024 .f32 :=
  fun i => x4 (ix3 bi li (i 2))
/-- Row `bi` of a `[3, 512]` array, as a `[1, 512]` array. -/
def rowG (x : Vec Ideal S3x512 .f32) (bi : Fin 3) : Vec Ideal S1x512 .f32 := fun i => x (ix2 bi (i 1))

theorem slabW_apply (x3 : Vec Ideal S3x2x1024x1024 .bf16) (bi : Fin 3) (li : Fin 2) (u v : Fin 1) (o k : Fin 1024) :
    slabW x3 bi li (ix4 u v o k) = x3 (ix4 bi li o k) := rfl
theorem slabB_apply (x4 : Vec Ideal S3x2x1024 .f32) (bi : Fin 3) (li : Fin 2) (u v : Fin 1) (o : Fin 1024) :
    slabB x4 bi li (ix3 u v o) = x4 (ix3 bi li o) := rfl
theorem rowG_apply (x : Vec Ideal S3x512 .f32) (bi : Fin 3) (u : Fin 1) (c : Fin 512) : rowG x bi (ix2 u c) = x (ix2 bi c) := rfl

section Loads
variable (x3 : Vec Ideal S3x2x1024x1024 .bf16) (x4 : Vec Ideal S3x2x1024 .f32) (x : Vec Ideal S3x512 .f32)

theorem ld_w (bi li : Nat) (hb : bi < 3) (hl : li < 2)
    (inb : ∀ a, (![bi, li, 0, 0] : Fin 4 → Nat) a + S1x1x1024x1024.size a ≤ S3x2x1024x1024.size a) :
    View.ld x3 (Rect.unit (s := S3x2x1024x1024) ![bi, li, 0, 0] S1x1x1024x1024.size inb) = slabW x3 ⟨bi, hb⟩ ⟨li, hl⟩ :=
  funext fun (i : S1x1x1024x1024.Idx) => by
    obtain ⟨u, v, o, k, rfl⟩ : ∃ (u v : Fin 1) (o k : Fin 1024), i = ix4 u v o k := ⟨i 0, i 1, i 2, i 3, eq_ix4 i⟩
    exact ld_w_apply x3 bi li hb hl inb u v o k

theorem ld_b (bi li : Nat) (hb : bi < 3) (hl : li < 2)
    (inb : ∀ a, (![bi, li, 0] : Fin 3 → Nat) a + S1x1x1024.size a ≤ S3x2x1024.size a) :
    View.ld x4 (Rect.unit (s := S3x2x1024) ![bi, li, 0] S1x1x1024.size inb) = slabB x4 ⟨bi, hb⟩ ⟨li, hl⟩ :=
  funext fun (i : S1x1x1024.Idx) => by
    obtain ⟨u, v, o, rfl⟩ : ∃ (u v : Fin 1) (o : Fin 1024), i = ix3 u v o := ⟨i 0, i 1, i 2, eq_ix3 i⟩
    exact ld_b_apply x4 bi li hb hl inb u v o

theorem ld_g (bi : Nat) (hb : bi < 3) (inb : ∀ a, (![bi, 0] : Fin 2 → Nat) a + S1x512.size a ≤ S3x512.size a) :
    View.ld x (Rect.unit (s := S3x512) ![bi, 0] S1x512.size inb) = rowG x ⟨bi, hb⟩ :=
  funext fun (i : S1x512.Idx) => by
    obtain ⟨u, c, rfl⟩ : ∃ (u : Fin 1) (c : Fin 512), i = ix2 u c := ⟨i 0, i 1, eq_ix2 i⟩
    exact ld_g_apply x bi hb inb u c

theorem ld_r0_2 : View.ld x3 r0_2 = slabW x3 0 0 := ld_w x3 0 0 (by decide) (by decide) _
theorem ld_r0_4 : View.ld x3 r0_4 = slabW x3 0 1 := ld_w x3 0 1 (by decide) (by decide) _
theorem ld_r0_7 : View.ld x3 r0_7 = slabW x3 1 0 := ld_w x3 1 0 (by decide) (by decide) _
theorem ld_r0_9 : View.ld x3 r0_9 = slabW x3 1 1 := ld_w x3 1 1 (by decide) (by decide) _
theorem ld_r0_12 : View.ld x3 r0_12 = slabW x3 2 0 := ld_w x3 2 0 (by decide) (by decide) _
theorem ld_r0_14 : View.ld x3 r0_14 = slabW x3 2 1 := ld_w x3 2 1 (by decide) (by decide) _
theorem ld_r0_3 : View.ld x4 r0_3 = slabB x4 0 0 := ld_b x4 0 0 (by decide) (by decide) _
theorem ld_r0_5 : View.ld x4 r0_5 = slabB x4 0 1 := ld_b x4 0 1 (by decide) (by decide) _
theorem ld_r0_8 : View.ld x4 r0_8 = slabB x4 1 0 := ld_b x4 1 0 (by decide) (by decide) _
theorem ld_r0_10 : View.ld x4 r0_10 = slabB x4 1 1 := ld_b x4 1 1 (by decide) (by decide) _
theorem ld_r0_13 : View.ld x4 r0_13 = slabB x4 2 0 := ld_b x4 2 0 (by decide) (by decide) _
theorem ld_r0_15 : View.ld x4 r0_15 = slabB x4 2 1 := ld_b x4 2 1 (by decide) (by decide) _
theorem ld_r0_6 : View.ld x r0_6 = rowG x 0 := ld_g x 0 (by decide) _
theorem ld_r0_11 : View.ld x r0_11 = rowG x 1 := ld_g x 1 (by decide) _
theorem ld_r0_16 : View.ld x r0_16 = rowG x 2 := ld_g x 2 (by decide) _

end Loads

theorem offs2_zero : (![0, 0] : Fin 2 → Nat) = fun _ => 0 := funext fun a => match a with | ⟨0, _⟩ => rfl | ⟨1, _⟩ => rfl
theorem offs1_zero : (![0] : Fin 1 → Nat) = fun _ => 0 := funext fun a => match a with | ⟨0, _⟩ => rfl

/-- Entry `(r, c)` of what the first kernel's body leaves in its output block is the network's last token row of
    row `r` of the input block, at column `c`. -/
theorem out0_9_apply (x0 : Vec Ideal S512x512 .f32) (x1 x2 : Vec Ideal S512 .f32) (x3 : Vec Ideal S3x2x1024x1024 .bf16)
    (x4 : Vec Ideal S3x2x1024 .f32) (x5 x6 x7 x8 : Vec Ideal S3x512 .f32) (r c : Fin 512) :
    out0_9 (F := Ideal) x0 x1 x2 x3 x4 x5 x6 x7 x8 (ix2 r c)
      = Cert.Spec.tok3 (Cert.Spec.params x1 x2 x3 x4 x5 x6 x7 x8) (fun k => x0 (ix2 r k)) c := by
  unfold out0_9
  rw [View.canon_unit_zero offs2_zero]
  simp only [View.ld_unit_zero (S := S512x512) offs2_zero, View.ld_unit_zero (S := S512) offs1_zero]
  rw [ld_r0_2, ld_r0_3, ld_r0_4, ld_r0_5, ld_r0_7, ld_r0_8, ld_r0_9, ld_r0_10, ld_r0_12, ld_r0_13, ld_r0_14, ld_r0_15,
    ld_r0_6 x5, ld_r0_6 x6, ld_r0_6 x7, ld_r0_6 x8, ld_r0_11 x5, ld_r0_11 x6, ld_r0_11 x7, ld_r0_11 x8, ld_r0_16 x7, ld_r0_16 x8]
  simp only [pay14_row, pay13_row, pay12_row, pay11_row, pay10_row, pay8_row, pay7_row, pay6_row, pay5_row, pay3_row, pay1_row,
    pay2_row, slabW_apply, slabB_apply, rowG_apply]
  rfl

end Cert.KernelIdeal.KBody0

end
-- ==== Proof.KBody1.lean ====
/-
  The second kernel's body at one grid point: the output block is one store of the tile of 512 token rows (read off
  the resident array from row `512 · i₁`) contracted with the weight block over the 512 features, plus the bias row
  repeated down the rows. Read entry by entry this is the specification's logit of a token row against a vocabulary
  row.
-/
import proofs.«407089_j83803401879983_3_alg».proof.Proof.Gen.KernelIdeal.Frame
import proofs.«407089_j83803401879983_3_alg».proof.Proof.SpecParams
import Idealize.ShloMosaic.Lib.ValueLayout
import Idealize.ShloMosaic.Lib.Pipeline.Value
import Idealize.ShloMosaic.PureOps.Ideal.Laws

noncomputable section

namespace Cert.KernelIdeal.KBody1

open Idealize.ShloMosaic Idealize.ShloMosaic.ValueIdx Cert.KernelIdeal Cert.KernelIdeal.Gen

/-- The two zero offsets of a whole-block access are the zero function. -/
theorem offsets_zero : (![0, 0] : Fin 2 → Nat) = fun _ => 0 := funext fun a => by fin_cases a <;> rfl

/-- The token tile starts at row `512 · i₁`: the grid coordinate is below 8, so the 32-bit product does not wrap. -/
theorem k1_off1_row (i : grid1.Coords) : k1_off1 i 0 = 512 * (i 1).val := by
  have h : (i 1).val < 8 := (i 1).isLt
  show (Scalar.indexCast (Scalar.muli (BitVec.ofNat 32 (i 1).val) 512#32)).toNat = _
  simp only [Scalar.indexCast, Scalar.muli, IntOp.muli, BitVec.toNat_mul, BitVec.toNat_ofNat]
  omega

/-- The token tile starts at column 0. -/
theorem k1_off1_col (i : grid1.Coords) : k1_off1 i 1 = 0 := rfl

section AnyFloat
variable {F : FTy → Type} [FloatOps F]

/-- The body's one store covers the output block, so the block is the store's payload: the arithmetic of the token tile
    (512 rows of the resident array from the tile's offset), the whole weight block and the whole bias block. -/
theorem out1_A_3_eq (c : Dev nD) (i : grid1.Coords)
    (arg2 : Memref sig .tc .vmem S4096x512 .bf16) (harg2 : arg2.IsWhole) (arg3 : Memref sig .tc .vmem S1280x512 .f32) (harg3 : arg3.IsWhole)
    (arg4 : Memref sig .tc .vmem S1x1280 .f32) (harg4 : arg4.IsWhole) (arg5 : Memref sig .tc .vmem S512x1280 .f32) (harg5 : arg5.IsWhole)
    (x0 : Vec F S4096x512 .bf16) (x1 : Vec F S1280x512 .f32) (x2 : Vec F S1x1280 .f32) :
    out1_A_3 (F := F) c i arg2 harg2 arg3 harg3 arg4 harg4 arg5 harg5 x0 x1 x2
      = k1_pay1 (View.ld x0 (Rect.unit (s := S4096x512) (k1_off1 i) S512x512.size (k1_off1_inb i))) x1 x2 := by
  unfold out1_A_3
  rw [View.read_writes_eq_canon _ _ _ (cover1_A_3 c i arg2 harg2 arg3 harg3 arg4 harg4 arg5 harg5 x0 x1 x2)]
  unfold kernelRun1_A
  dsimp only
  rw [View.canon_unit_zero offsets_zero]
  simp only [View.readAt_eq_ld, harg2.read_unread, harg3.read_unread, harg4.read_unread,
    View.ld_unit_zero (S := S1280x512) offsets_zero, View.ld_unit_zero (S := S1x1280) offsets_zero]

end AnyFloat

/-! ## The payload at an index -/

/-- The contraction runs over axis 1 of the token tile and axis 1 of the weight block; the four lemmas below read the
    two operand indices of output entry `p` at contraction position `q`, one axis at a time. On the tile's row axis:
    the output's row. -/
theorem lhs_axis0 (p : S512x1280.Idx) (q : dot_S512x512_S1280x512_S512x1280_1_1_0_0_n_n.contr.Idx) :
    (dot_S512x512_S1280x512_S512x1280_1_1_0_0_n_n.lhsIdx p q 0).val = (p 0).val := by
  unfold DotDims.lhsIdx
  rw [dif_neg (show ¬(0 : Fin S512x512.rank) ∈ dot_S512x512_S1280x512_S512x1280_1_1_0_0_n_n.lhsBatch by decide), dif_pos (show (0 : Fin S512x512.rank) ∈ dot_S512x512_S1280x512_S512x1280_1_1_0_0_n_n.lhsNonContracting by decide)]
  rfl
/-- On the tile's column axis: the contraction position. -/
theorem lhs_axis1 (p : S512x1280.Idx) (q : dot_S512x512_S1280x512_S512x1280_1_1_0_0_n_n.contr.Idx) :
    (dot_S512x512_S1280x512_S512x1280_1_1_0_0_n_n.lhsIdx p q 1).val = (q ⟨0, by decide⟩).val :=
  dot_S512x512_S1280x512_S512x1280_1_1_0_0_n_n.lhsIdx_val_of_single rfl p q
/-- On the weight block's row axis: the output's column. -/
theorem rhs_axis0 (p : S512x1280.Idx) (q : dot_S512x512_S1280x512_S512x1280_1_1_0_0_n_n.contr.Idx) :
    (dot_S512x512_S1280x512_S512x1280_1_1_0_0_n_n.rhsIdx p q 0).val = (p 1).val := by
  unfold DotDims.rhsIdx
  rw [dif_neg (show ¬(0 : Fin S1280x512.rank) ∈ dot_S512x512_S1280x512_S512x1280_1_1_0_0_n_n.rhsBatch by decide), dif_pos (show (0 : Fin S1280x512.rank) ∈ dot_S512x512_S1280x512_S512x1280_1_1_0_0_n_n.rhsNonContracting by decide)]
  rfl
/-- On the weight block's column axis: the contraction position. -/
theorem rhs_axis1 (p : S512x1280.Idx) (q : dot_S512x512_S1280x512_S512x1280_1_1_0_0_n_n.contr.Idx) :
    (dot_S512x512_S1280x512_S512x1280_1_1_0_0_n_n.rhsIdx p q 1).val = (q ⟨0, by decide⟩).val :=
  dot_S512x512_S1280x512_S512x1280_1_1_0_0_n_n.rhsIdx_val_of_single rfl p q

/-- Entry `(r, j)` of the payload: row `r` of the token tile against row `j` of the weight block, plus entry `j` of
    the bias row. The accumulator is the zero block, the format changes are the identity on the extended reals, and
    the bias row is repeated down the 512 rows. -/
theorem k1_pay1_apply (v3 : FVec Ideal S512x512 .bf16) (v5 : FVec Ideal S1280x512 .f32) (v8 : FVec Ideal S1x1280 .f32)
    (r : Fin 512) (j : Fin 1280) :
    k1_pay1 (F := Ideal) v3 v5 v8 (ix2 r j) = (∑ k : Fin 512, v3 (ix2 r k) * v5 (ix2 j k)) + v8 (ix2 (0 : Fin 1) j) := by
  unfold k1_pay1
  refine (addf_apply _ _ _).trans (congrArg₂ (· + ·) ?_ ?_)
  · refine (Ideal.matmul_constant_zero_apply dot_S512x512_S1280x512_S512x1280_1_1_0_0_n_n none _ _ (ix2 r j)).trans ?_
    rw [← Equiv.sum_comp (contrEquiv1 dot_S512x512_S1280x512_S512x1280_1_1_0_0_n_n 512 rfl rfl).symm]
    refine Finset.sum_congr rfl fun k _ => ?_
    have hk := contrEquiv1_symm_val dot_S512x512_S1280x512_S512x1280_1_1_0_0_n_n 512 rfl rfl k
    have el : dot_S512x512_S1280x512_S512x1280_1_1_0_0_n_n.lhsIdx (ix2 r j) ((contrEquiv1 dot_S512x512_S1280x512_S512x1280_1_1_0_0_n_n 512 rfl rfl).symm k) = ix2 r k := funext fun a => Fin.ext (by
      match a with
      | ⟨0, _⟩ => exact lhs_axis0 _ _
      | ⟨1, _⟩ => exact (lhs_axis1 _ _).trans hk)
    have er : dot_S512x512_S1280x512_S512x1280_1_1_0_0_n_n.rhsIdx (ix2 r j) ((contrEquiv1 dot_S512x512_S1280x512_S512x1280_1_1_0_0_n_n 512 rfl rfl).symm k) = ix2 j k := funext fun a => Fin.ext (by
      match a with
      | ⟨0, _⟩ => exact rhs_axis0 _ _
      | ⟨1, _⟩ => exact (rhs_axis1 _ _).trans hk)
    rw [el, er, shapeCast_self]
    rfl
  · refine (broadcastTo_1b_ab_apply _ _ r j).trans ?_
    rw [shapeCast_self]

/-! ## The token tile read off the resident array -/

/-- Entry `(r, k)` of the token tile is the resident array at row `512 · i₁ + r`, column `k`. -/
theorem tile_apply {Val : EltTy → Type} {e : EltTy} (i : grid1.Coords) (x0 : S4096x512.Idx → Val e) (r k : Fin 512) (hr : 512 * (i 1).val + r.val < 4096) :
    View.ld x0 (Rect.unit (s := S4096x512) (k1_off1 i) S512x512.size (k1_off1_inb i)) (ix2 r k)
      = x0 (ix2 ⟨512 * (i 1).val + r.val, hr⟩ k) := by
  refine congrArg x0 (funext fun a => Fin.ext ?_)
  match a with
  | ⟨0, _⟩ =>
    show k1_off1 i 0 + 1 * r.val = 512 * (i 1).val + r.val
    rw [k1_off1_row, Nat.one_mul]
  | ⟨1, _⟩ =>
    show k1_off1 i 1 + 1 * k.val = k.val
    rw [k1_off1_col, Nat.one_mul, Nat.zero_add]

/-- Entry `(r, j)` of what the second kernel's body leaves in its output block at grid point `i`: row
    `512 · i₁ + r` of the resident token array against row `j` of the weight block, plus entry `j` of the bias block. -/
theorem out1_A_3_apply (c : Dev nD) (i : grid1.Coords)
    (arg2 : Memref sig .tc .vmem S4096x512 .bf16) (harg2 : arg2.IsWhole) (arg3 : Memref sig .tc .vmem S1280x512 .f32) (harg3 : arg3.IsWhole)
    (arg4 : Memref sig .tc .vmem S1x1280 .f32) (harg4 : arg4.IsWhole) (arg5 : Memref sig .tc .vmem S512x1280 .f32) (harg5 : arg5.IsWhole)
    (x0 : Vec Ideal S4096x512 .bf16) (x1 : Vec Ideal S1280x512 .f32) (x2 : Vec Ideal S1x1280 .f32)
    (r : Fin 512) (j : Fin 1280) (hr : 512 * (i 1).val + r.val < 4096) :
    out1_A_3 (F := Ideal) c i arg2 harg2 arg3 harg3 arg4 harg4 arg5 harg5 x0 x1 x2 (ix2 r j)
      = Cert.Spec.logit (fun k => x0 (ix2 ⟨512 * (i 1).val + r.val, hr⟩ k)) (fun k => x1 (ix2 j k)) (x2 (ix2 (0 : Fin 1) j)) := by
  refine (congrFun (out1_A_3_eq (F := Ideal) c i arg2 harg2 arg3 harg3 arg4 harg4 arg5 harg5 x0 x1 x2) (ix2 r j)).trans ?_
  refine (k1_pay1_apply _ x1 x2 r j).trans ?_
  unfold Cert.Spec.logit
  refine congrArg (· + x2 (ix2 (0 : Fin 1) j)) (Finset.sum_congr rfl fun k _ => ?_)
  exact congrArg (· * x1 (ix2 j k)) (tile_apply i x0 r k hr)

end Cert.KernelIdeal.KBody1

end
-- ==== Proof.KArr0.lean ====
/-
  The first kernel's result array as one function of the arrays it finds.

  The kernel runs over eight row blocks of 512 rows.  At point `t` its body reads rows `512 t … 512 t + 511` of the
  gathered rows and the whole of every weight array, and writes rows `512 t … 512 t + 511` of the result: entry `(r, c)` of
  what it writes is the network's last token row of the block's row `r`, at column `c`.  Since every operation of the
  network acts on one row, that is row `512 t + r` of ONE function `G0` of the whole arrays — row `n` of `G0` is the
  network's last token row of row `n` of the gathered rows —, the eight blocks cover the 4096 rows (row `n` lies in the
  block of point `n / 512`), and so the result array ends holding `G0`.
-/
import proofs.«407089_j83803401879983_3_alg».proof.Proof.KBody0
import Idealize.ShloMosaic.Lib.Pipeline.Value

noncomputable section

namespace Cert.KernelIdeal.KArr0

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The gathered rows, and the weights, as region 0 finds them. -/
abbrev xs (c : Dev nD) : Vec Ideal S4096x512 .f32 := V3 m ρ c main_v1
abbrev pg (c : Dev nD) : Vec Ideal S512 .f32 := V3 m ρ c main_arg2
abbrev pb (c : Dev nD) : Vec Ideal S512 .f32 := V3 m ρ c main_arg3
abbrev pW (c : Dev nD) : Vec Ideal S3x2x1024x1024 .bf16 := V3 m ρ c main_v2
abbrev pbb (c : Dev nD) : Vec Ideal S3x2x1024 .f32 := V3 m ρ c main_arg5
abbrev p5 (c : Dev nD) : Vec Ideal S3x512 .f32 := V3 m ρ c main_arg6
abbrev p6 (c : Dev nD) : Vec Ideal S3x512 .f32 := V3 m ρ c main_arg7
abbrev p7 (c : Dev nD) : Vec Ideal S3x512 .f32 := V3 m ρ c main_arg8
abbrev p8 (c : Dev nD) : Vec Ideal S3x512 .f32 := V3 m ρ c main_arg9

/-- The input windows' blocks at a point, over their literal shapes. -/
abbrev b0 (c : Dev nD) (t : Fin cfg0.N) : Vec Ideal S512x512 .f32 := iblk0 (V3 m ρ) c 0 t
abbrev b1 (c : Dev nD) (t : Fin cfg0.N) : Vec Ideal S512 .f32 := iblk0 (V3 m ρ) c 1 t
abbrev b2 (c : Dev nD) (t : Fin cfg0.N) : Vec Ideal S512 .f32 := iblk0 (V3 m ρ) c 2 t
abbrev b3 (c : Dev nD) (t : Fin cfg0.N) : Vec Ideal S3x2x1024x1024 .bf16 := iblk0 (V3 m ρ) c 3 t
abbrev b4 (c : Dev nD) (t : Fin cfg0.N) : Vec Ideal S3x2x1024 .f32 := iblk0 (V3 m ρ) c 4 t
abbrev b5 (c : Dev nD) (t : Fin cfg0.N) : Vec Ideal S3x512 .f32 := iblk0 (V3 m ρ) c 5 t
abbrev b6 (c : Dev nD) (t : Fin cfg0.N) : Vec Ideal S3x512 .f32 := iblk0 (V3 m ρ) c 6 t
abbrev b7 (c : Dev nD) (t : Fin cfg0.N) : Vec Ideal S3x512 .f32 := iblk0 (V3 m ρ) c 7 t
abbrev b8 (c : Dev nD) (t : Fin cfg0.N) : Vec Ideal S3x512 .f32 := iblk0 (V3 m ρ) c 8 t

/-- Region 0's result array as one function of the arrays it finds: row `n` is the network's last token row of row
    `n` of the gathered rows. -/
def G0 (c : Dev nD) : Vec Ideal S4096x512 .bf16 := fun i =>
  Cert.Spec.tok3 (Cert.Spec.params (pg m ρ c) (pb m ρ c) (pW m ρ c) (pbb m ρ c) (p5 m ρ c) (p6 m ρ c) (p7 m ρ c) (p8 m ρ c))
    (fun k => xs m ρ c (ix2 (i 0) k)) (i 1)

/-- `G0` at row `n`, column `k`. -/
theorem G0_apply (c : Dev nD) (n : Fin 4096) (cc : Fin 512) :
    G0 m ρ c (ix2 n cc)
      = Cert.Spec.tok3 (Cert.Spec.params (pg m ρ c) (pb m ρ c) (pW m ρ c) (pbb m ρ c) (p5 m ρ c) (p6 m ρ c) (p7 m ρ c) (p8 m ρ c))
          (fun k => xs m ρ c (ix2 n k)) cc := rfl

/-- The block indices over the grid: the row windows (the gathered rows, the result) sit at row block `t`, column
    block 0. -/
theorem idx0 : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

/-- Every weight window sits at block 0 of its array, which is the whole array. -/
theorem idx0w : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) :=
  (by decide +kernel : ∀ t : Fin grid0.N, _)

/-- Row `r` of the gathered rows' block at point `t` is row `512 t + r` of the gathered rows. -/
theorem b0_apply (c : Dev nD) (t : Fin cfg0.N) (r k : Fin 512) (hr : 512 * t.val + r.val < 4096) :
    b0 m ρ c t (ix2 r k) = xs m ρ c (ix2 ⟨512 * t.val + r.val, hr⟩ k) := by
  obtain ⟨e0, e1, -, -⟩ := idx0 t
  show V3 m ρ c main_v1 (((cfg0.win 0).blk t).view.emb (ix2 r k)) = V3 m ρ c main_v1 (ix2 ⟨512 * t.val + r.val, hr⟩ k)
  congr 1
  funext a; apply Fin.ext
  match a with
  | ⟨0, _⟩ => show win0_0.index t (0 : Fin 2) * 512 + 1 * r.val = 512 * t.val + r.val; omega
  | ⟨1, _⟩ => show win0_0.index t (1 : Fin 2) * 512 + 1 * k.val = k.val; omega

theorem b1_eq (c : Dev nD) (t : Fin cfg0.N) : b1 m ρ c t = pg m ρ c := by
  have e := (idx0w t).1
  funext y
  show V3 m ρ c main_arg2 (((cfg0.win 1).blk t).view.emb y) = V3 m ρ c main_arg2 y
  congr 1
  funext a; apply Fin.ext
  show win0_1.index t a * S512.size a + 1 * (y a).val = (y a).val
  rw [e a]; omega

theorem b2_eq (c : Dev nD) (t : Fin cfg0.N) : b2 m ρ c t = pb m ρ c := by
  have e := (idx0w t).2.1
  funext y
  show V3 m ρ c main_arg3 (((cfg0.win 2).blk t).view.emb y) = V3 m ρ c main_arg3 y
  congr 1
  funext a; apply Fin.ext
  show win0_2.index t a * S512.size a + 1 * (y a).val = (y a).val
  rw [e a]; omega

theorem b3_eq (c : Dev nD) (t : Fin cfg0.N) : b3 m ρ c t = pW m ρ c := by
  have e := (idx0w t).2.2.1
  funext y
  show V3 m ρ c main_v2 (((cfg0.win 3).blk t).view.emb y) = V3 m ρ c main_v2 y
  congr 1
  funext a; apply Fin.ext
  show win0_3.index t a * S3x2x1024x1024.size a + 1 * (y a).val = (y a).val
  rw [e a]; omega

theorem b4_eq (c : Dev nD) (t : Fin cfg0.N) : b4 m ρ c t = pbb m ρ c := by
  have e := (idx0w t).2.2.2.1
  funext y
  show V3 m ρ c main_arg5 (((cfg0.win 4).blk t).view.emb y) = V3 m ρ c main_arg5 y
  congr 1
  funext a; apply Fin.ext
  show win0_4.index t a * S3x2x1024.size a + 1 * (y a).val = (y a).val
  rw [e a]; omega

theorem b5_eq (c : Dev nD) (t : Fin cfg0.N) : b5 m ρ c t = p5 m ρ c := by
  have e := (idx0w t).2.2.2.2.1
  funext y
  show V3 m ρ c main_arg6 (((cfg0.win 5).blk t).view.emb y) = V3 m ρ c main_arg6 y
  congr 1
  funext a; apply Fin.ext
  show win0_5.index t a * S3x512.size a + 1 * (y a).val = (y a).val
  rw [e a]; omega

theorem b6_eq (c : Dev nD) (t : Fin cfg0.N) : b6 m ρ c t = p6 m ρ c := by
  have e := (idx0w t).2.2.2.2.2.1
  funext y
  show V3 m ρ c main_arg7 (((cfg0.win 6).blk t).view.emb y) = V3 m ρ c main_arg7 y
  congr 1
  funext a; apply Fin.ext
  show win0_6.index t a * S3x512.size a + 1 * (y a).val = (y a).val
  rw [e a]; omega

theorem b7_eq (c : Dev nD) (t : Fin cfg0.N) : b7 m ρ c t = p7 m ρ c := by
  have e := (idx0w t).2.2.2.2.2.2.1
  funext y
  show V3 m ρ c main_arg8 (((cfg0.win 7).blk t).view.emb y) = V3 m ρ c main_arg8 y
  congr 1
  funext a; apply Fin.ext
  show win0_7.index t a * S3x512.size a + 1 * (y a).val = (y a).val
  rw [e a]; omega

theorem b8_eq (c : Dev nD) (t : Fin cfg0.N) : b8 m ρ c t = p8 m ρ c := by
  have e := (idx0w t).2.2.2.2.2.2.2
  funext y
  show V3 m ρ c main_arg9 (((cfg0.win 8).blk t).view.emb y) = V3 m ρ c main_arg9 y
  congr 1
  funext a; apply Fin.ext
  show win0_8.index t a * S3x512.size a + 1 * (y a).val = (y a).val
  rw [e a]; omega

theorem flushed0_eq (c : Dev nD) (t : Fin cfg0.N) :
    (dat0 (V3 m ρ) c).flushed 9 t = ((cfg0.win 9).blk t).view.read (Elt Ideal) (G0 m ρ c) := by
  show (cfg0.win 9).cut (grid0.coords t) ((dat0 (V3 m ρ) c).after 9 t) = _
  rw [after0_9]
  obtain ⟨-, -, e0, e1⟩ := idx0 t
  have ht : t.val < 8 := lt_of_lt_of_eq t.isLt N_0
  funext (j : S512x512.Idx)
  obtain ⟨r, cc, rfl⟩ : ∃ (r : Fin 512) (cc : Fin 512), j = ix2 r cc := ⟨j 0, j 1, eq_ix2 j⟩
  have hr : 512 * t.val + r.val < 4096 := by have := r.isLt; omega
  have hemb : ((cfg0.win 9).blk t).view.emb (ix2 r cc) = (ix2 ⟨512 * t.val + r.val, hr⟩ cc : S4096x512.Idx) := by
    funext a; apply Fin.ext
    match a with
    | ⟨0, _⟩ => show win0_9.index t (0 : Fin 2) * 512 + 1 * r.val = 512 * t.val + r.val; omega
    | ⟨1, _⟩ => show win0_9.index t (1 : Fin 2) * 512 + 1 * cc.val = cc.val; omega
  show out0_9 (b0 m ρ c t) (b1 m ρ c t) (b2 m ρ c t) (b3 m ρ c t) (b4 m ρ c t) (b5 m ρ c t) (b6 m ρ c t) (b7 m ρ c t) (b8 m ρ c t) (ix2 r cc)
    = G0 m ρ c (((cfg0.win 9).blk t).view.emb (ix2 r cc))
  rw [hemb, G0_apply]
  refine (KBody0.out0_9_apply (b0 m ρ c t) (b1 m ρ c t) (b2 m ρ c t) (b3 m ρ c t) (b4 m ρ c t) (b5 m ρ c t) (b6 m ρ c t) (b7 m ρ c t) (b8 m ρ c t) r cc).trans ?_
  rw [b1_eq, b2_eq, b3_eq, b4_eq, b5_eq, b6_eq, b7_eq, b8_eq]
  exact congrArg (fun x => Cert.Spec.tok3 (Cert.Spec.params (pg m ρ c) (pb m ρ c) (pW m ρ c) (pbb m ρ c) (p5 m ρ c) (p6 m ρ c) (p7 m ρ c) (p8 m ρ c)) x cc)
    (funext fun k => b0_apply m ρ c t r k hr)
/-- An index of the result array is in point `t`'s block iff each coordinate is in the block's range on its axis. -/
theorem mem_blk0 (t : Fin cfg0.N) (i : S4096x512.Idx) :
    i ∈ ((cfg0.win 9).blk t).view.set ↔ ∀ a : Fin 2, win0_9.index t a * S512x512.size a ≤ (i a).val ∧ (i a).val < win0_9.index t a * S512x512.size a + S512x512.size a := by
  show i ∈ ((View.whole main_v3).slice (win0_9.rect t)).set ↔ _
  rw [View.set_slice_whole, Rect.mem_set_unit]
  exact Iff.rfl

/-- Row `n` lies in the block of point `n / 512`: the eight row blocks cover the array. -/
theorem cover0 (i : S4096x512.Idx) : ∃ t : Fin cfg0.N, (cfg0.win 9).flush t = true ∧ i ∈ ((cfg0.win 9).blk t).view.set := by
  have hi0 : (i 0).val < 4096 := (i 0).isLt
  have hi1 : (i 1).val < 512 := (i 1).isLt
  let t : Fin cfg0.N := ⟨(i 0).val / 512, by rw [show cfg0.N = 8 from N_0]; omega⟩
  obtain ⟨-, -, e0, e1⟩ := idx0 t
  have tv : t.val = (i 0).val / 512 := rfl
  refine ⟨t, flush0_9 t, ?_⟩
  rw [mem_blk0]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 512 ≤ (i 1).val ∧ (i 1).val < win0_9.index t (1 : Fin 2) * 512 + 512; omega

/-- After region 0 its result array holds `G0`. -/
theorem arr0_eq (c : Dev nD) : (dat0 (V3 m ρ) c).arrAt 9 cfg0.N = G0 m ρ c :=
  (dat0 (V3 m ρ) c).arrAt_eq_of_cover 9 (G0 m ρ c) (fun t _ => flushed0_eq m ρ c t) cover0

end Cert.KernelIdeal.KArr0

end
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.LibGatherRows.lean ====
/-
  The host's gather of whole rows, read at an index, at generic extents.
  `gather_rows_apply` — an [R, D] matrix indexed by an [N, 1] column of 32-bit words (`x[idx]` of a matrix: axis 1
  of the result an offset axis running over the whole row, the operand's axis 0 collapsed and named by the start
  index, the index vector on axis 1 of the start indices, slices of one row): entry `(n, j)` of the result is the
  operand at row `idx (n, 0)`, read signed and clamped into `[0, R - 1]`, and column `j`.
-/
import Idealize.ShloMosaic.PureOps.ShapeOps
import Idealize.ShloMosaic.Lib.ValueIdx

noncomputable section

namespace Cert.LibGatherRows

open Idealize.ShloMosaic Idealize.ShloMosaic.ValueIdx

/-- The dimension numbers of the row layout (operand `[R, D]`, start indices `[N, 1]`, result `[N, D]`). -/
private abbrev rowDims (R D N : ℕ)
    (wf : GatherDims.WF (⟨2, ![R, D]⟩ : Shape) (⟨2, ![N, 1]⟩ : Shape) (⟨2, ![N, D]⟩ : Shape) [1] [0] [] [0] [] 1 ![1, D]) :
    GatherDims (⟨2, ![R, D]⟩ : Shape) (⟨2, ![N, 1]⟩ : Shape) (⟨2, ![N, D]⟩ : Shape) :=
  ⟨[1], [0], [], [], [0], 1, ![1, D], wf⟩

/-- Rows of a matrix indexed by a column of words. Axis 0 of the operand is collapsed and named by the start index
    map (its start is the word `idx (n, 0)` read as a signed integer and clamped into `[0, R - 1]`, the slice being
    one row); axis 1 is the one kept axis, read by the result's offset axis 1 from start 0 (the slice is the whole
    row): entry `(n, j)` of the gather is the operand at that row and column `j`. -/
theorem gather_rows_apply {α : Type} {R D N : ℕ} (hR : 0 < R)
    (d : GatherDims (⟨2, ![R, D]⟩ : Shape) (⟨2, ![N, 1]⟩ : Shape) (⟨2, ![N, D]⟩ : Shape))
    (hod : d.offsetDims = [1]) (hcs : d.collapsedSliceDims = [0]) (hob : d.operandBatchingDims = [])
    (hsb : d.startIndicesBatchingDims = []) (hsim : d.startIndexMap = [0]) (hiv : d.indexVectorDim = 1)
    (hss : d.sliceSizes = ![1, D])
    (x : (⟨2, ![R, D]⟩ : Shape).Idx → α) (idx : IVec (⟨2, ![N, 1]⟩ : Shape) 32) (n : Fin N) (j : Fin D) :
    Host.gather d x idx (ix2 n j)
      = x (ix2 ⟨min (idx (ix2 n (0 : Fin 1))).toInt.toNat (R - 1), by omega⟩ j) := by
  obtain ⟨od, cs, ob, sb, sim, iv, ss, wf⟩ := d
  dsimp only at hod hcs hob hsb hsim hiv hss
  subst hod hcs hob hsb hsim hiv hss
  unfold Host.gather
  congr 1
  funext a
  refine Fin.ext ?_
  match a with
  | ⟨0, _⟩ =>
    show (rowDims R D N wf).start (ix2 n j) idx 0 + (rowDims R D N wf).batchCoord (ix2 n j) 0
      + (rowDims R D N wf).offCoord (ix2 n j) 0 = min (idx (ix2 n (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R D N wf).startIndexMap from List.mem_singleton.mpr rfl)]
    have hsi : ∀ c, (rowDims R D N wf).siIdx (ix2 n j) c = ix2 n (0 : Fin 1) := by
      intro c
      funext b; refine Fin.ext ?_
      match b with
      | ⟨0, _⟩ => rfl
      | ⟨1, _⟩ => exact Nat.lt_one_iff.mp c.isLt
    rw [hsi]
    rfl
  | ⟨1, _⟩ =>
    show (rowDims R D N wf).start (ix2 n j) idx 1 + (rowDims R D N wf).batchCoord (ix2 n j) 1
      + (rowDims R D N wf).offCoord (ix2 n j) 1 = j.val
    have hns : (1 : Fin 2) ∉ (rowDims R D N wf).startIndexMap :=
      fun h => Nat.one_ne_zero (congrArg Fin.val (List.mem_singleton.mp h))
    rw [GatherDims.batchCoord_eq_zero _ _ _ List.not_mem_nil]
    unfold GatherDims.start
    rw [dif_neg hns]
    simp only [Nat.add_zero, Nat.zero_add]
    have hk : (1 : Fin 2) ∈ (rowDims R D N wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.LibGatherRows

end
-- ==== Proof.KIn0.lean ====
/-
  The arrays the first kernel finds, read back to the launch contents through the host operations before it.

  The token ids `[4, 1024]` are flattened to `[4096]` (token `(b, s)` at position `1024 b + s`), stood up as a column
  `[4096, 1]`, and the embedding table's rows gathered by that column: row `1024 b + s` of the gathered rows is the table
  row the id of token `(b, s)` names, the id read as a signed integer and clamped into the table.  The block weights are
  converted to a narrower float format, which over the extended reals changes nothing.  No host operation writes any
  other weight.
-/
import proofs.«407089_j83803401879983_3_alg».proof.Proof.Gen.KernelIdeal.Frame
import proofs.«407089_j83803401879983_3_alg».proof.Proof.SpecParams
import proofs.«407089_j83803401879983_3_alg».proof.Proof.LibCarry
import proofs.«407089_j83803401879983_3_alg».proof.Proof.LibGatherRows
import Idealize.ShloMosaic.Lib.Pipeline.Value

noncomputable section

namespace Cert.KernelIdeal.KIn0

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The embedding table and the token ids at launch. -/
abbrev tbl (c : Dev nD) : Vec Ideal S32000x512 .f32 := m ((c : Thread nD τ).loc main_arg1)
abbrev ids (c : Dev nD) : IVec S4x1024 32 := m ((c : Thread nD τ).loc main_arg0)

/-! ## The host operations before the first kernel, buffer by buffer -/

/-- The ids flattened: the first stretch's one reshape. -/
theorem W1_v0 (c : Dev nD) :
    (W1 m ρ c (Proc.devRef .tc main_v0) : IVec S4096 32) = shapeCast S4096 (ids m c) shapeCasts_S4x1024_S4096 := by
  show StableHlo.after hostOps0 _ (Proc.devRef .tc main_v0) = _
  after_results
  rfl

/-- The first stretch leaves the table as launched. -/
theorem W1_arg1 (c : Dev nD) : W1 m ρ c (Proc.devRef .tc main_arg1) = m ((c : Thread nD τ).loc main_arg1) := by
  show StableHlo.after hostOps0 _ (Proc.devRef .tc main_arg1) = _
  keep_host hostOps0

/-- The second stretch: the flat ids stood up as a column, and the table's rows gathered by it. -/
theorem W2_v1 (c : Dev nD) :
    (W2 m ρ c (Proc.devRef .tc main_v1) : Vec Ideal S4096x512 .f32)
      = Host.gather gather_S32000x512_S4096x1_S4096x512_1_0_n_n_0_1_1512 (W1 m ρ c (Proc.devRef .tc main_arg1) : Vec Ideal S32000x512 .f32)
          (broadcastInDim S4096x1 ![0] bcast_S4096_S4096x1_0 (W1 m ρ c (Proc.devRef .tc main_v0) : IVec S4096 32)) := by
  show StableHlo.after hostOps0_1 _ (Proc.devRef .tc main_v1) = _
  after_results
  rfl

/-- The third stretch does not write the gathered rows. -/
theorem W3_v1 (c : Dev nD) : W3 m ρ c (Proc.devRef .tc main_v1) = W2 m ρ c (Proc.devRef .tc main_v1) := by
  show StableHlo.after hostOps0_2 _ (Proc.devRef .tc main_v1) = _
  keep_host hostOps0_2

/-- Row `1024 b + s` of the gathered rows is the table row the id of token `(b, s)` reads: the flat position
    `1024 b + s` of the reshaped ids holds id `(b, s)`, the column holds it at `(1024 b + s, 0)`, and the gather reads the
    table at that id, signed and clamped into the table's rows. -/
theorem xs_apply (c : Dev nD) (b : Fin 4) (s : Fin 1024) (k : Fin 512) (hn : b.val * 1024 + s.val < 4096) :
    (V3 m ρ c main_v1 : Vec Ideal S4096x512 .f32) (ix2 ⟨b.val * 1024 + s.val, hn⟩ k)
      = Cert.Spec.embRow (tbl m c) (ids m c (ix2 b s)) k := by
  show (W3 m ρ c (Proc.devRef .tc main_v1) : Vec Ideal S4096x512 .f32) _ = _
  rw [W3_v1, W2_v1, W1_arg1, W1_v0]
  refine (Cert.LibGatherRows.gather_rows_apply (by decide) gather_S32000x512_S4096x1_S4096x512_1_0_n_n_0_1_1512 rfl rfl rfl rfl rfl rfl rfl
    (tbl m c) (broadcastInDim S4096x1 ![0] bcast_S4096_S4096x1_0 (shapeCast S4096 (ids m c) shapeCasts_S4x1024_S4096))
    ⟨b.val * 1024 + s.val, hn⟩ k).trans ?_
  have hidx : broadcastInDim S4096x1 ![0] bcast_S4096_S4096x1_0 (shapeCast S4096 (ids m c) shapeCasts_S4x1024_S4096)
      (ix2 (⟨b.val * 1024 + s.val, hn⟩ : Fin 4096) (0 : Fin 1)) = ids m c (ix2 b s) := by
    refine (broadcastInDim_apply _ _ _ (ix2 (⟨b.val * 1024 + s.val, hn⟩ : Fin 4096) (0 : Fin 1)) (ix1 (⟨b.val * 1024 + s.val, hn⟩ : Fin 4096)) ?_).trans ?_
    · intro a
      match a with
      | ⟨0, _⟩ => rfl
    · exact shapeCast_apply _ _ _ _ (by rw [Shape.rowMajor_val_two, Shape.rowMajor_val_one]; rfl)
  have key : ∀ w : BitVec 32, w = ids m c (ix2 b s) → ∀ h,
      tbl m c (ix2 (⟨min w.toInt.toNat (32000 - 1), h⟩ : Fin 32000) k) = Cert.Spec.embRow (tbl m c) (ids m c (ix2 b s)) k := by
    rintro w rfl h; rfl
  exact key _ hidx _

/-! ## The weights as the first kernel finds them: no stretch before it writes them -/

theorem V3_arg2 (c : Dev nD) : V3 m ρ c main_arg2 = m ((c : Thread nD τ).loc main_arg2) :=
  calc W3 m ρ c (Proc.devRef .tc main_arg2)
    _ = W2 m ρ c (Proc.devRef .tc main_arg2) := by keep_host hostOps0_2
    _ = W1 m ρ c (Proc.devRef .tc main_arg2) := by keep_host hostOps0_1
    _ = W0 m ρ c (Proc.devRef .tc main_arg2) := by keep_host hostOps0
    _ = m ((c : Thread nD τ).loc main_arg2) := rfl

theorem V3_arg3 (c : Dev nD) : V3 m ρ c main_arg3 = m ((c : Thread nD τ).loc main_arg3) :=
  calc W3 m ρ c (Proc.devRef .tc main_arg3)
    _ = W2 m ρ c (Proc.devRef .tc main_arg3) := by keep_host hostOps0_2
    _ = W1 m ρ c (Proc.devRef .tc main_arg3) := by keep_host hostOps0_1
    _ = W0 m ρ c (Proc.devRef .tc main_arg3) := by keep_host hostOps0
    _ = m ((c : Thread nD τ).loc main_arg3) := rfl

theorem V3_arg5 (c : Dev nD) : V3 m ρ c main_arg5 = m ((c : Thread nD τ).loc main_arg5) :=
  calc W3 m ρ c (Proc.devRef .tc main_arg5)
    _ = W2 m ρ c (Proc.devRef .tc main_arg5) := by keep_host hostOps0_2
    _ = W1 m ρ c (Proc.devRef .tc main_arg5) := by keep_host hostOps0_1
    _ = W0 m ρ c (Proc.devRef .tc main_arg5) := by keep_host hostOps0
    _ = m ((c : Thread nD τ).loc main_arg5) := rfl

theorem V3_arg6 (c : Dev nD) : V3 m ρ c main_arg6 = m ((c : Thread nD τ).loc main_arg6) :=
  calc W3 m ρ c (Proc.devRef .tc main_arg6)
    _ = W2 m ρ c (Proc.devRef .tc main_arg6) := by keep_host hostOps0_2
    _ = W1 m ρ c (Proc.devRef .tc main_arg6) := by keep_host hostOps0_1
    _ = W0 m ρ c (Proc.devRef .tc main_arg6) := by keep_host hostOps0
    _ = m ((c : Thread nD τ).loc main_arg6) := rfl

theorem V3_arg7 (c : Dev nD) : V3 m ρ c main_arg7 = m ((c : Thread nD τ).loc main_arg7) :=
  calc W3 m ρ c (Proc.devRef .tc main_arg7)
    _ = W2 m ρ c (Proc.devRef .tc main_arg7) := by keep_host hostOps0_2
    _ = W1 m ρ c (Proc.devRef .tc main_arg7) := by keep_host hostOps0_1
    _ = W0 m ρ c (Proc.devRef .tc main_arg7) := by keep_host hostOps0
    _ = m ((c : Thread nD τ).loc main_arg7) := rfl

theorem V3_arg8 (c : Dev nD) : V3 m ρ c main_arg8 = m ((c : Thread nD τ).loc main_arg8) :=
  calc W3 m ρ c (Proc.devRef .tc main_arg8)
    _ = W2 m ρ c (Proc.devRef .tc main_arg8) := by keep_host hostOps0_2
    _ = W1 m ρ c (Proc.devRef .tc main_arg8) := by keep_host hostOps0_1
    _ = W0 m ρ c (Proc.devRef .tc main_arg8) := by keep_host hostOps0
    _ = m ((c : Thread nD τ).loc main_arg8) := rfl

theorem V3_arg9 (c : Dev nD) : V3 m ρ c main_arg9 = m ((c : Thread nD τ).loc main_arg9) :=
  calc W3 m ρ c (Proc.devRef .tc main_arg9)
    _ = W2 m ρ c (Proc.devRef .tc main_arg9) := by keep_host hostOps0_2
    _ = W1 m ρ c (Proc.devRef .tc main_arg9) := by keep_host hostOps0_1
    _ = W0 m ρ c (Proc.devRef .tc main_arg9) := by keep_host hostOps0
    _ = m ((c : Thread nD τ).loc main_arg9) := rfl

/-- The block weights converted to the narrower float format: over the extended reals the conversion is the identity,
    so the first kernel finds the weights themselves. -/
theorem V3_v2 (c : Dev nD) :
    (V3 m ρ c main_v2 : Vec Ideal S3x2x1024x1024 .bf16) = m ((c : Thread nD τ).loc main_arg4) := by
  show StableHlo.after hostOps0_2 _ (Proc.devRef .tc main_v2) = _
  after_results
  rfl

end Cert.KernelIdeal.KIn0

end
-- ==== Proof.KArr1.lean ====
/-
  The second kernel's result array as one function of the arrays it finds.

  The kernel runs over 25 by 8 points; point `t` has coordinates `(t / 8, t % 8)`.  Its body reads the whole array of
  token rows, rows `1280 (t / 8) …` of the vocabulary rows and the same columns of the bias row, and writes the block of
  the result at rows `512 (t % 8) …`, columns `1280 (t / 8) …`: entry `(r, j)` of what it writes is token row
  `512 (t % 8) + r` against the block's vocabulary row `j`, plus the block's bias entry `j`.  That is entry
  `(512 (t % 8) + r, 1280 (t / 8) + j)` of ONE function `G1` of the whole arrays — entry `(n, v)` of `G1` is token row `n`
  against vocabulary row `v` plus bias entry `v` —, the 200 blocks cover the array (entry `(n, v)` lies in the block of
  point `8 (v / 1280) + n / 512`), and so the result array ends holding `G1`.
-/
import proofs.«407089_j83803401879983_3_alg».proof.Proof.KBody1
import Idealize.ShloMosaic.Lib.Pipeline.Value

noncomputable section

namespace Cert.KernelIdeal.KArr1

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-- The token rows, the vocabulary rows and the bias row as region 1 finds them. -/
abbrev ya (c : Dev nD) : Vec Ideal S4096x512 .bf16 := V5 m ρ c main_v3
abbrev yw (c : Dev nD) : Vec Ideal S32000x512 .f32 := V5 m ρ c main_arg10
abbrev yb (c : Dev nD) : Vec Ideal S1x32000 .f32 := V5 m ρ c main_v4

/-- The input windows' blocks at a point, over their literal shapes. -/
abbrev c0 (c : Dev nD) (t : Fin cfg1.N) : Vec Ideal S4096x512 .bf16 := iblk1 (V5 m ρ) c 0 t
abbrev c1 (c : Dev nD) (t : Fin cfg1.N) : Vec Ideal S1280x512 .f32 := iblk1 (V5 m ρ) c 1 t
abbrev c2 (c : Dev nD) (t : Fin cfg1.N) : Vec Ideal S1x1280 .f32 := iblk1 (V5 m ρ) c 2 t

/-- Region 1's result array as one function of the arrays it finds: entry `(n, v)` is token row `n` against vocabulary
    row `v`, plus entry `v` of the bias row. -/
def G1 (c : Dev nD) : Vec Ideal S4096x32000 .f32 := fun i =>
  Cert.Spec.logit (fun k => ya m ρ c (ix2 (i 0) k)) (fun k => yw m ρ c (ix2 (i 1) k)) (yb m ρ c (ix2 (0 : Fin 1) (i 1)))

/-- `G1` at row `n`, column `v`. -/
theorem G1_apply (c : Dev nD) (n : Fin 4096) (v : Fin 32000) :
    G1 m ρ c (ix2 n v)
      = Cert.Spec.logit (fun k => ya m ρ c (ix2 n k)) (fun k => yw m ρ c (ix2 v k)) (yb m ρ c (ix2 (0 : Fin 1) v)) := rfl

/-- The grid's point `t` has coordinates `(t / 8, t % 8)`, and the block indices over the grid: the token rows' window
    sits at block 0 of its whole array; the vocabulary rows' at row block `t / 8`; the bias row's at column block
    `t / 8`; the result's at row block `t % 8`, column block `t / 8`. -/
theorem idx1 : ∀ t : Fin cfg1.N, (grid1.coords t 0).val = t.val / 8 ∧ (grid1.coords t 1).val = t.val % 8
    ∧ win1_0.index t (0 : Fin 2) = 0 ∧ win1_0.index t (1 : Fin 2) = 0
    ∧ win1_1.index t (0 : Fin 2) = t.val / 8 ∧ win1_1.index t (1 : Fin 2) = 0
    ∧ win1_2.index t (0 : Fin 2) = 0 ∧ win1_2.index t (1 : Fin 2) = t.val / 8
    ∧ win1_3.index t (0 : Fin 2) = t.val % 8 ∧ win1_3.index t (1 : Fin 2) = t.val / 8 :=
  (by decide +kernel : ∀ t : Fin grid1.N, _)

/-- The token rows' block is the whole array. -/
theorem c0_eq (c : Dev nD) (t : Fin cfg1.N) : c0 m ρ c t = ya m ρ c := by
  obtain ⟨-, -, e0, e1, -⟩ := idx1 t
  funext y
  show V5 m ρ c main_v3 (((cfg1.win 0).blk t).view.emb y) = V5 m ρ c main_v3 y
  congr 1
  funext a; apply Fin.ext
  match a with
  | ⟨0, _⟩ => show win1_0.index t (0 : Fin 2) * 4096 + 1 * (y 0).val = (y 0).val; omega
  | ⟨1, _⟩ => show win1_0.index t (1 : Fin 2) * 512 + 1 * (y 1).val = (y 1).val; omega

/-- Row `j` of the vocabulary rows' block at point `t` is vocabulary row `1280 (t / 8) + j`. -/
theorem c1_apply (c : Dev nD) (t : Fin cfg1.N) (j : Fin 1280) (k : Fin 512) (hv : 1280 * (t.val / 8) + j.val < 32000) :
    c1 m ρ c t (ix2 j k) = yw m ρ c (ix2 ⟨1280 * (t.val / 8) + j.val, hv⟩ k) := by
  obtain ⟨-, -, -, -, e0, e1, -⟩ := idx1 t
  show V5 m ρ c main_arg10 (((cfg1.win 1).blk t).view.emb (ix2 j k)) = V5 m ρ c main_arg10 (ix2 ⟨1280 * (t.val / 8) + j.val, hv⟩ k)
  congr 1
  funext a; apply Fin.ext
  match a with
  | ⟨0, _⟩ => show win1_1.index t (0 : Fin 2) * 1280 + 1 * j.val = 1280 * (t.val / 8) + j.val; omega
  | ⟨1, _⟩ => show win1_1.index t (1 : Fin 2) * 512 + 1 * k.val = k.val; omega

/-- Entry `j` of the bias row's block at point `t` is entry `1280 (t / 8) + j` of the bias row. -/
theorem c2_apply (c : Dev nD) (t : Fin cfg1.N) (j : Fin 1280) (hv : 1280 * (t.val / 8) + j.val < 32000) :
    c2 m ρ c t (ix2 (0 : Fin 1) j) = yb m ρ c (ix2 (0 : Fin 1) ⟨1280 * (t.val / 8) + j.val, hv⟩) := by
  obtain ⟨-, -, -, -, -, -, e0, e1, -⟩ := idx1 t
  show V5 m ρ c main_v4 (((cfg1.win 2).blk t).view.emb (ix2 (0 : Fin 1) j)) = V5 m ρ c main_v4 (ix2 (0 : Fin 1) ⟨1280 * (t.val / 8) + j.val, hv⟩)
  congr 1
  funext a; apply Fin.ext
  match a with
  | ⟨0, _⟩ => show win1_2.index t (0 : Fin 2) * 1 + 1 * 0 = 0; omega
  | ⟨1, _⟩ => show win1_2.index t (1 : Fin 2) * 1280 + 1 * j.val = 1280 * (t.val / 8) + j.val; omega

/-- What point `t` writes back is block `t` of `G1`: the body's block at `(r, j)` is row `512 (t % 8) + r` of the resident
    token rows against row `j` of the point's block of vocabulary rows, plus entry `j` of the point's block of the bias
    row; those are vocabulary row and bias entry `1280 (t / 8) + j`. -/
theorem flushed1_eq (c : Dev nD) (t : Fin cfg1.N) :
    (dat1 (V5 m ρ) c).flushed 3 t = ((cfg1.win 3).blk t).view.read (Elt Ideal) (G1 m ρ c) := by
  show (cfg1.win 3).cut (grid1.coords t) ((dat1 (V5 m ρ) c).after 3 t) = _
  rw [after1_3]
  obtain ⟨g0, g1, -, -, -, -, -, -, e0, e1⟩ := idx1 t
  have ht : t.val < 200 := lt_of_lt_of_eq t.isLt N_1
  funext (j : S512x1280.Idx)
  obtain ⟨r, jj, rfl⟩ : ∃ (r : Fin 512) (jj : Fin 1280), j = ix2 r jj := ⟨j 0, j 1, eq_ix2 j⟩
  have hr : 512 * (t.val % 8) + r.val < 4096 := by have := r.isLt; omega
  have hv : 1280 * (t.val / 8) + jj.val < 32000 := by have := jj.isLt; omega
  have hr' : 512 * (grid1.coords t 1).val + r.val < 4096 := by rw [g1]; exact hr
  have hemb : ((cfg1.win 3).blk t).view.emb (ix2 r jj)
      = (ix2 ⟨512 * (t.val % 8) + r.val, hr⟩ ⟨1280 * (t.val / 8) + jj.val, hv⟩ : S4096x32000.Idx) := by
    funext a; apply Fin.ext
    match a with
    | ⟨0, _⟩ => show win1_3.index t (0 : Fin 2) * 512 + 1 * r.val = 512 * (t.val % 8) + r.val; omega
    | ⟨1, _⟩ => show win1_3.index t (1 : Fin 2) * 1280 + 1 * jj.val = 1280 * (t.val / 8) + jj.val; omega
  show out1_A_3 c (grid1.coords t) (ms1_0 t) (hs1_0 t) (ms1_1 t) (hs1_1 t) (ms1_2 t) (hs1_2 t) (ms1_3 t) (hs1_3 t)
      (c0 m ρ c t) (c1 m ρ c t) (c2 m ρ c t) (ix2 r jj)
    = G1 m ρ c (((cfg1.win 3).blk t).view.emb (ix2 r jj))
  rw [hemb, G1_apply]
  refine (KBody1.out1_A_3_apply c (grid1.coords t) (ms1_0 t) (hs1_0 t) (ms1_1 t) (hs1_1 t) (ms1_2 t) (hs1_2 t) (ms1_3 t) (hs1_3 t)
    (c0 m ρ c t) (c1 m ρ c t) (c2 m ρ c t) r jj hr').trans ?_
  rw [c0_eq, c2_apply m ρ c t jj hv]
  have hrow : (⟨512 * (grid1.coords t 1).val + r.val, hr'⟩ : Fin 4096) = ⟨512 * (t.val % 8) + r.val, hr⟩ :=
    Fin.ext (by show 512 * (grid1.coords t 1).val + r.val = 512 * (t.val % 8) + r.val; omega)
  rw [hrow]
  exact congrArg (fun x => Cert.Spec.logit (fun k => ya m ρ c (ix2 ⟨512 * (t.val % 8) + r.val, hr⟩ k)) x
      (yb m ρ c (ix2 (0 : Fin 1) ⟨1280 * (t.val / 8) + jj.val, hv⟩)))
    (funext fun k => c1_apply m ρ c t jj k hv)

/-- An index of the result array is in point `t`'s block iff each coordinate is in the block's range on its axis. -/
theorem mem_blk1 (t : Fin cfg1.N) (i : S4096x32000.Idx) :
    i ∈ ((cfg1.win 3).blk t).view.set ↔ ∀ a : Fin 2, win1_3.index t a * S512x1280.size a ≤ (i a).val ∧ (i a).val < win1_3.index t a * S512x1280.size a + S512x1280.size a := by
  show i ∈ ((View.whole main_v5).slice (win1_3.rect t)).set ↔ _
  rw [View.set_slice_whole, Rect.mem_set_unit]
  exact Iff.rfl

/-- Entry `(n, v)` lies in the block of the point `8 (v / 1280) + n / 512`: the 25 by 8 blocks cover the array. -/
theorem cover1 (i : S4096x32000.Idx) : ∃ t : Fin cfg1.N, (cfg1.win 3).flush t = true ∧ i ∈ ((cfg1.win 3).blk t).view.set := by
  have hi0 : (i 0).val < 4096 := (i 0).isLt
  have hi1 : (i 1).val < 32000 := (i 1).isLt
  let t : Fin cfg1.N := ⟨8 * ((i 1).val / 1280) + (i 0).val / 512, by rw [show cfg1.N = 200 from N_1]; omega⟩
  obtain ⟨-, -, -, -, -, -, -, -, e0, e1⟩ := idx1 t
  have tv : t.val = 8 * ((i 1).val / 1280) + (i 0).val / 512 := rfl
  refine ⟨t, flush1_3 t, ?_⟩
  rw [mem_blk1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 1280 ≤ (i 1).val ∧ (i 1).val < win1_3.index t (1 : Fin 2) * 1280 + 1280; omega

/-- After region 1 its result array holds `G1`. -/
theorem arr1_eq (c : Dev nD) : (dat1 (V5 m ρ) c).arrAt 3 cfg1.N = G1 m ρ c :=
  (dat1 (V5 m ρ) c).arrAt_eq_of_cover 3 (G1 m ρ c) (fun t _ => flushed1_eq m ρ c t) cover1

end Cert.KernelIdeal.KArr1

end
-- ==== Proof.KIn1.lean ====
/-
  The arrays the second kernel finds, and the result buffer after the last host operation.

  Between the two kernels one host operation lays the bias vector out as a row `[1, 32000]`; the token rows are what
  the first kernel left and the vocabulary rows are as launched.  After the second kernel one host operation splits
  the rows of its result `[4096, 32000]` in two axes `[4, 1024, 32000]`.
-/
import proofs.«407089_j83803401879983_3_alg».proof.Proof.Gen.KernelIdeal.Frame
import proofs.«407089_j83803401879983_3_alg».proof.Proof.LibCarry
import Idealize.ShloMosaic.Lib.ValueLayout

noncomputable section

namespace Cert.KernelIdeal.KIn1

open Idealize.ShloMosaic Idealize.ShloMosaic.TcCoe Idealize.ShloMosaic.ValueIdx Idealize.SL.Sem Cert.KernelIdeal Cert.KernelIdeal.Gen
open Idealize.ShloMosaic.Pipeline (Dat)

variable (m : (ℓ : Loc nD τ sig) → Buf (Elt Ideal) ℓ) (ρ : Dev nD → PrngReg)

/-! ## The arrays the second kernel finds: the first kernel's result, the vocabulary rows, the bias as a row -/

/-- The token rows the second kernel finds are what the first kernel left: the one host operation between the two
    kernels does not write them. -/
theorem V5_v3 (c : Dev nD) : V5 m ρ c main_v3 = (dat0 (V3 m ρ) c).arrAt 9 cfg0.N :=
  calc W5 m ρ c (Proc.devRef .tc main_v3)
    _ = W4 m ρ c (Proc.devRef .tc main_v3) := by keep_host hostOps1
    _ = (dat0 (V3 m ρ) c).arrAt 9 cfg0.N := W4_arr m ρ c 9

/-- The vocabulary rows are as launched: no host operation and no window of the first kernel writes them. -/
theorem V5_arg10 (c : Dev nD) : V5 m ρ c main_arg10 = m ((c : Thread nD τ).loc main_arg10) :=
  calc W5 m ρ c (Proc.devRef .tc main_arg10)
    _ = W4 m ρ c (Proc.devRef .tc main_arg10) := by keep_host hostOps1
    _ = W3 m ρ c (Proc.devRef .tc main_arg10) := W4_of_ne m ρ c main_arg10 (by decide)
    _ = W2 m ρ c (Proc.devRef .tc main_arg10) := by keep_host hostOps0_2
    _ = W1 m ρ c (Proc.devRef .tc main_arg10) := by keep_host hostOps0_1
    _ = W0 m ρ c (Proc.devRef .tc main_arg10) := by keep_host hostOps0
    _ = m ((c : Thread nD τ).loc main_arg10) := rfl

/-- The bias after the first kernel is as launched. -/
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by keep_host hostOps0_2
    _ = W1 m ρ c (Proc.devRef .tc main_arg11) := by keep_host hostOps0_1
    _ = W0 m ρ c (Proc.devRef .tc main_arg11) := by keep_host hostOps0
    _ = m ((c : Thread nD τ).loc main_arg11) := rfl

/-- Entry `v` of the bias row the second kernel finds is entry `v` of the bias: the reshape lays the vector out as one
    row. -/
theorem V5_v4_apply (c : Dev nD) (v : Fin 32000) :
    (V5 m ρ c main_v4 : Vec Ideal S1x32000 .f32) (ix2 (0 : Fin 1) v)
      = (m ((c : Thread nD τ).loc main_arg11) : Vec Ideal S32000 .f32) (ix1 v) := by
  have e : (V5 m ρ c main_v4 : Vec Ideal S1x32000 .f32)
      = shapeCast S1x32000 (m ((c : Thread nD τ).loc main_arg11) : Vec Ideal S32000 .f32) shapeCasts_S32000_S1x32000 := by
    show StableHlo.after hostOps1 _ (Proc.devRef .tc main_v4) = _
    after_results
    rw [W4_arg11]
    rfl
  rw [e]
  exact shapeCast_a_1a_apply _ _ (0 : Fin 1) v

/-- The result buffer after the last host operation is the second kernel's result array with its rows split in two
    axes. -/
theorem W7_v6 (c : Dev nD) :
    (W7 m ρ c (Proc.devRef .tc main_v6) : Vec Ideal S4x1024x32000 .f32)
      = shapeCast S4x1024x32000 ((dat1 (V5 m ρ) c).arrAt 3 cfg1.N : Vec Ideal S4096x32000 .f32) shapeCasts_S4096x32000_S4x1024x32000 := by
  have h5 : W6 m ρ c (Proc.devRef .tc main_v5) = (dat1 (V5 m ρ) c).arrAt 3 cfg1.N := W6_arr m ρ c 3
  show StableHlo.after hostOps2 _ (Proc.devRef .tc main_v6) = _
  after_results
  rw [h5]
  rfl

end Cert.KernelIdeal.KIn1

end
-- ==== Proof.LibRank3Layout.lean ====
/-
  Rank-3 layout operations read at an index, at literal-free extents: the forms a kernel meets when it keeps a reduced
  axis as a unit axis (`keepdims`), broadcasts a per-row quantity over a middle axis, or merges the two leading axes
  of a rank-3 value into one before a matrix product and splits them again after it.

  * `shapeCast_ab_a1b_apply`   an [a, b] array cast to [a, 1, b], at (r, u, d), is the operand at (r, d);
  * `broadcastTo_a1b_acb_apply` an [a, 1, b] array broadcast to [a, c, b], at (r, e, d), is the operand at (r, 0, d);
  * `shapeCast_ab_ab1_apply`   an [a, b] array cast to [a, b, 1], at (r, e, u), is the operand at (r, e);
  * `broadcastTo_ab1_abc_apply` an [a, b, 1] array broadcast to [a, b, c], at (r, e, d), is the operand at (r, e, 0);
  * `shapeCast_abc_mc_apply`   an [a, b, c] array cast to [m, c] with rows merged, at (r * b + e, d), is the operand
                               at (r, e, d);
  * `shapeCast_mc_abc_apply`   an [m, c] array cast to [a, b, c], at (r, e, d), is the operand at (r * b + e, d).
  Each is the library's `shapeCast_apply` (equal row-major positions) or `broadcastTo_apply` (trailing coordinates,
  zero on the operand's unit axes) with both indices written by coordinates.
-/
import Idealize.ShloMosaic.Lib.Pipeline.Value
import Idealize.ShloMosaic.Lib.ValueIdx

namespace Idealize.ShloMosaic.ValueIdx

open Idealize.ShloMosaic

variable {α : Type}

/-- An `[a, b]` array cast to `[a, 1, b]` reads, at `(r, u, d)`, the operand at `(r, d)`, whatever the unit
    coordinate `u`. -/
theorem shapeCast_ab_a1b_apply {a b : ℕ} (x : (⟨2, ![a, b]⟩ : Shape).Idx → α)
    (h : (⟨2, ![a, b]⟩ : Shape).ShapeCasts ⟨3, ![a, 1, b]⟩) (r : Fin a) (u : Fin 1) (d : Fin b) :
    shapeCast ⟨3, ![a, 1, b]⟩ x h (ix3 r u d) = x (ix2 r d) :=
  shapeCast_apply x h _ _ (by
    have hu : u.val = 0 := by omega
    rw [Shape.rowMajor_val_three, Shape.rowMajor_val_two]
    show r.val * b + d.val = (r.val * 1 + u.val) * b + d.val
    rw [hu, Nat.mul_one, Nat.add_zero])

/-- An `[a, 1, b]` array broadcast to `[a, c, b]` reads, at `(r, e, d)`, the operand at `(r, 0, d)`: one row of
    `b` per leading coordinate, repeated over the middle axis. -/
theorem broadcastTo_a1b_acb_apply {a b c : ℕ} (x : (⟨3, ![a, 1, b]⟩ : Shape).Idx → α)
    (h : (⟨3, ![a, 1, b]⟩ : Shape).Broadcasts ⟨3, ![a, c, b]⟩) (r : Fin a) (e : Fin c) (d : Fin b) :
    broadcastTo ⟨3, ![a, c, b]⟩ x h (ix3 r e d) = x (ix3 r (0 : Fin 1) d) := by
  refine broadcastTo_apply x h (ix3 r e d) (ix3 r (0 : Fin 1) d) fun ax => ?_
  match ax with
  | ⟨0, _⟩ =>
    show r.val = if a = 1 then 0 else r.val
    split
    · have := r.isLt; omega
    · rfl
  | ⟨1, _⟩ => rfl
  | ⟨2, _⟩ =>
    show d.val = if b = 1 then 0 else d.val
    split
    · have := d.isLt; omega
    · rfl

/-- An `[a, b]` array cast to `[a, b, 1]` reads, at `(r, e, u)`, the operand at `(r, e)`: a reduction over the last
    axis that keeps it as a unit axis. -/
theorem shapeCast_ab_ab1_apply {a b : ℕ} (x : (⟨2, ![a, b]⟩ : Shape).Idx → α)
    (h : (⟨2, ![a, b]⟩ : Shape).ShapeCasts ⟨3, ![a, b, 1]⟩) (r : Fin a) (e : Fin b) (u : Fin 1) :
    shapeCast ⟨3, ![a, b, 1]⟩ x h (ix3 r e u) = x (ix2 r e) :=
  shapeCast_apply x h _ _ (by
    have hu : u.val = 0 := by omega
    rw [Shape.rowMajor_val_three, Shape.rowMajor_val_two]
    show r.val * b + e.val = (r.val * b + e.val) * 1 + u.val
    rw [hu, Nat.mul_one, Nat.add_zero])

/-- An `[a, b, 1]` array broadcast to `[a, b, c]` reads, at `(r, e, d)`, the operand at `(r, e, 0)`: a per-row
    quantity spread along the last axis. -/
theorem broadcastTo_ab1_abc_apply {a b c : ℕ} (x : (⟨3, ![a, b, 1]⟩ : Shape).Idx → α)
    (h : (⟨3, ![a, b, 1]⟩ : Shape).Broadcasts ⟨3, ![a, b, c]⟩) (r : Fin a) (e : Fin b) (d : Fin c) :
    broadcastTo ⟨3, ![a, b, c]⟩ x h (ix3 r e d) = x (ix3 r e (0 : Fin 1)) := by
  refine broadcastTo_apply x h (ix3 r e d) (ix3 r e (0 : Fin 1)) fun ax => ?_
  match ax with
  | ⟨0, _⟩ =>
    show r.val = if a = 1 then 0 else r.val
    split
    · have := r.isLt; omega
    · rfl
  | ⟨1, _⟩ =>
    show e.val = if b = 1 then 0 else e.val
    split
    · have := e.isLt; omega
    · rfl
  | ⟨2, _⟩ => rfl

/-- An `[a, b, c]` array cast to `[m, c]` (its two leading axes merged, row-major) reads, at row `r * b + e` and
    column `d`, the operand at `(r, e, d)`. -/
theorem shapeCast_abc_mc_apply {a b c m : ℕ} (x : (⟨3, ![a, b, c]⟩ : Shape).Idx → α)
    (h : (⟨3, ![a, b, c]⟩ : Shape).ShapeCasts ⟨2, ![m, c]⟩) (r : Fin a) (e : Fin b) (d : Fin c)
    (hq : r.val * b + e.val < m) :
    shapeCast ⟨2, ![m, c]⟩ x h (ix2 (⟨r.val * b + e.val, hq⟩ : Fin m) d) = x (ix3 r e d) :=
  shapeCast_apply x h _ _ (by
    rw [Shape.rowMajor_val_three, Shape.rowMajor_val_two]
    rfl)

/-- An `[m, c]` array cast to `[a, b, c]` (its rows split in two axes, row-major) reads, at `(r, e, d)`, the operand
    at row `r * b + e` and column `d`. -/
theorem shapeCast_mc_abc_apply {a b c m : ℕ} (x : (⟨2, ![m, c]⟩ : Shape).Idx → α)
    (h : (⟨2, ![m, c]⟩ : Shape).ShapeCasts ⟨3, ![a, b, c]⟩) (r : Fin a) (e : Fin b) (d : Fin c)
    (hq : r.val * b + e.val < m) :
    shapeCast ⟨3, ![a, b, c]⟩ x h (ix3 r e d) = x (ix2 (⟨r.val * b + e.val, hq⟩ : Fin m) d) :=
  shapeCast_apply x h _ _ (by
    rw [Shape.rowMajor_val_three, Shape.rowMajor_val_two]
    rfl)

end Idealize.ShloMosaic.ValueIdx
-- ==== Proof.KArrays.lean ====
/-
  From the two kernels' arrays to the program's result.

  The result buffer is the second kernel's result array `[4096, 32000]` with its rows split in two axes
  `[4, 1024, 32000]`: entry `(b, s, v)` is entry `(1024 b + s, v)` of that array, which is token row `1024 b + s` of the
  first kernel's result against vocabulary row `v`, plus bias entry `v`.  Token row `1024 b + s` of the first kernel's
  result is the network's last token row of row `1024 b + s` of the gathered rows, and that row is the embedding table's
  row for the id of token `(b, s)`.  With every weight array read back to its launch contents this is the
  specification's logit.
-/
import proofs.«407089_j83803401879983_3_alg».proof.Proof.KBody0
import proofs.«407089_j83803401879983_3_alg».proof.Proof.KBody1
import proofs.«407089_j83803401879983_3_alg».proof.Proof.KArr0
import proofs.«407089_j83803401879983_3_alg».proof.Proof.KIn0
import proofs.«407089_j83803401879983_3_alg».proof.Proof.KArr1
import proofs.«407089_j83803401879983_3_alg».proof.Proof.KIn1
import proofs.«407089_j83803401879983_3_alg».proof.Proof.LibRank3Layout

noncomputable section

namespace Cert.KernelIdeal.KArrays

open Idealize.ShloMosaic Idealize.ShloMosaic.ValueIdx Idealize.SL.Sem Cert.KernelIdeal Cert.KernelIdeal.Gen

/-- The result buffer after the last host operation, at `(b, s, v)`, is the specification's logit. -/
theorem result_apply (m : (ℓ : Loc nD τ sig) → Buf (Elt Ideal) ℓ) (ρ : Dev nD → PrngReg) (c : Dev nD)
    (b : Fin 4) (s : Fin 1024) (v : Fin 32000) :
    (W7 (F := Ideal) m ρ c (Proc.devRef .tc main_v6) : S4x1024x32000.Idx → EReal) (ix3 b s v)
      = Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) b s v := by
  have hn : b.val * 1024 + s.val < 4096 := by have := b.isLt; have := s.isLt; omega
  -- the result buffer is the second kernel's array with its rows split in two axes: token (b, s) is row 1024 b + s
  show (W7 m ρ c (Proc.devRef .tc main_v6) : Vec Ideal S4x1024x32000 .f32) (ix3 b s v) = _
  rw [KIn1.W7_v6, KArr1.arr1_eq]
  refine (shapeCast_mc_abc_apply (KArr1.G1 m ρ c) shapeCasts_S4096x32000_S4x1024x32000 b s v hn).trans ?_
  rw [KArr1.G1_apply]
  -- the second kernel's inputs: the first kernel's array, the vocabulary rows and the bias as launched
  have hya : KArr1.ya m ρ c = KArr0.G0 m ρ c := (KIn1.V5_v3 m ρ c).trans (KArr0.arr0_eq m ρ c)
  have hyw : KArr1.yw m ρ c = m ((c.tc : Thread nD τ).loc main_arg10) := KIn1.V5_arg10 m ρ c
  have hyb : KArr1.yb m ρ c (ix2 (0 : Fin 1) v) = (m ((c.tc : Thread nD τ).loc main_arg11) : Vec Ideal S32000 .f32) (ix1 v) :=
    KIn1.V5_v4_apply m ρ c v
  rw [hya, hyw, hyb]
  -- the first kernel's inputs: the table row of the token's id, and the weights as launched
  have hrow : (fun k => KArr0.G0 m ρ c (ix2 ⟨b.val * 1024 + s.val, hn⟩ k))
      = Cert.Spec.tok3 (Cert.Spec.params (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6))
          (m ((c.tc : Thread nD τ).loc main_arg7)) (m ((c.tc : Thread nD τ).loc main_arg8)) (m ((c.tc : Thread nD τ).loc main_arg9)))
        (Cert.Spec.embRow (m ((c.tc : Thread nD τ).loc main_arg1)) (m ((c.tc : Thread nD τ).loc main_arg0) (ix2 b s))) := by
    funext k
    rw [KArr0.G0_apply]
    have hpg : KArr0.pg m ρ c = m ((c.tc : Thread nD τ).loc main_arg2) := KIn0.V3_arg2 m ρ c
    have hpb : KArr0.pb m ρ c = m ((c.tc : Thread nD τ).loc main_arg3) := KIn0.V3_arg3 m ρ c
    have hpW : KArr0.pW m ρ c = m ((c.tc : Thread nD τ).loc main_arg4) := KIn0.V3_v2 m ρ c
    have hpbb : KArr0.pbb m ρ c = m ((c.tc : Thread nD τ).loc main_arg5) := KIn0.V3_arg5 m ρ c
    have hp5 : KArr0.p5 m ρ c = m ((c.tc : Thread nD τ).loc main_arg6) := KIn0.V3_arg6 m ρ c
    have hp6 : KArr0.p6 m ρ c = m ((c.tc : Thread nD τ).loc main_arg7) := KIn0.V3_arg7 m ρ c
    have hp7 : KArr0.p7 m ρ c = m ((c.tc : Thread nD τ).loc main_arg8) := KIn0.V3_arg8 m ρ c
    have hp8 : KArr0.p8 m ρ c = m ((c.tc : Thread nD τ).loc main_arg9) := KIn0.V3_arg9 m ρ c
    have hxs : (fun k' => KArr0.xs m ρ c (ix2 ⟨b.val * 1024 + s.val, hn⟩ k'))
        = Cert.Spec.embRow (m ((c.tc : Thread nD τ).loc main_arg1)) (m ((c.tc : Thread nD τ).loc main_arg0) (ix2 b s)) :=
      funext fun k' => KIn0.xs_apply m ρ c b s k' hn
    rw [hpg, hpb, hpW, hpbb, hp5, hp6, hp7, hp8, hxs]
  rw [hrow]
  rfl

end Cert.KernelIdeal.KArrays

end
-- ==== Proof.LibNaryResult.lean ====
/-
  A host operation over a literal family of references, read at its result.

  `StableHlo.nary xs y f` writes `f` of the family of its operands' contents into `y`.  Its general result
  lemma states the family as `fun k => F ↑(xs k)`; for a LITERAL family `![a, b, c]` the lemmas below state it
  as `Fin.cons (F ↑a) (Fin.cons (F ↑b) …)` instead — each operand's contents at its own reference —, which is what
  lets a rewriting pass over a line of operations go on into the operands (a concatenate of three, five or nine
  computed pieces).  The library has this form for four references (`nary4_result`); these are the same statement
  and proof at three, five and nine.
-/
import Idealize.ShloMosaic.Lib.StableHlo.Run

noncomputable section

namespace Idealize.ShloMosaic.StableHlo

variable {nD : Nat} {τ : Topo} {sig : RefSig} {Val : EltTy → Type}
variable {x a b c e g h i j y : Ref sig .tc}

/-- `nary` over a LITERAL family of 3 references: the result with each operand's contents at its own reference, so that
    a pass over the operations' results goes on rewriting the operands' contents (under the binder of `nary_result` the
    reference `![x, a, b] k` is no literal and no result lemma applies to it). -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
/-- The same with the result reference un-indexed, for `simp`. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- `nary` over a LITERAL family of 5 references: the result with each operand's contents at its own reference, so that
    a pass over the operations' results goes on rewriting the operands' contents (under the binder of `nary_result` the
    reference `![x, a, b, c, e] k` is no literal and no result lemma applies to it). -/
theorem nary5_result
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) := by
  rw [nary_result]; congr 1; funext k; fin_cases k <;> rfl
/-- The same with the result reference un-indexed, for `simp`. -/
theorem nary5_result'
    (f : ((k : Fin 5) → ((![x, a, b, c, e] : Fin 5 → Ref sig .tc) k).ty.Contents Val) → y.ty.Contents Val) (hxs hy)
    (F : Valuation τ sig Val) :
    (nary (τ := τ) ![x, a, b, c, e] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (fun i => i.elim0)))))) :=
  nary5_result f hxs hy F

/-- `nary` over a LITERAL family of 9 references: the result with each operand's contents at its own reference, so that
    a pass over the operations' results goes on rewriting the operands' contents (under the binder of `nary_result` the
    reference `![x, a, b, c, e, g, h, i, j] k` is no literal and no result lemma applies to it). -/
theorem nary9_result
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (Proc.devRef .tc y)
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) := by
  rw [nary_result]; congr 1; funext k; fin_cases k <;> rfl
/-- The same with the result reference un-indexed, for `simp`. -/
theorem nary9_result'
    (f : ((k : Fin 9) → ((![x, a, b, c, e, g, h, i, j] : Fin 9 → Ref sig .tc) k).ty.Contents Val) → y.ty.Contents Val) (hxs hy)
    (F : Valuation τ sig Val) :
    (nary (τ := τ) ![x, a, b, c, e, g, h, i, j] y f hxs hy).result F (no_index (Proc.devRef .tc y))
      = f (Fin.cons (F (Proc.devRef .tc x)) (Fin.cons (F (Proc.devRef .tc a)) (Fin.cons (F (Proc.devRef .tc b)) (Fin.cons (F (Proc.devRef .tc c)) (Fin.cons (F (Proc.devRef .tc e)) (Fin.cons (F (Proc.devRef .tc g)) (Fin.cons (F (Proc.devRef .tc h)) (Fin.cons (F (Proc.devRef .tc i)) (Fin.cons (F (Proc.devRef .tc j)) (fun i => i.elim0)))))))))) :=
  nary9_result f hxs hy F

end Idealize.ShloMosaic.StableHlo

end
-- ==== Proof.LibReadStretch.lean ====
/-
  Reading a short stretch of host operations.

  `StableHlo.nary xs y f` writes `f` of the family of its operands' contents into `y`; for a LITERAL family of two
  references the result is stated here with each operand's contents at its own reference (the library has this form at
  four references, and at three, five and nine in a sibling file), so that a rewriting pass goes on into the operands.
  `read_stretch` is one rewriting pass over a goal about `StableHlo.after` of a literal stretch: it unfolds the fold and
  rewrites each operation's result at its own buffer to its function's value and at any other buffer to what was there
  (two references told apart by deciding), with the literal-family forms of `nary` only — never the general form, which
  leaves the operands under a binder.
-/
import Idealize.ShloMosaic.Lib.StableHlo.Run
import proofs.«407089_j83803401879983_3_alg».proof.Proof.LibNaryResult

noncomputable section

namespace Idealize.ShloMosaic.StableHlo

variable {nD : Nat} {τ : Topo} {sig : RefSig} {Val : EltTy → Type}
variable {x a y : Ref sig .tc}

/-- `nary` over a LITERAL family of 2 references: the result with each operand's contents at its own reference. -/
theorem nary2_result
    (f : ((k : Fin 2) → ((![x, a] : Fin 2 → Ref sig .tc) k).ty.Contents Val) → y.ty.Contents Val) (hxs hy)
    (F : Valuation τ sig Val) :
    (nary (τ := τ) ![x, a] y f hxs hy).result F (Proc.devRef .tc y)
      = f (Fin.cons (F (Proc.devRef .tc x)) (Fin.cons (F (Proc.devRef .tc a)) (fun i => i.elim0))) := by
  rw [nary_result]; congr 1; funext k; fin_cases k <;> rfl
/-- The same with the result reference un-indexed, for `simp`. -/
theorem nary2_result'
    (f : ((k : Fin 2) → ((![x, a] : Fin 2 → Ref sig .tc) k).ty.Contents Val) → y.ty.Contents Val) (hxs hy)
    (F : Valuation τ sig Val) :
    (nary (τ := τ) ![x, a] y f hxs hy).result F (no_index (Proc.devRef .tc y))
      = f (Fin.cons (F (Proc.devRef .tc x)) (Fin.cons (F (Proc.devRef .tc a)) (fun i => i.elim0))) :=
  nary2_result f hxs hy F

end Idealize.ShloMosaic.StableHlo

open Idealize.ShloMosaic.StableHlo in
/-- One rewriting pass over a literal stretch's fold (see the header). -/
macro "read_stretch" : tactic =>
  `(tactic| (simp (disch := decide) only [after_cons, after_nil,
      nullary_result', unary_result', binary_result', ternary_result', quaternary_result', reshape_result',
      nary2_result', nary3_result', nary4_result',
      nullary_result_ne', unary_result_ne', binary_result_ne', ternary_result_ne', quaternary_result_ne', reshape_result_ne',
      nary_result_ne']))

end
-- ==== Proof.RefRun.lean ====
/-
  The reference program's run, read back stage by stage.

  The program is a straight line of 323 host operations.  Read as ONE composed term of the arguments its result is
  enormous, because each layer normalisation reads its input six times and the three residual blocks nest.  The stages
  `ReadP.val_main_<buffer>` name every operation's value from the earlier stages instead, so the result is stated by the
  last stage, `val_main_v272`.

  The proof cuts the line before each of the three concatenates (where only two computed buffers are still read later: the
  context rows and the token rows) into four stretches.  For a stretch and ANY contents `W` of the buffers before it,
  each buffer that is read after the stretch is, after the stretch, its stage — given that the buffers the stretch
  takes over from the one before are their stages in `W`, the arguments being read off `W` directly.  No stretch writes an
  argument.  The run of the whole line is the four stretches one after the other.
-/
import proofs.«407089_j83803401879983_3_alg».proof.Proof.ReadP
import proofs.«407089_j83803401879983_3_alg».proof.Proof.RunP
import proofs.«407089_j83803401879983_3_alg».proof.Proof.LibCarry
import proofs.«407089_j83803401879983_3_alg».proof.Proof.LibReadStretch
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo
open Cert.ReferenceIdeal.RunP

variable {F : FTy → Type} [FloatOps F]

/-! ## Every operation determines what it writes -/

/-- In a literal stretch of host operations none leaves a written buffer undetermined. -/
local macro "fresh_host " ops:ident : tactic => `(tactic|
  exact List.forall_iff_forall_mem.mp (by
    simp only [$ops:ident, List.Forall]
    repeat' apply And.intro
    all_goals rfl))

theorem ops0_fresh : ∀ op ∈ (ops0 : List (HloOp τ sig (Elt F))), op.fresh = ∅ := by fresh_host ops0
theorem ops1_fresh : ∀ op ∈ (ops1 : List (HloOp τ sig (Elt F))), op.fresh = ∅ := by fresh_host ops1
theorem ops2_fresh : ∀ op ∈ (ops2 : List (HloOp τ sig (Elt F))), op.fresh = ∅ := by fresh_host ops2
theorem ops3_fresh : ∀ op ∈ (ops3 : List (HloOp τ sig (Elt F))), op.fresh = ∅ := by fresh_host ops3

theorem ops_fresh : ∀ op ∈ (ops : List (HloOp τ sig (Elt F))), op.fresh = ∅ := by
  intro op h
  rcases List.mem_append.mp h with h | h
  · rcases List.mem_append.mp h with h | h
    · rcases List.mem_append.mp h with h | h
      · exact ops0_fresh op h
      · exact ops1_fresh op h
    · exact ops2_fresh op h
  · exact ops3_fresh op h

/-! ## No stretch writes an argument -/

/-- The contents `W` hold, at the twelve argument buffers of device `c`, what the launch memory `m` holds there. -/
def HoldsArgs (m : (ℓ : Loc nD τ sig) → Buf (Elt F) ℓ) (c : Dev nD) (W : Valuation τ sig (Elt F)) : Prop :=
  W (Proc.devRef .tc main_arg0) = m ((c.tc : Thread nD τ).loc main_arg0)
  ∧ W (Proc.devRef .tc main_arg1) = m ((c.tc : Thread nD τ).loc main_arg1)
  ∧ W (Proc.devRef .tc main_arg2) = m ((c.tc : Thread nD τ).loc main_arg2)
  ∧ W (Proc.devRef .tc main_arg3) = m ((c.tc : Thread nD τ).loc main_arg3)
  ∧ W (Proc.devRef .tc main_arg4) = m ((c.tc : Thread nD τ).loc main_arg4)
  ∧ W (Proc.devRef .tc main_arg5) = m ((c.tc : Thread nD τ).loc main_arg5)
  ∧ W (Proc.devRef .tc main_arg6) = m ((c.tc : Thread nD τ).loc main_arg6)
  ∧ W (Proc.devRef .tc main_arg7) = m ((c.tc : Thread nD τ).loc main_arg7)
  ∧ W (Proc.devRef .tc main_arg8) = m ((c.tc : Thread nD τ).loc main_arg8)
  ∧ W (Proc.devRef .tc main_arg9) = m ((c.tc : Thread nD τ).loc main_arg9)
  ∧ W (Proc.devRef .tc main_arg10) = m ((c.tc : Thread nD τ).loc main_arg10)
  ∧ W (Proc.devRef .tc main_arg11) = m ((c.tc : Thread nD τ).loc main_arg11)

variable {m : (ℓ : Loc nD τ sig) → Buf (Elt F) ℓ} {c : Dev nD} {W : Valuation τ sig (Elt F)}

theorem holdsArgs_launch : HoldsArgs m c (launchContents m c) :=
  ⟨rfl, rfl, rfl, rfl, rfl, rfl, rfl, rfl, rfl, rfl, rfl, rfl⟩

set_option maxHeartbeats 2000000 in
theorem holdsArgs_after0 (h : HoldsArgs m c W) : HoldsArgs m c (after ops0 W) := by
  obtain ⟨h0, h1, h2, h3, h4, h5, h6, h7, h8, h9, h10, h11⟩ := h
  exact ⟨(by keep_host ops0 : after ops0 W (Proc.devRef .tc main_arg0) = W (Proc.devRef .tc main_arg0)).trans h0,
    (by keep_host ops0 : after ops0 W (Proc.devRef .tc main_arg1) = W (Proc.devRef .tc main_arg1)).trans h1,
    (by keep_host ops0 : after ops0 W (Proc.devRef .tc main_arg2) = W (Proc.devRef .tc main_arg2)).trans h2,
    (by keep_host ops0 : after ops0 W (Proc.devRef .tc main_arg3) = W (Proc.devRef .tc main_arg3)).trans h3,
    (by keep_host ops0 : after ops0 W (Proc.devRef .tc main_arg4) = W (Proc.devRef .tc main_arg4)).trans h4,
    (by keep_host ops0 : after ops0 W (Proc.devRef .tc main_arg5) = W (Proc.devRef .tc main_arg5)).trans h5,
    (by keep_host ops0 : after ops0 W (Proc.devRef .tc main_arg6) = W (Proc.devRef .tc main_arg6)).trans h6,
    (by keep_host ops0 : after ops0 W (Proc.devRef .tc main_arg7) = W (Proc.devRef .tc main_arg7)).trans h7,
    (by keep_host ops0 : after ops0 W (Proc.devRef .tc main_arg8) = W (Proc.devRef .tc main_arg8)).trans h8,
    (by keep_host ops0 : after ops0 W (Proc.devRef .tc main_arg9) = W (Proc.devRef .tc main_arg9)).trans h9,
    (by keep_host ops0 : after ops0 W (Proc.devRef .tc main_arg10) = W (Proc.devRef .tc main_arg10)).trans h10,
    (by keep_host ops0 : after ops0 W (Proc.devRef .tc main_arg11) = W (Proc.devRef .tc main_arg11)).trans h11⟩

set_option maxHeartbeats 2000000 in
theorem holdsArgs_after1 (h : HoldsArgs m c W) : HoldsArgs m c (after ops1 W) := by
  obtain ⟨h0, h1, h2, h3, h4, h5, h6, h7, h8, h9, h10, h11⟩ := h
  exact ⟨(by keep_host ops1 : after ops1 W (Proc.devRef .tc main_arg0) = W (Proc.devRef .tc main_arg0)).trans h0,
    (by keep_host ops1 : after ops1 W (Proc.devRef .tc main_arg1) = W (Proc.devRef .tc main_arg1)).trans h1,
    (by keep_host ops1 : after ops1 W (Proc.devRef .tc main_arg2) = W (Proc.devRef .tc main_arg2)).trans h2,
    (by keep_host ops1 : after ops1 W (Proc.devRef .tc main_arg3) = W (Proc.devRef .tc main_arg3)).trans h3,
    (by keep_host ops1 : after ops1 W (Proc.devRef .tc main_arg4) = W (Proc.devRef .tc main_arg4)).trans h4,
    (by keep_host ops1 : after ops1 W (Proc.devRef .tc main_arg5) = W (Proc.devRef .tc main_arg5)).trans h5,
    (by keep_host ops1 : after ops1 W (Proc.devRef .tc main_arg6) = W (Proc.devRef .tc main_arg6)).trans h6,
    (by keep_host ops1 : after ops1 W (Proc.devRef .tc main_arg7) = W (Proc.devRef .tc main_arg7)).trans h7,
    (by keep_host ops1 : after ops1 W (Proc.devRef .tc main_arg8) = W (Proc.devRef .tc main_arg8)).trans h8,
    (by keep_host ops1 : after ops1 W (Proc.devRef .tc main_arg9) = W (Proc.devRef .tc main_arg9)).trans h9,
    (by keep_host ops1 : after ops1 W (Proc.devRef .tc main_arg10) = W (Proc.devRef .tc main_arg10)).trans h10,
    (by keep_host ops1 : after ops1 W (Proc.devRef .tc main_arg11) = W (Proc.devRef .tc main_arg11)).trans h11⟩

set_option maxHeartbeats 2000000 in
theorem holdsArgs_after2 (h : HoldsArgs m c W) : HoldsArgs m c (after ops2 W) := by
  obtain ⟨h0, h1, h2, h3, h4, h5, h6, h7, h8, h9, h10, h11⟩ := h
  exact ⟨(by keep_host ops2 : after ops2 W (Proc.devRef .tc main_arg0) = W (Proc.devRef .tc main_arg0)).trans h0,
    (by keep_host ops2 : after ops2 W (Proc.devRef .tc main_arg1) = W (Proc.devRef .tc main_arg1)).trans h1,
    (by keep_host ops2 : after ops2 W (Proc.devRef .tc main_arg2) = W (Proc.devRef .tc main_arg2)).trans h2,
    (by keep_host ops2 : after ops2 W (Proc.devRef .tc main_arg3) = W (Proc.devRef .tc main_arg3)).trans h3,
    (by keep_host ops2 : after ops2 W (Proc.devRef .tc main_arg4) = W (Proc.devRef .tc main_arg4)).trans h4,
    (by keep_host ops2 : after ops2 W (Proc.devRef .tc main_arg5) = W (Proc.devRef .tc main_arg5)).trans h5,
    (by keep_host ops2 : after ops2 W (Proc.devRef .tc main_arg6) = W (Proc.devRef .tc main_arg6)).trans h6,
    (by keep_host ops2 : after ops2 W (Proc.devRef .tc main_arg7) = W (Proc.devRef .tc main_arg7)).trans h7,
    (by keep_host ops2 : after ops2 W (Proc.devRef .tc main_arg8) = W (Proc.devRef .tc main_arg8)).trans h8,
    (by keep_host ops2 : after ops2 W (Proc.devRef .tc main_arg9) = W (Proc.devRef .tc main_arg9)).trans h9,
    (by keep_host ops2 : after ops2 W (Proc.devRef .tc main_arg10) = W (Proc.devRef .tc main_arg10)).trans h10,
    (by keep_host ops2 : after ops2 W (Proc.devRef .tc main_arg11) = W (Proc.devRef .tc main_arg11)).trans h11⟩

set_option maxHeartbeats 2000000 in
theorem holdsArgs_after3 (h : HoldsArgs m c W) : HoldsArgs m c (after ops3 W) := by
  obtain ⟨h0, h1, h2, h3, h4, h5, h6, h7, h8, h9, h10, h11⟩ := h
  exact ⟨(by keep_host ops3 : after ops3 W (Proc.devRef .tc main_arg0) = W (Proc.devRef .tc main_arg0)).trans h0,
    (by keep_host ops3 : after ops3 W (Proc.devRef .tc main_arg1) = W (Proc.devRef .tc main_arg1)).trans h1,
    (by keep_host ops3 : after ops3 W (Proc.devRef .tc main_arg2) = W (Proc.devRef .tc main_arg2)).trans h2,
    (by keep_host ops3 : after ops3 W (Proc.devRef .tc main_arg3) = W (Proc.devRef .tc main_arg3)).trans h3,
    (by keep_host ops3 : after ops3 W (Proc.devRef .tc main_arg4) = W (Proc.devRef .tc main_arg4)).trans h4,
    (by keep_host ops3 : after ops3 W (Proc.devRef .tc main_arg5) = W (Proc.devRef .tc main_arg5)).trans h5,
    (by keep_host ops3 : after ops3 W (Proc.devRef .tc main_arg6) = W (Proc.devRef .tc main_arg6)).trans h6,
    (by keep_host ops3 : after ops3 W (Proc.devRef .tc main_arg7) = W (Proc.devRef .tc main_arg7)).trans h7,
    (by keep_host ops3 : after ops3 W (Proc.devRef .tc main_arg8) = W (Proc.devRef .tc main_arg8)).trans h8,
    (by keep_host ops3 : after ops3 W (Proc.devRef .tc main_arg9) = W (Proc.devRef .tc main_arg9)).trans h9,
    (by keep_host ops3 : after ops3 W (Proc.devRef .tc main_arg10) = W (Proc.devRef .tc main_arg10)).trans h10,
    (by keep_host ops3 : after ops3 W (Proc.devRef .tc main_arg11) = W (Proc.devRef .tc main_arg11)).trans h11⟩

/-! ## The stretches, each from any contents before it -/

variable (W)
variable (a0 : (⟨S4x1024, .i32⟩ : BufTy).Contents (Elt F)) (a1 : (⟨S32000x512, .f32⟩ : BufTy).Contents (Elt F)) (a2 a3 : (⟨S512, .f32⟩ : BufTy).Contents (Elt F))
  (a4 : (⟨S3x2x1024x1024, .f32⟩ : BufTy).Contents (Elt F)) (a5 : (⟨S3x2x1024, .f32⟩ : BufTy).Contents (Elt F)) (a6 a7 a8 a9 : (⟨S3x512, .f32⟩ : BufTy).Contents (Elt F))

/-- First stretch (the embedding rows of the token ids, layer-normalised; the zero context): the zero context. -/
theorem stretch0_v31 : after ops0 W (Proc.devRef .tc main_v31) = ReadP.val_main_v31 (F := F) := by
  read_stretch
  rfl

/-- First stretch: the token rows, from the arguments as `W` holds them. -/
theorem stretch0_v30 :
    after ops0 W (Proc.devRef .tc main_v30) = ReadP.val_main_v30 (F := F) (W (Proc.devRef .tc main_arg0)) (W (Proc.devRef .tc main_arg1)) (W (Proc.devRef .tc main_arg2)) (W (Proc.devRef .tc main_arg3)) := by
  read_stretch
  rfl

/-- Second stretch (the first residual block): the context rows, from the token rows and the zero context before it. -/
theorem stretch1_v80
    (h30 : W (Proc.devRef .tc main_v30) = ReadP.val_main_v30 (F := F) a0 a1 a2 a3)
    (h31 : W (Proc.devRef .tc main_v31) = ReadP.val_main_v31 (F := F)) :
    after ops1 W (Proc.devRef .tc main_v80)
      = ReadP.val_main_v80 (F := F) a0 a1 a2 a3 (W (Proc.devRef .tc main_arg4)) (W (Proc.devRef .tc main_arg5)) (W (Proc.devRef .tc main_arg6)) (W (Proc.devRef .tc main_arg7)) := by
  read_stretch
  rw [h30, h31]
  rfl

/-- Second stretch: the token rows. -/
theorem stretch1_v110
    (h30 : W (Proc.devRef .tc main_v30) = ReadP.val_main_v30 (F := F) a0 a1 a2 a3)
    (h31 : W (Proc.devRef .tc main_v31) = ReadP.val_main_v31 (F := F)) :
    after ops1 W (Proc.devRef .tc main_v110)
      = ReadP.val_main_v110 (F := F) a0 a1 a2 a3 (W (Proc.devRef .tc main_arg4)) (W (Proc.devRef .tc main_arg5)) (W (Proc.devRef .tc main_arg8)) (W (Proc.devRef .tc main_arg9)) := by
  read_stretch
  rw [h30, h31]
  rfl

/-- Third stretch (the second residual block): the context rows, from the context and token rows before it. -/
theorem stretch2_v159
    (h80 : W (Proc.devRef .tc main_v80) = ReadP.val_main_v80 (F := F) a0 a1 a2 a3 a4 a5 a6 a7)
    (h110 : W (Proc.devRef .tc main_v110) = ReadP.val_main_v110 (F := F) a0 a1 a2 a3 a4 a5 a8 a9)
    (h4 : W (Proc.devRef .tc main_arg4) = a4) (h5 : W (Proc.devRef .tc main_arg5) = a5)
    (h6 : W (Proc.devRef .tc main_arg6) = a6) (h7 : W (Proc.devRef .tc main_arg7) = a7) :
    after ops2 W (Proc.devRef .tc main_v159)
      = ReadP.val_main_v159 (F := F) a0 a1 a2 a3 a4 a5 a6 a7 a8 a9 := by
  read_stretch
  rw [h80, h110, h4, h5, h6, h7]
  rfl

/-- Third stretch: the token rows. -/
theorem stretch2_v189
    (h80 : W (Proc.devRef .tc main_v80) = ReadP.val_main_v80 (F := F) a0 a1 a2 a3 a4 a5 a6 a7)
    (h110 : W (Proc.devRef .tc main_v110) = ReadP.val_main_v110 (F := F) a0 a1 a2 a3 a4 a5 a8 a9)
    (h4 : W (Proc.devRef .tc main_arg4) = a4) (h5 : W (Proc.devRef .tc main_arg5) = a5)
    (h8 : W (Proc.devRef .tc main_arg8) = a8) (h9 : W (Proc.devRef .tc main_arg9) = a9) :
    after ops2 W (Proc.devRef .tc main_v189)
      = ReadP.val_main_v189 (F := F) a0 a1 a2 a3 a4 a5 a6 a7 a8 a9 := by
  read_stretch
  rw [h80, h110, h4, h5, h8, h9]
  rfl

/-- Fourth stretch (the third residual block, then the last token rows against the vocabulary rows plus the bias):
    the result. -/
theorem stretch3_v272
    (h159 : W (Proc.devRef .tc main_v159) = ReadP.val_main_v159 (F := F) a0 a1 a2 a3 a4 a5 a6 a7 a8 a9)
    (h189 : W (Proc.devRef .tc main_v189) = ReadP.val_main_v189 (F := F) a0 a1 a2 a3 a4 a5 a6 a7 a8 a9)
    (h4 : W (Proc.devRef .tc main_arg4) = a4) (h5 : W (Proc.devRef .tc main_arg5) = a5)
    (h8 : W (Proc.devRef .tc main_arg8) = a8) (h9 : W (Proc.devRef .tc main_arg9) = a9) :
    after ops3 W (Proc.devRef .tc main_v272)
      = ReadP.val_main_v272 (F := F) a0 a1 a2 a3 a4 a5 a6 a7 a8 a9 (W (Proc.devRef .tc main_arg10)) (W (Proc.devRef .tc main_arg11)) := by
  read_stretch
  rw [h159, h189, h4, h5, h8, h9]
  rfl

/-! ## The whole line -/

/-- After the whole line, from the launch memory: the result buffer is the last stage of the launch's arguments, and
    the arguments are as launched. -/
theorem after_ops (m : (ℓ : Loc nD τ sig) → Buf (Elt F) ℓ) (c : Dev nD) :
    after ops (launchContents m c) (Proc.devRef .tc main_v272) = ReadP.val_main_v272 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ HoldsArgs m c (after ops (launchContents m c)) := by
  have e : after (ops (F := F)) (launchContents m c)
      = after ops3 (after ops2 (after ops1 (after ops0 (launchContents m c)))) := by
    rw [show (ops (F := F)) = ops0 ++ ops1 ++ ops2 ++ ops3 from rfl, StableHlo.after_append, StableHlo.after_append,
      StableHlo.after_append]
  rw [e]
  have A0 : HoldsArgs m c (launchContents m c) := holdsArgs_launch
  have A1 := holdsArgs_after0 A0
  have A2 := holdsArgs_after1 A1
  have A3 := holdsArgs_after2 A2
  refine ⟨?_, holdsArgs_after3 A3⟩
  generalize launchContents m c = V0 at *
  have h31 := stretch0_v31 V0
  have h30 := stretch0_v30 V0
  rw [A0.1, A0.2.1, A0.2.2.1, A0.2.2.2.1] at h30
  generalize after ops0 V0 = V1 at *
  have h80 := stretch1_v80 V1 _ _ _ _ h30 h31
  have h110 := stretch1_v110 V1 _ _ _ _ h30 h31
  obtain ⟨-, -, -, -, b4, b5, b6, b7, b8, b9, -, -⟩ := A1
  rw [b4, b5, b6, b7] at h80
  rw [b4, b5, b8, b9] at h110
  generalize after ops1 V1 = V2 at *
  obtain ⟨-, -, -, -, c4, c5, c6, c7, c8, c9, -, -⟩ := A2
  have h159 := stretch2_v159 V2 _ _ _ _ _ _ _ _ _ _ h80 h110 c4 c5 c6 c7
  have h189 := stretch2_v189 V2 _ _ _ _ _ _ _ _ _ _ h80 h110 c4 c5 c8 c9
  generalize after ops2 V2 = V3 at *
  obtain ⟨-, -, -, -, d4, d5, -, -, d8, d9, d10, d11⟩ := A3
  have h272 := stretch3_v272 V3 _ _ _ _ _ _ _ _ _ _ h159 h189 d4 d5 d8 d9
  rw [d10, d11] at h272
  exact h272

/-- Every weakly fair execution of the reference ends with its result buffer at the last stage of its arguments,
    the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v272) = ReadP.val_main_v272 (F := F) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11) := by
  refine (θ_run defs _ _).mono (fun _ h c => ?_)
    (run_seq scopedRefs_eq scopedSems_eq defs main (fun _ => ops) main_eq (fun _ => ops_sub) m ρ (fun _ => ops_fresh))
  obtain ⟨hv, h0, h1, h2, h3, h4, h5, h6, h7, h8, h9, h10, h11⟩ := after_ops (F := F) m c
  exact ⟨(h c main_v272).trans hv, (h c main_arg0).trans h0, (h c main_arg1).trans h1, (h c main_arg2).trans h2, (h c main_arg3).trans h3, (h c main_arg4).trans h4, (h c main_arg5).trans h5, (h c main_arg6).trans h6, (h c main_arg7).trans h7, (h c main_arg8).trans h8, (h c main_arg9).trans h9, (h c main_arg10).trans h10, (h c main_arg11).trans h11⟩

end Cert.ReferenceIdeal.RefRun

end
-- ==== Proof.RefLN.lean ====
/-
  The reference's layer norm of a batch-by-sequence array of rows of 512 entries, as ONE chain of array operations over
  its operands (the array, the gain and the shift), read one row at a time: entry `(b, s, c)` of the chain is entry
  `c` of the specification's layer norm of row `(b, s)`.

  The chain sums each row (a reduction over the last axis into the zero word), keeps the sum as a unit column, divides
  it by the word `512.0`, spreads the quotient (the mean) back over the row and subtracts it; the squared deviations are
  summed and divided the same way (the mean squared deviation), the word nearest `1e-5` is added, the reciprocal square
  root taken, spread over the row and multiplied in; the gain and the shift, rows of 512 entries spread over every
  `(b, s)`, are multiplied in and added.
-/
import proofs.«407089_j83803401879983_3_alg».proof.Proof.ReadP
import proofs.«407089_j83803401879983_3_alg».proof.Proof.SpecParams

noncomputable section

namespace Cert.ReferenceIdeal.RefLN

open Cert.ReferenceIdeal Cert.ReferenceIdeal.Gen Idealize.ShloMosaic Idealize.ShloMosaic.TcCoe Idealize.SL.Sem
  Idealize.ShloMosaic.StableHlo Idealize.ShloMosaic.ValueIdx

section Chain
variable {F : FTy → Type} [FloatOps F]

/-- The rows' means, one per `(b, s)`, kept as a unit column: the row sum divided by `512.0`. -/
def lnMean (X : (⟨S4x1024x512, .f32⟩ : BufTy).Contents (Elt F)) : (⟨S4x1024x1, .f32⟩ : BufTy).Contents (Elt F) :=
  Host.divf
    (broadcastInDim S4x1024x1 ![0, 1] bcast_S4x1024_S4x1024x1_0_1
      (Host.reduceAdd X (constant (F := F) S_ .f32 0x00000000#32) reducesTo_S4x1024x512_S4x1024_d2 h_S_))
    (broadcastInDim S4x1024x1 ![] bcast_S_S4x1024x1 (constant (F := F) S_ .f32 0x44000000#32))

/-- The deviations from the row's mean. -/
def lnDev (X : (⟨S4x1024x512, .f32⟩ : BufTy).Contents (Elt F)) : (⟨S4x1024x512, .f32⟩ : BufTy).Contents (Elt F) :=
  subf X (broadcastInDim S4x1024x512 ![0, 1, 2] bcast_S4x1024x1_S4x1024x512_0_1_2 (lnMean X))

/-- The rows' mean squared deviations, kept as a unit column. -/
def lnVar (X : (⟨S4x1024x512, .f32⟩ : BufTy).Contents (Elt F)) : (⟨S4x1024x1, .f32⟩ : BufTy).Contents (Elt F) :=
  Host.divf
    (broadcastInDim S4x1024x1 ![0, 1] bcast_S4x1024_S4x1024x1_0_1
      (Host.reduceAdd (mulf (lnDev X) (lnDev X)) (constant (F := F) S_ .f32 0x00000000#32) reducesTo_S4x1024x512_S4x1024_d2 h_S_))
    (broadcastInDim S4x1024x1 ![] bcast_S_S4x1024x1 (constant (F := F) S_ .f32 0x44000000#32))

/-- The whole chain: deviation times the reciprocal square root of the mean squared deviation plus `1e-5`, times
    the gain, plus the shift. -/
def lnChain (X : (⟨S4x1024x512, .f32⟩ : BufTy).Contents (Elt F)) (G B : (⟨S512, .f32⟩ : BufTy).Contents (Elt F)) :
    (⟨S4x1024x512, .f32⟩ : BufTy).Contents (Elt F) :=
  addf
    (mulf
      (mulf (lnDev X)
        (broadcastInDim S4x1024x512 ![0, 1, 2] bcast_S4x1024x1_S4x1024x512_0_1_2
          (Host.rsqrt (addf (lnVar X)
            (broadcastInDim S4x1024x1 ![] bcast_S_S4x1024x1 (constant (F := F) S_ .f32 0x3727C5AC#32))))))
      (broadcastInDim S4x1024x512 ![0, 1, 2] bcast_S1x1x512_S4x1024x512_0_1_2
        (broadcastInDim S1x1x512 ![2] bcast_S512_S1x1x512_2 G)))
    (broadcastInDim S4x1024x512 ![0, 1, 2] bcast_S1x1x512_S4x1024x512_0_1_2
      (broadcastInDim S1x1x512 ![2] bcast_S512_S1x1x512_2 B))

end Chain

/-! ## The layout operations of the chain at an index -/

section Layout
variable {α : Type}

/-- A `(b, s)` array kept as a unit column reads, at `(b, s, u)`, the array at `(b, s)`. -/
theorem col_apply (y : S4x1024.Idx → α) (b : Fin 4) (s : Fin 1024) (u : Fin 1) :
    broadcastInDim S4x1024x1 ![0, 1] bcast_S4x1024_S4x1024x1_0_1 y (ix3 b s u) = y (ix2 b s) :=
  broadcastInDim_apply _ bcast_S4x1024_S4x1024x1_0_1 y (ix3 b s u) (ix2 b s) (fun a => match a with
    | ⟨0, _⟩ => by show b.val = if (4 : Nat) = 1 then 0 else b.val; rw [if_neg (by decide)]
    | ⟨1, _⟩ => by show s.val = if (1024 : Nat) = 1 then 0 else s.val; rw [if_neg (by decide)])

/-- A scalar spread over the unit columns reads the scalar everywhere. -/
theorem scalarCol_apply (y : S_.Idx → α) (i : S4x1024x1.Idx) :
    broadcastInDim S4x1024x1 ![] bcast_S_S4x1024x1 y i = y ix0 :=
  broadcastInDim_apply _ bcast_S_S4x1024x1 y i ix0 (fun a => a.elim0)

/-- A unit column spread over the rows reads, at `(b, s, c)`, the column at `(b, s, 0)`. -/
theorem spread_apply (y : S4x1024x1.Idx → α) (b : Fin 4) (s : Fin 1024) (c : Fin 512) :
    broadcastInDim S4x1024x512 ![0, 1, 2] bcast_S4x1024x1_S4x1024x512_0_1_2 y (ix3 b s c) = y (ix3 b s (0 : Fin 1)) :=
  broadcastInDim_apply _ bcast_S4x1024x1_S4x1024x512_0_1_2 y (ix3 b s c) (ix3 b s (0 : Fin 1)) (fun a => match a with
    | ⟨0, _⟩ => by show b.val = if (4 : Nat) = 1 then 0 else b.val; rw [if_neg (by decide)]
    | ⟨1, _⟩ => by show s.val = if (1024 : Nat) = 1 then 0 else s.val; rw [if_neg (by decide)]
    | ⟨2, _⟩ => by show 0 = if (1 : Nat) = 1 then 0 else c.val; rw [if_pos rfl])

/-- A row of 512 entries spread over every `(b, s)` reads, at `(b, s, c)`, the row at `c`. -/
theorem rowSpread_apply (g : S512.Idx → α) (b : Fin 4) (s : Fin 1024) (c : Fin 512) :
    broadcastInDim S4x1024x512 ![0, 1, 2] bcast_S1x1x512_S4x1024x512_0_1_2
      (broadcastInDim S1x1x512 ![2] bcast_S512_S1x1x512_2 g) (ix3 b s c) = g (ix1 c) := by
  rw [broadcastInDim_apply _ bcast_S1x1x512_S4x1024x512_0_1_2 _ (ix3 b s c) (ix3 (0 : Fin 1) (0 : Fin 1) c) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show c.val = if (512 : Nat) = 1 then 0 else c.val; rw [if_neg (by decide)])]
  exact broadcastInDim_apply _ bcast_S512_S1x1x512_2 g (ix3 (0 : Fin 1) (0 : Fin 1) c) (ix1 c) (fun a => match a with
    | ⟨0, _⟩ => by show c.val = if (512 : Nat) = 1 then 0 else c.val; rw [if_neg (by decide)])

end Layout

/-! ## The chain at an index -/

/-- The sum over the last axis into the zero word, at `(b, s)`: the sum of row `(b, s)`. -/
theorem rowSum_apply (Y : (⟨S4x1024x512, .f32⟩ : BufTy).Contents (Elt Ideal)) (b : Fin 4) (s : Fin 1024) :
    Host.reduceAdd Y (constant (F := Ideal) S_ .f32 0x00000000#32) reducesTo_S4x1024x512_S4x1024_d2 h_S_ (ix2 b s)
      = ∑ k : Fin 512, Y (ix3 b s k) := by
  simp only [Host.reduceAdd, Ideal.hostReduceAdd_def]
  rw [Ideal.hostReduceAdd_single reducesTo_S4x1024x512_S4x1024_d2 (by decide)]
  show Ideal.ofBits .f32 0x00000000#32 + _ = _
  rw [Ideal.ofBits_zero_f32, zero_add]
  refine Finset.sum_congr rfl fun k _ => ?_
  exact congrArg Y (funext fun a => Fin.ext (by match a with | ⟨0, _⟩ => rfl | ⟨1, _⟩ => rfl | ⟨2, _⟩ => rfl))

/-- The mean column at `(b, s, 0)` is the specification's mean of row `(b, s)`. -/
theorem lnMean_apply (X : (⟨S4x1024x512, .f32⟩ : BufTy).Contents (Elt Ideal)) (b : Fin 4) (s : Fin 1024) (u : Fin 1) :
    lnMean X (ix3 b s u) = Cert.Spec.mean (fun k => X (ix3 b s k)) := by
  unfold lnMean
  show Ideal.div _ _ = _
  rw [col_apply, scalarCol_apply, rowSum_apply]
  rfl

/-- The deviation at `(b, s, c)`. -/
theorem lnDev_apply (X : (⟨S4x1024x512, .f32⟩ : BufTy).Contents (Elt Ideal)) (b : Fin 4) (s : Fin 1024) (c : Fin 512) :
    lnDev X (ix3 b s c) = X (ix3 b s c) - Cert.Spec.mean (fun k => X (ix3 b s k)) := by
  unfold lnDev
  show _ - _ = _
  rw [spread_apply, lnMean_apply]

/-- The mean squared deviation column at `(b, s, 0)`. -/
theorem lnVar_apply (X : (⟨S4x1024x512, .f32⟩ : BufTy).Contents (Elt Ideal)) (b : Fin 4) (s : Fin 1024) (u : Fin 1) :
    lnVar X (ix3 b s u)
      = Cert.Spec.mean (fun k => (X (ix3 b s k) - Cert.Spec.mean (fun k => X (ix3 b s k)))
          * (X (ix3 b s k) - Cert.Spec.mean (fun k => X (ix3 b s k)))) := by
  unfold lnVar
  show Ideal.div _ _ = _
  rw [col_apply, scalarCol_apply, rowSum_apply]
  show Ideal.div (∑ k : Fin 512, lnDev X (ix3 b s k) * lnDev X (ix3 b s k)) _ = _
  simp only [lnDev_apply]
  rfl

/-- The chain at `(b, s, c)` is entry `c` of the specification's layer norm of row `(b, s)`, with the gain and the
    shift read by their coordinate. -/
theorem lnChain_apply (X : (⟨S4x1024x512, .f32⟩ : BufTy).Contents (Elt Ideal))
    (G B : (⟨S512, .f32⟩ : BufTy).Contents (Elt Ideal)) (b : Fin 4) (s : Fin 1024) (c : Fin 512) :
    lnChain X G B (ix3 b s c)
      = Cert.Spec.ln (fun k => X (ix3 b s k)) (fun k => G (ix1 k)) (fun k => B (ix1 k)) c := by
  unfold lnChain
  show (lnDev X (ix3 b s c) * _) * _ + _ = _
  rw [spread_apply, rowSpread_apply, rowSpread_apply, lnDev_apply]
  show (_ * Ideal.rsqrt (lnVar X (ix3 b s (0 : Fin 1)) + _)) * _ + _ = _
  rw [lnVar_apply, scalarCol_apply]
  rfl

end Cert.ReferenceIdeal.RefLN

end
-- ==== Proof.RefLin.lean ====
/-
  The reference's affine map of a batch-by-sequence array of rows of 1024 entries followed by `max · 0`, as ONE chain
  of array operations over its operands (the array, a weight matrix, a bias row), read one row at a time; and the
  layout operations around it: two arrays of rows of 512 entries joined along the last axis, the lower and the upper
  half of an array of rows of 1024 entries, and the weights cut out of the arrays that stack them per block and layer.

  Entry `(b, s, o)` of the chain contracts row `(b, s)` with row `o` of the weight matrix (the product contracts
  the array's last axis with the matrix's axis 1), adds entry `o` of the bias (a row spread over every `(b, s)`) and
  takes the maximum with the zero word.
-/
import proofs.«407089_j83803401879983_3_alg».proof.Proof.ReadP
import proofs.«407089_j83803401879983_3_alg».proof.Proof.SpecParams

noncomputable section

namespace Cert.ReferenceIdeal.RefLin

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP

section Chain
variable {F : FTy → Type} [FloatOps F]

/-- The affine map then `max · 0`. -/
def linChain (H : (⟨S4x1024x1024, .f32⟩ : BufTy).Contents (Elt F)) (W : (⟨S1024x1024, .f32⟩ : BufTy).Contents (Elt F))
    (bias : (⟨S1024, .f32⟩ : BufTy).Contents (Elt F)) : (⟨S4x1024x1024, .f32⟩ : BufTy).Contents (Elt F) :=
  maximumf
    (addf (Host.dotGeneral dot_S4x1024x1024_S1024x1024_S4x1024x1024_2_1_01_0_n_n none H W)
      (broadcastInDim S4x1024x1024 ![0, 1, 2] bcast_S1x1x1024_S4x1024x1024_0_1_2
        (broadcastInDim S1x1x1024 ![2] bcast_S1024_S1x1x1024_2 bias)))
    (broadcastInDim S4x1024x1024 ![] bcast_S_S4x1024x1024 (constant (F := F) S_ .f32 0x00000000#32))

/-- Two arrays of rows of 512 entries joined along the last axis. -/
def catArr (C T : (⟨S4x1024x512, .f32⟩ : BufTy).Contents (Elt F)) : (⟨S4x1024x1024, .f32⟩ : BufTy).Contents (Elt F) :=
  concatenate S4x1024x1024 2 [⟨S4x1024x512, C⟩, ⟨S4x1024x512, T⟩] concatenates_S4x1024x512_S4x1024x512_S4x1024x1024_d2

/-- The lower halves of the rows. -/
def loArr (H : (⟨S4x1024x1024, .f32⟩ : BufTy).Contents (Elt F)) : (⟨S4x1024x512, .f32⟩ : BufTy).Contents (Elt F) :=
  extractStridedSlice S4x1024x512 ![0, 0, 0] H slices_S4x1024x1024_S4x1024x512_0_0_0

/-- The upper halves of the rows. -/
def hiArr (H : (⟨S4x1024x1024, .f32⟩ : BufTy).Contents (Elt F)) : (⟨S4x1024x512, .f32⟩ : BufTy).Contents (Elt F) :=
  extractStridedSlice S4x1024x512 ![0, 0, 512] H slices_S4x1024x1024_S4x1024x512_0_0_512

end Chain

/-! ## The layout operations at an index -/

section Layout
variable {α : Type}

/-- A row of 1024 entries spread over every `(b, s)` reads, at `(b, s, o)`, the row at `o`. -/
theorem biasSpread_apply (g : S1024.Idx → α) (b : Fin 4) (s : Fin 1024) (o : Fin 1024) :
    broadcastInDim S4x1024x1024 ![0, 1, 2] bcast_S1x1x1024_S4x1024x1024_0_1_2
      (broadcastInDim S1x1x1024 ![2] bcast_S1024_S1x1x1024_2 g) (ix3 b s o) = g (ix1 o) := by
  rw [broadcastInDim_apply _ bcast_S1x1x1024_S4x1024x1024_0_1_2 _ (ix3 b s o) (ix3 (0 : Fin 1) (0 : Fin 1) o) (fun a => match a with
    | ⟨0, _⟩ => by show 0 = if (1 : Nat) = 1 then 0 else b.val; rw [if_pos rfl]
    | ⟨1, _⟩ => by show 0 = if (1 : Nat) = 1 then 0 else s.val; rw [if_pos rfl]
    | ⟨2, _⟩ => by show o.val = if (1024 : Nat) = 1 then 0 else o.val; rw [if_neg (by decide)])]
  exact broadcastInDim_apply _ bcast_S1024_S1x1x1024_2 g (ix3 (0 : Fin 1) (0 : Fin 1) o) (ix1 o) (fun a => match a with
    | ⟨0, _⟩ => by show o.val = if (1024 : Nat) = 1 then 0 else o.val; rw [if_neg (by decide)])

/-- A scalar spread over the whole array reads the scalar everywhere. -/
theorem scalarArr_apply (y : S_.Idx → α) (i : S4x1024x1024.Idx) :
    broadcastInDim S4x1024x1024 ![] bcast_S_S4x1024x1024 y i = y ix0 :=
  broadcastInDim_apply _ bcast_S_S4x1024x1024 y i ix0 (fun a => a.elim0)

/-- The joined array at `(b, s, j)`: the specification's join of the two rows `(b, s)`. -/
theorem catArr_apply (C T : S4x1024x512.Idx → EReal) (b : Fin 4) (s : Fin 1024) (j : Fin 1024) :
    catArr (F := Ideal) C T (ix3 b s j) = Cert.Spec.cat (fun c => C (ix3 b s c)) (fun c => T (ix3 b s c)) j := by
  unfold catArr Cert.Spec.cat
  by_cases h : j.val < 512
  · rw [dif_pos h]
    exact concatenate_pair_apply_left 2 C T concatenates_S4x1024x512_S4x1024x512_S4x1024x1024_d2 (ix3 b s j) rfl
      (ix3 b s ⟨j.val, h⟩) (fun a => by
        match a with
        | ⟨0, _⟩ => rfl
        | ⟨1, _⟩ => rfl
        | ⟨2, _⟩ => rfl)
  · rw [dif_neg h]
    exact concatenate_pair_apply_right 2 C T concatenates_S4x1024x512_S4x1024x512_S4x1024x1024_d2 (ix3 b s j) rfl rfl
      (ix3 b s ⟨j.val - 512, by omega⟩)
      (fun a ha => by
        match a with
        | ⟨0, _⟩ => rfl
        | ⟨1, _⟩ => rfl
        | ⟨2, _⟩ => exact absurd rfl ha)
      (by show j.val - 512 + 512 = j.val; omega)

/-- The lower half at `(b, s, c)`. -/
theorem loArr_apply (H : S4x1024x1024.Idx → EReal) (b : Fin 4) (s : Fin 1024) (c : Fin 512) :
    loArr (F := Ideal) H (ix3 b s c) = Cert.Spec.lo (fun j => H (ix3 b s j)) c := by
  unfold loArr Cert.Spec.lo
  exact extractStridedSlice_apply ![0, 0, 0] H slices_S4x1024x1024_S4x1024x512_0_0_0 (ix3 b s c)
    (ix3 b s ⟨c.val, by omega⟩) (fun a => match a with
      | ⟨0, _⟩ => by show b.val = 0 + b.val; omega
      | ⟨1, _⟩ => by show s.val = 0 + s.val; omega
      | ⟨2, _⟩ => by show c.val = 0 + c.val; omega)

/-- The upper half at `(b, s, c)`. -/
theorem hiArr_apply (H : S4x1024x1024.Idx → EReal) (b : Fin 4) (s : Fin 1024) (c : Fin 512) :
    hiArr (F := Ideal) H (ix3 b s c) = Cert.Spec.hi (fun j => H (ix3 b s j)) c := by
  unfold hiArr Cert.Spec.hi
  exact extractStridedSlice_apply ![0, 0, 512] H slices_S4x1024x1024_S4x1024x512_0_0_512 (ix3 b s c)
    (ix3 b s ⟨c.val + 512, by omega⟩) (fun a => match a with
      | ⟨0, _⟩ => by show b.val = 0 + b.val; omega
      | ⟨1, _⟩ => by show s.val = 0 + s.val; omega
      | ⟨2, _⟩ => by show c.val + 512 = 512 + c.val; omega)

/-- A weight matrix cut out of the stacked weights: block `a`, layer `l`, at `(o, k)`. -/
theorem weight_apply (x4 : S3x2x1024x1024.Idx → α) (a l : Nat) (ha : a < 3) (hl : l < 2)
    (h : S3x2x1024x1024.Slices ![a, l, 0, 0] S1x1x1024x1024) (o k : Fin 1024) :
    shapeCast S1024x1024 (extractStridedSlice S1x1x1024x1024 ![a, l, 0, 0] x4 h) shapeCasts_S1x1x1024x1024_S1024x1024 (ix2 o k)
      = x4 (ix4 ⟨a, ha⟩ ⟨l, hl⟩ o k) := by
  rw [shapeCast_apply _ shapeCasts_S1x1x1024x1024_S1024x1024 (ix2 o k) (ix4 (0 : Fin 1) (0 : Fin 1) o k)
    (by rewrite [Shape.rowMajor_val_four, Shape.rowMajor_val_two]
        show ((0 * 1 + 0) * 1024 + o.val) * 1024 + k.val = o.val * 1024 + k.val; omega)]
  exact extractStridedSlice_apply ![a, l, 0, 0] x4 h _ (ix4 ⟨a, ha⟩ ⟨l, hl⟩ o k) (fun e => match e with
    | ⟨0, _⟩ => by show a = a + 0; omega
    | ⟨1, _⟩ => by show l = l + 0; omega
    | ⟨2, _⟩ => by show o.val = 0 + o.val; omega
    | ⟨3, _⟩ => by show k.val = 0 + k.val; omega)

/-- A bias row cut out of the stacked biases: block `a`, layer `l`, at `o`. -/
theorem bias_apply (x5 : S3x2x1024.Idx → α) (a l : Nat) (ha : a < 3) (hl : l < 2)
    (h : S3x2x1024.Slices ![a, l, 0] S1x1x1024) (o : Fin 1024) :
    shapeCast S1024 (extractStridedSlice S1x1x1024 ![a, l, 0] x5 h) shapeCasts_S1x1x1024_S1024 (ix1 o)
      = x5 (ix3 ⟨a, ha⟩ ⟨l, hl⟩ o) := by
  rw [shapeCast_apply _ shapeCasts_S1x1x1024_S1024 (ix1 o) (ix3 (0 : Fin 1) (0 : Fin 1) o)
    (by rewrite [Shape.rowMajor_val_three, Shape.rowMajor_val_one]
        show (0 * 1 + 0) * 1024 + o.val = o.val; omega)]
  exact extractStridedSlice_apply ![a, l, 0] x5 h _ (ix3 ⟨a, ha⟩ ⟨l, hl⟩ o) (fun e => match e with
    | ⟨0, _⟩ => by show a = a + 0; omega
    | ⟨1, _⟩ => by show l = l + 0; omega
    | ⟨2, _⟩ => by show o.val = 0 + o.val; omega)

/-- A row of 512 entries cut out of a stack of three: row `a`, at `k`. -/
theorem row_apply (x : S3x512.Idx → α) (a : Nat) (ha : a < 3) (h : S3x512.Slices ![a, 0] S1x512) (k : Fin 512) :
    shapeCast S512 (extractStridedSlice S1x512 ![a, 0] x h) shapeCasts_S1x512_S512 (ix1 k) = x (ix2 ⟨a, ha⟩ k) := by
  rw [shapeCast_apply _ shapeCasts_S1x512_S512 (ix1 k) (ix2 (0 : Fin 1) k)
    (by rewrite [Shape.rowMajor_val_two, Shape.rowMajor_val_one]
        show 0 * 512 + k.val = k.val; omega)]
  exact extractStridedSlice_apply ![a, 0] x h _ (ix2 ⟨a, ha⟩ k) (fun e => match e with
    | ⟨0, _⟩ => by show a = a + 0; omega
    | ⟨1, _⟩ => by show k.val = 0 + k.val; omega)

end Layout

/-! ## The chain at an index -/

/-- The product at `(b, s, o)`: row `(b, s)` of the array against row `o` of the matrix. -/
theorem dot_apply (H : FVec Ideal S4x1024x1024 .f32) (W : FVec Ideal S1024x1024 .f32)
    (b : Fin 4) (s : Fin 1024) (o : Fin 1024) :
    Host.dotGeneral (F := Ideal) dot_S4x1024x1024_S1024x1024_S4x1024x1024_2_1_01_0_n_n none H W (ix3 b s o)
      = ∑ k : Fin 1024, H (ix3 b s k) * W (ix2 o k) := by
  simp only [Host.dotGeneral]
  rw [Ideal.dotGeneral_apply, ← Equiv.sum_comp (ValueIdx.contrEquiv1 dot_S4x1024x1024_S1024x1024_S4x1024x1024_2_1_01_0_n_n 1024 rfl rfl).symm]
  refine Finset.sum_congr rfl fun k _ => ?_
  have hk := ValueIdx.contrEquiv1_symm_val dot_S4x1024x1024_S1024x1024_S4x1024x1024_2_1_01_0_n_n 1024 rfl rfl k
  have el : dot_S4x1024x1024_S1024x1024_S4x1024x1024_2_1_01_0_n_n.lhsIdx (ix3 b s o)
      ((ValueIdx.contrEquiv1 dot_S4x1024x1024_S1024x1024_S4x1024x1024_2_1_01_0_n_n 1024 rfl rfl).symm k) = ix3 b s k :=
    funext fun a => Fin.ext (by
      match a with
      | ⟨0, _⟩ => exact lhs_main_v35_0 _ _
      | ⟨1, _⟩ => exact lhs_main_v35_1 _ _
      | ⟨2, _⟩ => exact (lhs_main_v35_2 _ _).trans hk)
  have er : dot_S4x1024x1024_S1024x1024_S4x1024x1024_2_1_01_0_n_n.rhsIdx (ix3 b s o)
      ((ValueIdx.contrEquiv1 dot_S4x1024x1024_S1024x1024_S4x1024x1024_2_1_01_0_n_n 1024 rfl rfl).symm k) = ix2 o k :=
    funext fun a => Fin.ext (by
      match a with
      | ⟨0, _⟩ => exact rhs_main_v35_0 _ _
      | ⟨1, _⟩ => exact (rhs_main_v35_1 _ _).trans hk)
  rw [el, er]

/-- The chain at `(b, s, o)` is entry `o` of the specification's affine map then `max · 0` of row `(b, s)`, the
    weight and the bias read by their coordinates. -/
theorem linChain_apply (H : (⟨S4x1024x1024, .f32⟩ : BufTy).Contents (Elt Ideal)) (W : (⟨S1024x1024, .f32⟩ : BufTy).Contents (Elt Ideal))
    (bias : (⟨S1024, .f32⟩ : BufTy).Contents (Elt Ideal)) (b : Fin 4) (s : Fin 1024) (o : Fin 1024) :
    linChain H W bias (ix3 b s o)
      = Cert.Spec.lin (fun k => H (ix3 b s k)) (fun o k => W (ix2 o k)) (fun o => bias (ix1 o)) o := by
  unfold linChain
  show max (_ + _) _ = _
  rw [dot_apply, biasSpread_apply, scalarArr_apply]
  show max _ (Ideal.ofBits .f32 0x00000000#32) = _
  rw [Ideal.ofBits_zero_f32]
  rfl

end Cert.ReferenceIdeal.RefLin

end
-- ==== Proof.LibGatherRows3.lean ====
/-
  The host's gather of whole rows by a rank-3 array of start indices, read at an index, at generic extents.
  `gather_rows3_apply` — an [R, D] matrix indexed by an [A, B, 1] array of 32-bit words (`x[idx]` of a matrix by a
  rank-2 array of ids: axis 2 of the result an offset axis running over the whole row, the operand's axis 0 collapsed
  and named by the start index, the index vector on axis 2 of the start indices, slices of one row): entry
  `(a, b, j)` of the result is the operand at row `idx (a, b, 0)`, read signed and clamped into `[0, R - 1]`, and
  column `j`.
-/
import Idealize.ShloMosaic.PureOps.ShapeOps
import Idealize.ShloMosaic.Lib.ValueIdx

noncomputable section

namespace Cert.LibGatherRows3

open Idealize.ShloMosaic Idealize.ShloMosaic.ValueIdx

/-- The dimension numbers of the layout (operand `[R, D]`, start indices `[A, B, 1]`, result `[A, B, D]`). -/
private abbrev rowDims (R D A B : ℕ)
    (wf : GatherDims.WF (⟨2, ![R, D]⟩ : Shape) (⟨3, ![A, B, 1]⟩ : Shape) (⟨3, ![A, B, D]⟩ : Shape) [2] [0] [] [0] [] 2 ![1, D]) :
    GatherDims (⟨2, ![R, D]⟩ : Shape) (⟨3, ![A, B, 1]⟩ : Shape) (⟨3, ![A, B, D]⟩ : Shape) :=
  ⟨[2], [0], [], [], [0], 2, ![1, D], wf⟩

/-- Rows of a matrix indexed by a rank-3 array of words whose last axis is the index vector's. Axis 0 of the operand
    is collapsed and named by the start index map (its start is the word `idx (a, b, 0)` read as a signed integer and
    clamped into `[0, R - 1]`, the slice being one row); axis 1 is the one kept axis, read by the result's offset
    axis 2 from start 0 (the slice is the whole row): entry `(a, b, j)` of the gather is the operand at that row and
    column `j`. -/
theorem gather_rows3_apply {α : Type} {R D A B : ℕ} (hR : 0 < R)
    (d : GatherDims (⟨2, ![R, D]⟩ : Shape) (⟨3, ![A, B, 1]⟩ : Shape) (⟨3, ![A, B, D]⟩ : Shape))
    (hod : d.offsetDims = [2]) (hcs : d.collapsedSliceDims = [0]) (hob : d.operandBatchingDims = [])
    (hsb : d.startIndicesBatchingDims = []) (hsim : d.startIndexMap = [0]) (hiv : d.indexVectorDim = 2)
    (hss : d.sliceSizes = ![1, D])
    (x : (⟨2, ![R, D]⟩ : Shape).Idx → α) (idx : IVec (⟨3, ![A, B, 1]⟩ : Shape) 32) (a : Fin A) (b : Fin B) (j : Fin D) :
    Host.gather d x idx (ix3 a b j)
      = x (ix2 ⟨min (idx (ix3 a b (0 : Fin 1))).toInt.toNat (R - 1), by omega⟩ j) := by
  obtain ⟨od, cs, ob, sb, sim, iv, ss, wf⟩ := d
  dsimp only at hod hcs hob hsb hsim hiv hss
  subst hod hcs hob hsb hsim hiv hss
  unfold Host.gather
  congr 1
  funext ax
  refine Fin.ext ?_
  match ax with
  | ⟨0, _⟩ =>
    show (rowDims R D A B wf).start (ix3 a b j) idx 0 + (rowDims R D A B wf).batchCoord (ix3 a b j) 0
      + (rowDims R D A B wf).offCoord (ix3 a b j) 0 = min (idx (ix3 a b (0 : Fin 1))).toInt.toNat (R - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims R D A B wf).startIndexMap from List.mem_singleton.mpr rfl)]
    have hsi : ∀ c, (rowDims R D A B wf).siIdx (ix3 a b j) c = ix3 a b (0 : Fin 1) := by
      intro c
      funext e; refine Fin.ext ?_
      match e with
      | ⟨0, _⟩ => rfl
      | ⟨1, _⟩ => rfl
      | ⟨2, _⟩ => exact Nat.lt_one_iff.mp c.isLt
    rw [hsi]
    rfl
  | ⟨1, _⟩ =>
    show (rowDims R D A B wf).start (ix3 a b j) idx 1 + (rowDims R D A B wf).batchCoord (ix3 a b j) 1
      + (rowDims R D A B wf).offCoord (ix3 a b j) 1 = j.val
    have hns : (1 : Fin 2) ∉ (rowDims R D A B wf).startIndexMap :=
      fun h => Nat.one_ne_zero (congrArg Fin.val (List.mem_singleton.mp h))
    rw [GatherDims.batchCoord_eq_zero _ _ _ List.not_mem_nil]
    unfold GatherDims.start
    rw [dif_neg hns]
    simp only [Nat.add_zero, Nat.zero_add]
    have hk : (1 : Fin 2) ∈ (rowDims R D A B wf).sKept :=
      (GatherDims.mem_sKept _ _).mpr ⟨fun h => Nat.one_ne_zero (congrArg Fin.val (List.mem_singleton.mp h)), List.not_mem_nil⟩
    unfold GatherDims.offCoord
    rw [dif_pos hk]
    rfl

end Cert.LibGatherRows3

end
-- ==== Proof.RefBlocks.lean ====
/-
  One residual block of the reference as array operations over its operands, read one row at a time, and the embedded
  rows the first layer norm starts from.

  A block joins the context array and the token array along the last axis, sends the joined rows through two affine
  maps each followed by `max · 0` (the hidden rows), adds the lower halves of the hidden rows to the context rows and
  the upper halves to the token rows, and layer-normalises both sums. Read at `(b, s, ·)`, each of these arrays is the
  specification's row built from the operands' rows `(b, s)`.

  The embedded rows: the token ids, first normalised (a negative id is moved up by the table's height; an id that is
  not negative is kept), index the rows of the table; entry `(b, s, c)` is the table at the row of id `(b, s)`,
  clamped into the table, and column `c`.
-/
import proofs.«407089_j83803401879983_3_alg».proof.Proof.RefLN
import proofs.«407089_j83803401879983_3_alg».proof.Proof.RefLin
import proofs.«407089_j83803401879983_3_alg».proof.Proof.LibGatherRows3

noncomputable section

namespace Cert.ReferenceIdeal.RefBlocks

open Cert.ReferenceIdeal Cert.ReferenceIdeal.Gen Idealize.ShloMosaic Idealize.ShloMosaic.TcCoe Idealize.SL.Sem
  Idealize.ShloMosaic.StableHlo Idealize.ShloMosaic.ValueIdx Cert.ReferenceIdeal.ReadP
  Cert.ReferenceIdeal.RefLN Cert.ReferenceIdeal.RefLin

section Arrays
variable {F : FTy → Type} [FloatOps F]

/-- The hidden rows of a block: the joined rows through the block's two affine maps. -/
def hidArr (C T : (⟨S4x1024x512, .f32⟩ : BufTy).Contents (Elt F))
    (W1 : (⟨S1024x1024, .f32⟩ : BufTy).Contents (Elt F)) (b1 : (⟨S1024, .f32⟩ : BufTy).Contents (Elt F))
    (W2 : (⟨S1024x1024, .f32⟩ : BufTy).Contents (Elt F)) (b2 : (⟨S1024, .f32⟩ : BufTy).Contents (Elt F)) :
    (⟨S4x1024x1024, .f32⟩ : BufTy).Contents (Elt F) :=
  linChain (linChain (catArr C T) W1 b1) W2 b2

/-- The context rows after a block: the context rows plus the lower halves of the hidden rows, layer-normalised. -/
def ctxArr (C : (⟨S4x1024x512, .f32⟩ : BufTy).Contents (Elt F)) (H : (⟨S4x1024x1024, .f32⟩ : BufTy).Contents (Elt F))
    (G B : (⟨S512, .f32⟩ : BufTy).Contents (Elt F)) : (⟨S4x1024x512, .f32⟩ : BufTy).Contents (Elt F) :=
  lnChain (addf C (loArr H)) G B

/-- The token rows after a block: the token rows plus the upper halves of the hidden rows, layer-normalised. -/
def tokArr (T : (⟨S4x1024x512, .f32⟩ : BufTy).Contents (Elt F)) (H : (⟨S4x1024x1024, .f32⟩ : BufTy).Contents (Elt F))
    (G B : (⟨S512, .f32⟩ : BufTy).Contents (Elt F)) : (⟨S4x1024x512, .f32⟩ : BufTy).Contents (Elt F) :=
  lnChain (addf T (hiArr H)) G B

end Arrays

/-! ## A block's arrays at an index -/

/-- The hidden rows at `(b, s, j)`: the specification's hidden row of block `bi`, when the operands' rows `(b, s)`
    are the context row and the token row and the weights are the block's. -/
theorem hidArr_row (P : Cert.Spec.Params) (bi : Fin 3) (ctx tok : Fin 512 → EReal)
    (C T : (⟨S4x1024x512, .f32⟩ : BufTy).Contents (Elt Ideal))
    (W1 : (⟨S1024x1024, .f32⟩ : BufTy).Contents (Elt Ideal)) (b1 : (⟨S1024, .f32⟩ : BufTy).Contents (Elt Ideal))
    (W2 : (⟨S1024x1024, .f32⟩ : BufTy).Contents (Elt Ideal)) (b2 : (⟨S1024, .f32⟩ : BufTy).Contents (Elt Ideal))
    (b : Fin 4) (s : Fin 1024)
    (hC : ∀ c, C (ix3 b s c) = ctx c) (hT : ∀ c, T (ix3 b s c) = tok c)
    (hW1 : ∀ o k, W1 (ix2 o k) = P.Wb bi 0 o k) (hb1 : ∀ o, b1 (ix1 o) = P.bb bi 0 o)
    (hW2 : ∀ o k, W2 (ix2 o k) = P.Wb bi 1 o k) (hb2 : ∀ o, b2 (ix1 o) = P.bb bi 1 o) (j : Fin 1024) :
    hidArr C T W1 b1 W2 b2 (ix3 b s j) = Cert.Spec.hid P bi ctx tok j := by
  unfold hidArr Cert.Spec.hid
  rw [linChain_apply]
  have e1 : (fun k => linChain (catArr C T) W1 b1 (ix3 b s k))
      = Cert.Spec.lin (Cert.Spec.cat ctx tok) (P.Wb bi 0) (P.bb bi 0) := by
    funext k
    rw [linChain_apply]
    have e0 : (fun k => catArr (F := Ideal) C T (ix3 b s k)) = Cert.Spec.cat ctx tok := by
      funext k
      rw [catArr_apply, funext hC, funext hT]
    rw [e0, funext fun o => funext (hW1 o), funext hb1]
  rw [e1, funext fun o => funext (hW2 o), funext hb2]

/-- The context rows after a block at `(b, s, c)`. -/
theorem ctxArr_row (ctx : Fin 512 → EReal) (hid : Fin 1024 → EReal) (g sh : Fin 512 → EReal)
    (C : (⟨S4x1024x512, .f32⟩ : BufTy).Contents (Elt Ideal)) (H : (⟨S4x1024x1024, .f32⟩ : BufTy).Contents (Elt Ideal))
    (G B : (⟨S512, .f32⟩ : BufTy).Contents (Elt Ideal)) (b : Fin 4) (s : Fin 1024)
    (hC : ∀ c, C (ix3 b s c) = ctx c) (hH : ∀ j, H (ix3 b s j) = hid j)
    (hG : ∀ k, G (ix1 k) = g k) (hB : ∀ k, B (ix1 k) = sh k) (c : Fin 512) :
    ctxArr C H G B (ix3 b s c) = Cert.Spec.ln (fun c => ctx c + Cert.Spec.lo hid c) g sh c := by
  unfold ctxArr
  rw [lnChain_apply]
  have e : (fun k => addf C (loArr H) (ix3 b s k)) = fun c => ctx c + Cert.Spec.lo hid c := by
    funext k
    show C (ix3 b s k) + loArr H (ix3 b s k) = _
    rw [loArr_apply, hC, funext hH]
  rw [e, funext hG, funext hB]

/-- The token rows after a block at `(b, s, c)`. -/
theorem tokArr_row (tok : Fin 512 → EReal) (hid : Fin 1024 → EReal) (g sh : Fin 512 → EReal)
    (T : (⟨S4x1024x512, .f32⟩ : BufTy).Contents (Elt Ideal)) (H : (⟨S4x1024x1024, .f32⟩ : BufTy).Contents (Elt Ideal))
    (G B : (⟨S512, .f32⟩ : BufTy).Contents (Elt Ideal)) (b : Fin 4) (s : Fin 1024)
    (hT : ∀ c, T (ix3 b s c) = tok c) (hH : ∀ j, H (ix3 b s j) = hid j)
    (hG : ∀ k, G (ix1 k) = g k) (hB : ∀ k, B (ix1 k) = sh k) (c : Fin 512) :
    tokArr T H G B (ix3 b s c) = Cert.Spec.ln (fun c => tok c + Cert.Spec.hi hid c) g sh c := by
  unfold tokArr
  rw [lnChain_apply]
  have e : (fun k => addf T (hiArr H) (ix3 b s k)) = fun c => tok c + Cert.Spec.hi hid c := by
    funext k
    show T (ix3 b s k) + hiArr H (ix3 b s k) = _
    rw [hiArr_apply, hT, funext hH]
  rw [e, funext hG, funext hB]

/-! ## The embedded rows -/

/-- A signed comparison "below zero" of a word that is not negative is the zero bit. -/
theorem slt_zero_of_nonneg (x : BitVec 32) (h : 0 ≤ x.toInt) : IntOp.cmpi .slt x 0#32 = 0#1 := by
  unfold IntOp.cmpi
  show BitVec.ofBool (x.slt 0#32) = 0#1
  have : x.slt 0#32 = false := by
    rw [BitVec.slt]
    simp only [decide_eq_false_iff_not, not_lt]
    simpa using h
  rw [this]; rfl

/-- The normalised ids, kept as a unit column, at `(b, s, 0)`: the id itself when it is not negative. -/
theorem ids_apply (x0 : (⟨S4x1024, .i32⟩ : BufTy).Contents (Elt Ideal)) (b : Fin 4) (s : Fin 1024)
    (h : 0 ≤ (x0 (ix2 b s)).toInt) (u : Fin 1) :
    val_main_v5 (F := Ideal) x0 (ix3 b s u) = x0 (ix2 b s) := by
  rw [val_main_v5_apply]
  have e : idx_main_v5 (ix3 b s u) = ix2 b s := funext fun a => Fin.ext (by
    match a with
    | ⟨0, _⟩ => rfl
    | ⟨1, _⟩ => rfl)
  rw [e, val_main_v4_apply, val_main_v1_apply, val_main_v0_apply, val_main_c_apply, slt_zero_of_nonneg _ h, select_zero]

/-- The gathered rows at `(b, s, c)`: the table at the row the id `(b, s)` reads and column `c`. -/
theorem embedded_row (x0 : (⟨S4x1024, .i32⟩ : BufTy).Contents (Elt Ideal)) (x1 : (⟨S32000x512, .f32⟩ : BufTy).Contents (Elt Ideal))
    (b : Fin 4) (s : Fin 1024) (h : 0 ≤ (x0 (ix2 b s)).toInt) (c : Fin 512) :
    val_main_v6 (F := Ideal) x0 x1 (ix3 b s c) = Cert.Spec.embRow x1 (x0 (ix2 b s)) c := by
  unfold val_main_v6
  rw [Cert.LibGatherRows3.gather_rows3_apply (by decide) gather_S32000x512_S4x1024x1_S4x1024x512_2_0_n_n_0_2_1512
    rfl rfl rfl rfl rfl rfl rfl x1 (val_main_v5 (F := Ideal) x0) b s c]
  show x1 _ = x1 (ix2 (Cert.Spec.rowOf (x0 (ix2 b s))) c)
  refine congrArg x1 (funext fun a => Fin.ext ?_)
  match a with
  | ⟨0, _⟩ =>
    exact congrArg (fun w : BitVec 32 => min w.toInt.toNat (32000 - 1)) (ids_apply x0 b s h (0 : Fin 1))
  | ⟨1, _⟩ => rfl

end Cert.ReferenceIdeal.RefBlocks

end
-- ==== Proof.RefValue.lean ====
import proofs.«407089_j83803401879983_3_alg».proof.Proof.RefBlocks

noncomputable section

namespace Cert.ReferenceIdeal.RefValue

open Idealize.ShloMosaic Idealize.ShloMosaic.ValueIdx Cert.ReferenceIdeal Cert.ReferenceIdeal.ReadP

open Cert.ReferenceIdeal.Gen Idealize.ShloMosaic.TcCoe Idealize.SL.Sem Idealize.ShloMosaic.StableHlo
  Cert.ReferenceIdeal.RefLN Cert.ReferenceIdeal.RefLin Cert.ReferenceIdeal.RefBlocks

/-! ## The stages as chains of their operands

Each named stage below is, operation for operation, the layer-norm chain, the hidden-row chain or a block's context or
token chain of earlier stages: the two sides unfold to the same operations in the same order. -/

section Stages
variable (x0 : (⟨S4x1024, .i32⟩ : BufTy).Contents (Elt Ideal)) (x1 : (⟨S32000x512, .f32⟩ : BufTy).Contents (Elt Ideal))
  (x2 x3 : (⟨S512, .f32⟩ : BufTy).Contents (Elt Ideal)) (x4 : (⟨S3x2x1024x1024, .f32⟩ : BufTy).Contents (Elt Ideal))
  (x5 : (⟨S3x2x1024, .f32⟩ : BufTy).Contents (Elt Ideal)) (x6 x7 x8 x9 : (⟨S3x512, .f32⟩ : BufTy).Contents (Elt Ideal))

/-- The token array before the first block: the layer norm of the embedded rows. -/
theorem tok0_eq : val_main_v30 (F := Ideal) x0 x1 x2 x3 = lnChain (val_main_v6 x0 x1) x2 x3 := rfl

/-- The hidden rows of block 1. -/
theorem hid1_eq : val_main_v50 (F := Ideal) x0 x1 x2 x3 x4 x5
    = hidArr val_main_v31 (val_main_v30 x0 x1 x2 x3) (val_main_v34 x4) (val_main_v37 x5) (val_main_v43 x4) (val_main_v46 x5) := rfl

/-- The context array after block 1. -/
theorem ctx1_eq : val_main_v80 (F := Ideal) x0 x1 x2 x3 x4 x5 x6 x7
    = ctxArr val_main_v31 (val_main_v50 x0 x1 x2 x3 x4 x5) (val_main_v54 x6) (val_main_v56 x7) := rfl

/-- The token array after block 1. -/
theorem tok1_eq : val_main_v110 (F := Ideal) x0 x1 x2 x3 x4 x5 x8 x9
    = tokArr (val_main_v30 x0 x1 x2 x3) (val_main_v50 x0 x1 x2 x3 x4 x5) (val_main_v84 x8) (val_main_v86 x9) := rfl

/-- The hidden rows of block 2. -/
theorem hid2_eq : val_main_v129 (F := Ideal) x0 x1 x2 x3 x4 x5 x6 x7 x8 x9
    = hidArr (val_main_v80 x0 x1 x2 x3 x4 x5 x6 x7) (val_main_v110 x0 x1 x2 x3 x4 x5 x8 x9) (val_main_v113 x4) (val_main_v116 x5)
        (val_main_v122 x4) (val_main_v125 x5) := rfl

/-- The context array after block 2. -/
theorem ctx2_eq : val_main_v159 (F := Ideal) x0 x1 x2 x3 x4 x5 x6 x7 x8 x9
    = ctxArr (val_main_v80 x0 x1 x2 x3 x4 x5 x6 x7) (val_main_v129 x0 x1 x2 x3 x4 x5 x6 x7 x8 x9) (val_main_v133 x6) (val_main_v135 x7) := rfl

/-- The token array after block 2. -/
theorem tok2_eq : val_main_v189 (F := Ideal) x0 x1 x2 x3 x4 x5 x6 x7 x8 x9
    = tokArr (val_main_v110 x0 x1 x2 x3 x4 x5 x8 x9) (val_main_v129 x0 x1 x2 x3 x4 x5 x6 x7 x8 x9) (val_main_v163 x8) (val_main_v165 x9) := rfl

/-- The hidden rows of block 3. -/
theorem hid3_eq : val_main_v208 (F := Ideal) x0 x1 x2 x3 x4 x5 x6 x7 x8 x9
    = hidArr (val_main_v159 x0 x1 x2 x3 x4 x5 x6 x7 x8 x9) (val_main_v189 x0 x1 x2 x3 x4 x5 x6 x7 x8 x9) (val_main_v192 x4) (val_main_v195 x5)
        (val_main_v201 x4) (val_main_v204 x5) := rfl

/-- The token array after block 3. -/
theorem tok3_eq : val_main_v268 (F := Ideal) x0 x1 x2 x3 x4 x5 x6 x7 x8 x9
    = tokArr (val_main_v189 x0 x1 x2 x3 x4 x5 x6 x7 x8 x9) (val_main_v208 x0 x1 x2 x3 x4 x5 x6 x7 x8 x9) (val_main_v242 x8) (val_main_v244 x9) := rfl

/-- The zero context array is the specification's zero row everywhere. -/
theorem ctx0_row (i : S4x1024x512.Idx) : val_main_v31 (F := Ideal) i = 0 :=
  (val_main_v31_apply i).trans ((val_main_cst_5_apply _).trans Ideal.ofBits_zero_f32)

end Stages

/-- The reference's last stage at `(b, s, v)`, for token ids that are not negative, is the specification's logit. -/
theorem result_apply (x0 : (⟨S4x1024, .i32⟩ : BufTy).Contents (Elt Ideal)) (x1 : (⟨S32000x512, .f32⟩ : BufTy).Contents (Elt Ideal))
    (x2 x3 : (⟨S512, .f32⟩ : BufTy).Contents (Elt Ideal)) (x4 : (⟨S3x2x1024x1024, .f32⟩ : BufTy).Contents (Elt Ideal))
    (x5 : (⟨S3x2x1024, .f32⟩ : BufTy).Contents (Elt Ideal)) (x6 x7 x8 x9 : (⟨S3x512, .f32⟩ : BufTy).Contents (Elt Ideal))
    (x10 : (⟨S32000x512, .f32⟩ : BufTy).Contents (Elt Ideal)) (x11 : (⟨S32000, .f32⟩ : BufTy).Contents (Elt Ideal))
    (hpos : ∀ i : S4x1024.Idx, 0 ≤ (x0 i).toInt) (b : Fin 4) (s : Fin 1024) (v : Fin 32000) :
    val_main_v272 (F := Ideal) x0 x1 x2 x3 x4 x5 x6 x7 x8 x9 x10 x11 (ix3 b s v)
      = Cert.Spec.out x0 x1 x2 x3 x4 x5 x6 x7 x8 x9 x10 x11 b s v := by
  -- the rows of token (b, s), stage by stage
  have t0 : ∀ c, val_main_v30 (F := Ideal) x0 x1 x2 x3 (ix3 b s c) = Cert.Spec.tok0 (Cert.Spec.params x2 x3 x4 x5 x6 x7 x8 x9) (Cert.Spec.embRow x1 (x0 (ix2 b s))) c := fun c => by
    rw [tok0_eq, lnChain_apply, funext (embedded_row x0 x1 b s (hpos (ix2 b s)))]
    rfl
  have c0 : ∀ c, val_main_v31 (F := Ideal) (ix3 b s c) = Cert.Spec.ctx0 c := fun c => ctx0_row _
  have h1 : ∀ j, val_main_v50 (F := Ideal) x0 x1 x2 x3 x4 x5 (ix3 b s j)
      = Cert.Spec.hid (Cert.Spec.params x2 x3 x4 x5 x6 x7 x8 x9) 0 Cert.Spec.ctx0 (Cert.Spec.tok0 (Cert.Spec.params x2 x3 x4 x5 x6 x7 x8 x9) (Cert.Spec.embRow x1 (x0 (ix2 b s)))) j := fun j => by
    rw [hid1_eq]
    exact hidArr_row (Cert.Spec.params x2 x3 x4 x5 x6 x7 x8 x9) 0 Cert.Spec.ctx0 (Cert.Spec.tok0 (Cert.Spec.params x2 x3 x4 x5 x6 x7 x8 x9) (Cert.Spec.embRow x1 (x0 (ix2 b s))))
      val_main_v31 (val_main_v30 x0 x1 x2 x3) (val_main_v34 x4) (val_main_v37 x5) (val_main_v43 x4) (val_main_v46 x5) b s c0 t0
      (fun o k => weight_apply x4 0 0 (by decide) (by decide) _ o k) (fun o => bias_apply x5 0 0 (by decide) (by decide) _ o)
      (fun o k => weight_apply x4 0 1 (by decide) (by decide) _ o k) (fun o => bias_apply x5 0 1 (by decide) (by decide) _ o) j
  have c1 : ∀ c, val_main_v80 (F := Ideal) x0 x1 x2 x3 x4 x5 x6 x7 (ix3 b s c) = Cert.Spec.ctx1 (Cert.Spec.params x2 x3 x4 x5 x6 x7 x8 x9) (Cert.Spec.embRow x1 (x0 (ix2 b s))) c := fun c => by
    rw [ctx1_eq]
    exact ctxArr_row Cert.Spec.ctx0 (Cert.Spec.hid (Cert.Spec.params x2 x3 x4 x5 x6 x7 x8 x9) 0 Cert.Spec.ctx0 (Cert.Spec.tok0 (Cert.Spec.params x2 x3 x4 x5 x6 x7 x8 x9) (Cert.Spec.embRow x1 (x0 (ix2 b s)))))
      ((Cert.Spec.params x2 x3 x4 x5 x6 x7 x8 x9).cng 0) ((Cert.Spec.params x2 x3 x4 x5 x6 x7 x8 x9).cnb 0) val_main_v31 (val_main_v50 x0 x1 x2 x3 x4 x5) (val_main_v54 x6) (val_main_v56 x7) b s c0 h1
      (fun k => row_apply x6 0 (by decide) _ k) (fun k => row_apply x7 0 (by decide) _ k) c
  have t1 : ∀ c, val_main_v110 (F := Ideal) x0 x1 x2 x3 x4 x5 x8 x9 (ix3 b s c) = Cert.Spec.tok1 (Cert.Spec.params x2 x3 x4 x5 x6 x7 x8 x9) (Cert.Spec.embRow x1 (x0 (ix2 b s))) c := fun c => by
    rw [tok1_eq]
    exact tokArr_row (Cert.Spec.tok0 (Cert.Spec.params x2 x3 x4 x5 x6 x7 x8 x9) (Cert.Spec.embRow x1 (x0 (ix2 b s)))) (Cert.Spec.hid (Cert.Spec.params x2 x3 x4 x5 x6 x7 x8 x9) 0 Cert.Spec.ctx0 (Cert.Spec.tok0 (Cert.Spec.params x2 x3 x4 x5 x6 x7 x8 x9) (Cert.Spec.embRow x1 (x0 (ix2 b s)))))
      ((Cert.Spec.params x2 x3 x4 x5 x6 x7 x8 x9).tng 0) ((Cert.Spec.params x2 x3 x4 x5 x6 x7 x8 x9).tnb 0) (val_main_v30 x0 x1 x2 x3) (val_main_v50 x0 x1 x2 x3 x4 x5) (val_main_v84 x8) (val_main_v86 x9) b s t0 h1
      (fun k => row_apply x8 0 (by decide) _ k) (fun k => row_apply x9 0 (by decide) _ k) c
  have h2 : ∀ j, val_main_v129 (F := Ideal) x0 x1 x2 x3 x4 x5 x6 x7 x8 x9 (ix3 b s j)
      = Cert.Spec.hid (Cert.Spec.params x2 x3 x4 x5 x6 x7 x8 x9) 1 (Cert.Spec.ctx1 (Cert.Spec.params x2 x3 x4 x5 x6 x7 x8 x9) (Cert.Spec.embRow x1 (x0 (ix2 b s)))) (Cert.Spec.tok1 (Cert.Spec.params x2 x3 x4 x5 x6 x7 x8 x9) (Cert.Spec.embRow x1 (x0 (ix2 b s)))) j := fun j => by
    rw [hid2_eq]
    exact hidArr_row (Cert.Spec.params x2 x3 x4 x5 x6 x7 x8 x9) 1 (Cert.Spec.ctx1 (Cert.Spec.params x2 x3 x4 x5 x6 x7 x8 x9) (Cert.Spec.embRow x1 (x0 (ix2 b s)))) (Cert.Spec.tok1 (Cert.Spec.params x2 x3 x4 x5 x6 x7 x8 x9) (Cert.Spec.embRow x1 (x0 (ix2 b s))))
      (val_main_v80 x0 x1 x2 x3 x4 x5 x6 x7) (val_main_v110 x0 x1 x2 x3 x4 x5 x8 x9) (val_main_v113 x4) (val_main_v116 x5) (val_main_v122 x4) (val_main_v125 x5)
      b s c1 t1
      (fun o k => weight_apply x4 1 0 (by decide) (by decide) _ o k) (fun o => bias_apply x5 1 0 (by decide) (by decide) _ o)
      (fun o k => weight_apply x4 1 1 (by decide) (by decide) _ o k) (fun o => bias_apply x5 1 1 (by decide) (by decide) _ o) j
  have c2 : ∀ c, val_main_v159 (F := Ideal) x0 x1 x2 x3 x4 x5 x6 x7 x8 x9 (ix3 b s c) = Cert.Spec.ctx2 (Cert.Spec.params x2 x3 x4 x5 x6 x7 x8 x9) (Cert.Spec.embRow x1 (x0 (ix2 b s))) c := fun c => by
    rw [ctx2_eq]
    exact ctxArr_row (Cert.Spec.ctx1 (Cert.Spec.params x2 x3 x4 x5 x6 x7 x8 x9) (Cert.Spec.embRow x1 (x0 (ix2 b s)))) (Cert.Spec.hid (Cert.Spec.params x2 x3 x4 x5 x6 x7 x8 x9) 1 (Cert.Spec.ctx1 (Cert.Spec.params x2 x3 x4 x5 x6 x7 x8 x9) (Cert.Spec.embRow x1 (x0 (ix2 b s)))) (Cert.Spec.tok1 (Cert.Spec.params x2 x3 x4 x5 x6 x7 x8 x9) (Cert.Spec.embRow x1 (x0 (ix2 b s)))))
      ((Cert.Spec.params x2 x3 x4 x5 x6 x7 x8 x9).cng 1) ((Cert.Spec.params x2 x3 x4 x5 x6 x7 x8 x9).cnb 1) (val_main_v80 x0 x1 x2 x3 x4 x5 x6 x7) (val_main_v129 x0 x1 x2 x3 x4 x5 x6 x7 x8 x9) (val_main_v133 x6) (val_main_v135 x7) b s c1 h2
      (fun k => row_apply x6 1 (by decide) _ k) (fun k => row_apply x7 1 (by decide) _ k) c
  have t2 : ∀ c, val_main_v189 (F := Ideal) x0 x1 x2 x3 x4 x5 x6 x7 x8 x9 (ix3 b s c) = Cert.Spec.tok2 (Cert.Spec.params x2 x3 x4 x5 x6 x7 x8 x9) (Cert.Spec.embRow x1 (x0 (ix2 b s))) c := fun c => by
    rw [tok2_eq]
    exact tokArr_row (Cert.Spec.tok1 (Cert.Spec.params x2 x3 x4 x5 x6 x7 x8 x9) (Cert.Spec.embRow x1 (x0 (ix2 b s)))) (Cert.Spec.hid (Cert.Spec.params x2 x3 x4 x5 x6 x7 x8 x9) 1 (Cert.Spec.ctx1 (Cert.Spec.params x2 x3 x4 x5 x6 x7 x8 x9) (Cert.Spec.embRow x1 (x0 (ix2 b s)))) (Cert.Spec.tok1 (Cert.Spec.params x2 x3 x4 x5 x6 x7 x8 x9) (Cert.Spec.embRow x1 (x0 (ix2 b s)))))
      ((Cert.Spec.params x2 x3 x4 x5 x6 x7 x8 x9).tng 1) ((Cert.Spec.params x2 x3 x4 x5 x6 x7 x8 x9).tnb 1) (val_main_v110 x0 x1 x2 x3 x4 x5 x8 x9) (val_main_v129 x0 x1 x2 x3 x4 x5 x6 x7 x8 x9) (val_main_v163 x8) (val_main_v165 x9) b s t1 h2
      (fun k => row_apply x8 1 (by decide) _ k) (fun k => row_apply x9 1 (by decide) _ k) c
  have h3 : ∀ j, val_main_v208 (F := Ideal) x0 x1 x2 x3 x4 x5 x6 x7 x8 x9 (ix3 b s j)
      = Cert.Spec.hid (Cert.Spec.params x2 x3 x4 x5 x6 x7 x8 x9) 2 (Cert.Spec.ctx2 (Cert.Spec.params x2 x3 x4 x5 x6 x7 x8 x9) (Cert.Spec.embRow x1 (x0 (ix2 b s)))) (Cert.Spec.tok2 (Cert.Spec.params x2 x3 x4 x5 x6 x7 x8 x9) (Cert.Spec.embRow x1 (x0 (ix2 b s)))) j := fun j => by
    rw [hid3_eq]
    exact hidArr_row (Cert.Spec.params x2 x3 x4 x5 x6 x7 x8 x9) 2 (Cert.Spec.ctx2 (Cert.Spec.params x2 x3 x4 x5 x6 x7 x8 x9) (Cert.Spec.embRow x1 (x0 (ix2 b s)))) (Cert.Spec.tok2 (Cert.Spec.params x2 x3 x4 x5 x6 x7 x8 x9) (Cert.Spec.embRow x1 (x0 (ix2 b s))))
      (val_main_v159 x0 x1 x2 x3 x4 x5 x6 x7 x8 x9) (val_main_v189 x0 x1 x2 x3 x4 x5 x6 x7 x8 x9) (val_main_v192 x4) (val_main_v195 x5) (val_main_v201 x4) (val_main_v204 x5)
      b s c2 t2
      (fun o k => weight_apply x4 2 0 (by decide) (by decide) _ o k) (fun o => bias_apply x5 2 0 (by decide) (by decide) _ o)
      (fun o k => weight_apply x4 2 1 (by decide) (by decide) _ o k) (fun o => bias_apply x5 2 1 (by decide) (by decide) _ o) j
  have t3 : ∀ c, val_main_v268 (F := Ideal) x0 x1 x2 x3 x4 x5 x6 x7 x8 x9 (ix3 b s c) = Cert.Spec.tok3 (Cert.Spec.params x2 x3 x4 x5 x6 x7 x8 x9) (Cert.Spec.embRow x1 (x0 (ix2 b s))) c := fun c => by
    rw [tok3_eq]
    exact tokArr_row (Cert.Spec.tok2 (Cert.Spec.params x2 x3 x4 x5 x6 x7 x8 x9) (Cert.Spec.embRow x1 (x0 (ix2 b s)))) (Cert.Spec.hid (Cert.Spec.params x2 x3 x4 x5 x6 x7 x8 x9) 2 (Cert.Spec.ctx2 (Cert.Spec.params x2 x3 x4 x5 x6 x7 x8 x9) (Cert.Spec.embRow x1 (x0 (ix2 b s)))) (Cert.Spec.tok2 (Cert.Spec.params x2 x3 x4 x5 x6 x7 x8 x9) (Cert.Spec.embRow x1 (x0 (ix2 b s)))))
      ((Cert.Spec.params x2 x3 x4 x5 x6 x7 x8 x9).tng 2) ((Cert.Spec.params x2 x3 x4 x5 x6 x7 x8 x9).tnb 2) (val_main_v189 x0 x1 x2 x3 x4 x5 x6 x7 x8 x9) (val_main_v208 x0 x1 x2 x3 x4 x5 x6 x7 x8 x9) (val_main_v242 x8) (val_main_v244 x9) b s t2 h3
      (fun k => row_apply x8 2 (by decide) _ k) (fun k => row_apply x9 2 (by decide) _ k) c
  -- the last product and the bias
  have el : ∀ k, lidx_main_v269 (ix3 b s v) k = ix3 b s k := fun k => funext fun a => Fin.ext (by
    match a with
    | ⟨0, _⟩ => rfl
    | ⟨1, _⟩ => rfl
    | ⟨2, _⟩ => rfl)
  have er : ∀ k, ridx_main_v269 (ix3 b s v) k = ix2 v k := fun k => funext fun a => Fin.ext (by
    match a with
    | ⟨0, _⟩ => rfl
    | ⟨1, _⟩ => rfl)
  have eb : idx_main_v270 (idx_main_v271 (ix3 b s v)) = ix1 v := funext fun a => Fin.ext (by
    match a with
    | ⟨0, _⟩ => rfl)
  rw [val_main_v272_apply]
  show val_main_v269 (F := Ideal) x0 x1 x2 x3 x4 x5 x6 x7 x8 x9 x10 (ix3 b s v) + val_main_v271 (F := Ideal) x11 (ix3 b s v)
    = (∑ k : Fin 512, Cert.Spec.tok3 (Cert.Spec.params x2 x3 x4 x5 x6 x7 x8 x9) (Cert.Spec.embRow x1 (x0 (ix2 b s))) k * x10 (ix2 v k)) + x11 (ix1 v)
  rw [val_main_v269_apply, val_main_v271_apply, val_main_v270_apply]
  refine congrArg₂ (· + ·) (Finset.sum_congr rfl fun k _ => ?_) (congrArg x11 eb)
  exact congrArg₂ (· * ·) ((congrArg (val_main_v268 (F := Ideal) x0 x1 x2 x3 x4 x5 x6 x7 x8 x9) (el k)).trans (t3 k)) (congrArg x10 (er k))

end Cert.ReferenceIdeal.RefValue

end
-- ==== Proof.PreIds.lean ====
/-
  What the precondition says of the token ids: its last conjunct, `all (ids ≥ 0)` as a signed compare against a
  broadcast zero reduced by `and`, gives at every position that the id, read as a signed integer, is not negative.
-/
import proofs.«407089_j83803401879983_3_alg».proof.Pre_finite_inputs
import Idealize.ShloMosaic.Lib.ReduceAll
import Idealize.ShloMosaic.Lib.Affine
import Idealize.ShloMosaic.Lib.ValueIdx

noncomputable section

namespace Cert.PreIds

open Idealize.ShloMosaic Cert.Pre_finite_inputs

instance : Subsingleton S_.Idx := ⟨fun a b => funext fun d => d.elim0⟩

/-- Under the precondition every token id is a non-negative signed integer. -/
theorem ids_nonneg [Cert.Pre_finite_inputs.Facts] {F : FTy → Type} [FloatOps F]
    (x0 : IVec S4x1024 32) (x1 : FVec F S32000x512 .f32) (x2 x3 : FVec F S512 .f32) (x4 : FVec F S3x2x1024x1024 .f32)
    (x5 : FVec F S3x2x1024 .f32) (x6 x7 x8 x9 : FVec F S3x512 .f32) (x10 : FVec F S32000x512 .f32) (x11 : FVec F S32000 .f32)
    (h : fn (F := F) x0 x1 x2 x3 x4 x5 x6 x7 x8 x9 x10 x11 = fun _ => 1#1) (i : S4x1024.Idx) : 0 ≤ (x0 i).toInt := by
  have h0 := congrFun h ValueIdx.ix0
  dsimp only [fn, fn_part1, fn_part2, fn_part3] at h0
  obtain ⟨-, h2⟩ := IntOp.andi_eq_one.1 h0
  have h3 := Host.reduce_andi_all _ _ _ _ _ h2 i
  have h4 : IntOp.cmpi .sge (x0 i) 0#32 = 1#1 := h3
  have h5 : (0#32).sle (x0 i) = true := by
    have h4' : BitVec.ofBool ((0#32).sle (x0 i)) = 1#1 := h4
    revert h4'
    cases (0#32).sle (x0 i) <;> decide
  have h6 : (0#32 : BitVec 32).toInt ≤ (x0 i).toInt := by
    simpa [BitVec.sle] using h5
  simpa using h6

end Cert.PreIds

end
-- ==== Proof.lean ====
/-
  The certificate's claims, assembled.

  Both programs run: the kernel's program by its generated frame (stated once more with the result buffer named),
  the reference by its run over named stages. Under the precondition every token id is a non-negative signed
  integer, so the reference's wrap of negative ids is the identity and both programs read the same table row for
  every token (above the table's last row both clamp alike). From there both compute, row by row, the network of
  `Cert.Spec`: the kernel's two grids of row blocks and the reference's batch-by-sequence arrays are the same
  function of the rows, and at the extended reals a change of float format is the identity, a matrix unit's
  contraction and the host's are one sum, a lane reduction and the host's reduce are one sum. Each side is shown
  equal, index by index, to `Cert.Spec.out` of the argument arrays; the two results are therefore equal.
  The idealization ledger is empty, so `preserves` holds trivially.
-/
import proofs.«407089_j83803401879983_3_alg».proof.Defs
import proofs.«407089_j83803401879983_3_alg».proof.Proof.Gen.Kernel
import proofs.«407089_j83803401879983_3_alg».proof.Proof.Gen.Kernel.Frame
import proofs.«407089_j83803401879983_3_alg».proof.Proof.Gen.KernelIdeal
import proofs.«407089_j83803401879983_3_alg».proof.Proof.Gen.KernelIdeal.Frame
import proofs.«407089_j83803401879983_3_alg».proof.Proof.Gen.ReferenceIdeal
import proofs.«407089_j83803401879983_3_alg».proof.Proof.Gen.Pre_finite_inputs
import proofs.«407089_j83803401879983_3_alg».proof.Proof.KRun
import proofs.«407089_j83803401879983_3_alg».proof.Proof.KArrays
import proofs.«407089_j83803401879983_3_alg».proof.Proof.RefRun
import proofs.«407089_j83803401879983_3_alg».proof.Proof.RefValue
import proofs.«407089_j83803401879983_3_alg».proof.Proof.PreIds
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both results are `Cert.Spec.out` of the (agreeing) argument arrays, index by index. -/
theorem algebraic : Cert.algebraic_KernelIdeal_ReferenceIdeal := by
  intro m ρ m' ρ' hpre hagree
  refine ⟨fun c => fun i => Cert.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2), ?_, ?_⟩
  · refine (θ_run Cert.KernelIdeal.defs _ _).mono (fun r h c => ⟨(h c).1.trans ?_, (h c).2⟩)
      (Cert.KernelIdeal.GenRun.run (F := Ideal) m ρ)
    funext i
    obtain ⟨b, s, v, rfl⟩ : ∃ (b : Fin 4) (s : Fin 1024) (v : Fin 32000), i = ix3 b s v := ⟨i 0, i 1, i 2, eq_ix3 i⟩
    exact Cert.KernelIdeal.KArrays.result_apply m ρ c b s v
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10, h11⟩ := hagree c
    rw [h0, h1, h2, h3, h4, h5, h6, h7, h8, h9, h10, h11]
    funext i
    obtain ⟨b, s, v, rfl⟩ : ∃ (b : Fin 4) (s : Fin 1024) (v : Fin 32000), i = ix3 b s v := ⟨i 0, i 1, i 2, eq_ix3 i⟩
    exact Cert.ReferenceIdeal.RefValue.result_apply _ _ _ _ _ _ _ _ _ _ _ _
      (fun j => Cert.PreIds.ids_nonneg (F := Ideal) _ _ _ _ _ _ _ _ _ _ _ _ (hpre c) j) b s v

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
